-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200x16384 : Shape := ⟨2, ![200, 16384]⟩
abbrev S2x12800 : Shape := ⟨2, ![2, 12800]⟩
abbrev S12800 : Shape := ⟨1, ![12800]⟩
abbrev S4096x16384 : Shape := ⟨2, ![4096, 16384]⟩
abbrev S4096 : Shape := ⟨1, ![4096]⟩
abbrev S512x4096 : Shape := ⟨2, ![512, 4096]⟩
abbrev S512 : Shape := ⟨1, ![512]⟩
abbrev S100x200 : Shape := ⟨2, ![100, 200]⟩
abbrev S100 : Shape := ⟨1, ![100]⟩
abbrev S50x100 : Shape := ⟨2, ![50, 100]⟩
abbrev S50 : Shape := ⟨1, ![50]⟩
abbrev S10x50 : Shape := ⟨2, ![10, 50]⟩
abbrev S10 : Shape := ⟨1, ![10]⟩
abbrev S_ : Shape := ⟨0, ![]⟩

class Facts : Prop where
  bcast_S_S200x16384 : S_.BroadcastsInDim S200x16384 (![] : Fin 0 → Fin S200x16384.rank)
  reducesTo_S200x16384_S_d0_1 : S200x16384.ReducesTo [0, 1] S_
  h_S_ : 0 < S_.numel
  bcast_S_S12800 : S_.BroadcastsInDim S12800 (![] : Fin 0 → Fin S12800.rank)
  reducesTo_S12800_S_d0 : S12800.ReducesTo [0] S_
  bcast_S_S4096x16384 : S_.BroadcastsInDim S4096x16384 (![] : Fin 0 → Fin S4096x16384.rank)
  reducesTo_S4096x16384_S_d0_1 : S4096x16384.ReducesTo [0, 1] S_
  bcast_S_S4096 : S_.BroadcastsInDim S4096 (![] : Fin 0 → Fin S4096.rank)
  reducesTo_S4096_S_d0 : S4096.ReducesTo [0] S_
  bcast_S_S512x4096 : S_.BroadcastsInDim S512x4096 (![] : Fin 0 → Fin S512x4096.rank)
  reducesTo_S512x4096_S_d0_1 : S512x4096.ReducesTo [0, 1] S_
  bcast_S_S512 : S_.BroadcastsInDim S512 (![] : Fin 0 → Fin S512.rank)
  reducesTo_S512_S_d0 : S512.ReducesTo [0] S_
  bcast_S_S100x200 : S_.BroadcastsInDim S100x200 (![] : Fin 0 → Fin S100x200.rank)
  reducesTo_S100x200_S_d0_1 : S100x200.ReducesTo [0, 1] S_
  bcast_S_S100 : S_.BroadcastsInDim S100 (![] : Fin 0 → Fin S100.rank)
  reducesTo_S100_S_d0 : S100.ReducesTo [0] S_
  bcast_S_S50x100 : S_.BroadcastsInDim S50x100 (![] : Fin 0 → Fin S50x100.rank)
  reducesTo_S50x100_S_d0_1 : S50x100.ReducesTo [0, 1] S_
  bcast_S_S50 : S_.BroadcastsInDim S50 (![] : Fin 0 → Fin S50.rank)
  reducesTo_S50_S_d0 : S50.ReducesTo [0] S_
  bcast_S_S10x50 : S_.BroadcastsInDim S10x50 (![] : Fin 0 → Fin S10x50.rank)
  reducesTo_S10x50_S_d0_1 : S10x50.ReducesTo [0, 1] S_
  bcast_S_S10 : S_.BroadcastsInDim S10 (![] : Fin 0 → Fin S10.rank)
  reducesTo_S10_S_d0 : S10.ReducesTo [0] S_
  bcast_S_S2x12800 : S_.BroadcastsInDim S2x12800 (![] : Fin 0 → Fin S2x12800.rank)
  reducesTo_S2x12800_S_d0_1 : S2x12800.ReducesTo [0, 1] S_

variable [Facts]

def fn_part4 {F : FTy → Type} [FloatOps F] (main_arg1 : IVec S2x12800 32) (main_v63 : IVec S_ 1) (main_v67 : IVec S_ 1) : IVec S_ 1 :=
  let main_v68 : IVec S_ 1 := andi main_v63 main_v67
  let main_c_26 : IVec S_ 32 := constantI S_ 32 0#32
  let main_v69 : IVec S2x12800 32 := broadcastInDim S2x12800 ![] bcast_S_S2x12800 main_c_26
  let main_v70 : IVec S2x12800 1 := cmpi .sge main_arg1 main_v69
  let main_c_27 : IVec S_ 32 := constantI S_ 32 200#32
  let main_v71 : IVec S2x12800 32 := broadcastInDim S2x12800 ![] bcast_S_S2x12800 main_c_27
  let main_v72 : IVec S2x12800 1 := cmpi .slt main_arg1 main_v71
  let main_v73 : IVec S2x12800 1 := andi main_v70 main_v72
  let main_c_28 : IVec S_ 1 := constantI S_ 1 1#1
  let main_v74 : IVec S_ 1 := (fun x v => Host.reduce IntOp.andi x v reducesTo_S2x12800_S_d0_1 h_S_) main_v73 main_c_28
  let main_v75 : IVec S_ 1 := andi main_v68 main_v74
  main_v75

def fn_part3 {F : FTy → Type} [FloatOps F] (main_arg1 : IVec S2x12800 32) (main_arg12 : FVec F S50 .f32) (main_arg13 : FVec F S10x50 .f32) (main_arg14 : FVec F S10 .f32) (main_v48 : IVec S_ 1) (main_v49 : FVec F S50x100 .f32) (main_v50 : FVec F S50x100 .f32) : IVec S_ 1 :=
  let main_v51 : IVec S50x100 1 := cmpf .olt main_v49 main_v50
  let main_c_19 : IVec S_ 1 := constantI S_ 1 1#1
  let main_v52 : IVec S_ 1 := (fun x v => Host.reduce IntOp.andi x v reducesTo_S50x100_S_d0_1 h_S_) main_v51 main_c_19
  let main_v53 : IVec S_ 1 := andi main_v48 main_v52
  let main_v54 : FVec F S50 .f32 := Host.absf main_arg12
  let main_cst_20 : FVec F S_ .f32 := constant S_ .f32 0x7F800000#32
  let main_v55 : FVec F S50 .f32 := broadcastInDim S50 ![] bcast_S_S50 main_cst_20
  let main_v56 : IVec S50 1 := cmpf .olt main_v54 main_v55
  let main_c_21 : IVec S_ 1 := constantI S_ 1 1#1
  let main_v57 : IVec S_ 1 := (fun x v => Host.reduce IntOp.andi x v reducesTo_S50_S_d0 h_S_) main_v56 main_c_21
  let main_v58 : IVec S_ 1 := andi main_v53 main_v57
  let main_v59 : FVec F S10x50 .f32 := Host.absf main_arg13
  let main_cst_22 : FVec F S_ .f32 := constant S_ .f32 0x7F800000#32
  let main_v60 : FVec F S10x50 .f32 := broadcastInDim S10x50 ![] bcast_S_S10x50 main_cst_22
  let main_v61 : IVec S10x50 1 := cmpf .olt main_v59 main_v60
  let main_c_23 : IVec S_ 1 := constantI S_ 1 1#1
  let main_v62 : IVec S_ 1 := (fun x v => Host.reduce IntOp.andi x v reducesTo_S10x50_S_d0_1 h_S_) main_v61 main_c_23
  let main_v63 : IVec S_ 1 := andi main_v58 main_v62
  let main_v64 : FVec F S10 .f32 := Host.absf main_arg14
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_arg1 main_v63 main_v67

def fn_part2 {F : FTy → Type} [FloatOps F] (main_arg1 : IVec S2x12800 32) (main_arg8 : FVec F S512 .f32) (main_arg9 : FVec F S100x200 .f32) (main_arg10 : FVec F S100 .f32) (main_arg11 : FVec F S50x100 .f32) (main_arg12 : FVec F S50 .f32) (main_arg13 : FVec F S10x50 .f32) (main_arg14 : FVec F S10 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S100x200 .f32 := Host.absf main_arg9
  let main_cst_14 : FVec F S_ .f32 := constant S_ .f32 0x7F800000#32
  let main_v40 : FVec F S100x200 .f32 := broadcastInDim S100x200 ![] bcast_S_S100x200 main_cst_14
  let main_v41 : IVec S100x200 1 := cmpf .olt main_v39 main_v40
  let main_c_15 : IVec S_ 1 := constantI S_ 1 1#1
  let main_v42 : IVec S_ 1 := (fun x v => Host.reduce IntOp.andi x v reducesTo_S100x200_S_d0_1 h_S_) main_v41 main_c_15
  let main_v43 : IVec S_ 1 := andi main_v38 main_v42
  let main_v44 : FVec F S100 .f32 := Host.absf main_arg10
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  let main_v49 : FVec F S50x100 .f32 := Host.absf main_arg11
  let main_cst_18 : FVec F S_ .f32 := constant S_ .f32 0x7F800000#32
  let main_v50 : FVec F S50x100 .f32 := broadcastInDim S50x100 ![] bcast_S_S50x100 main_cst_18
  fn_part3 (F := F) main_arg1 main_arg12 main_arg13 main_arg14 main_v48 main_v49 main_v50

def fn_part1 {F : FTy → Type} [FloatOps F] (main_arg1 : IVec S2x12800 32) (main_arg5 : FVec F S4096 .f32) (main_arg6 : FVec F S512x4096 .f32) (main_arg7 : FVec F S512x4096 .f32) (main_arg8 : FVec F S512 .f32) (main_arg9 : FVec F S100x200 .f32) (main_arg10 : FVec F S100 .f32) (main_arg11 : FVec F S50x100 .f32) (main_arg12 : FVec F S50 .f32) (main_arg13 : FVec F S10x50 .f32) (main_arg14 : FVec F S10 .f32) (main_v13 : IVec S_ 1) (main_v16 : IVec S4096x16384 1) : IVec S_ 1 :=
  let main_c_5 : IVec S_ 1 := constantI S_ 1 1#1
  let main_v17 : IVec S_ 1 := (fun x v => Host.reduce IntOp.andi x v reducesTo_S4096x16384_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S512x4096 .f32 := Host.absf main_arg6
  let main_cst_8 : FVec F S_ .f32 := constant S_ .f32 0x7F800000#32
  let main_v25 : FVec F S512x4096 .f32 := broadcastInDim S512x4096 ![] bcast_S_S512x4096 main_cst_8
  let main_v26 : IVec S512x4096 1 := cmpf .olt main_v24 main_v25
  let main_c_9 : IVec S_ 1 := constantI S_ 1 1#1
  let main_v27 : IVec S_ 1 := (fun x v => Host.reduce IntOp.andi x v reducesTo_S512x4096_S_d0_1 h_S_) main_v26 main_c_9
  let main_v28 : IVec S_ 1 := andi main_v23 main_v27
  let main_v29 : FVec F S512x4096 .f32 := Host.absf main_arg7
  let main_cst_10 : FVec F S_ .f32 := constant S_ .f32 0x7F800000#32
  let main_v30 : FVec F S512x4096 .f32 := broadcastInDim S512x4096 ![] bcast_S_S512x4096 main_cst_10
  let main_v31 : IVec S512x4096 1 := cmpf .olt main_v29 main_v30
  let main_c_11 : IVec S_ 1 := constantI S_ 1 1#1
  let main_v32 : IVec S_ 1 := (fun x v => Host.reduce IntOp.andi x v reducesTo_S512x4096_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S200x16384 .f32) (main_arg1 : IVec S2x12800 32) (main_arg2 : FVec F S12800 .f32) (main_arg3 : FVec F S4096x16384 .f32) (main_arg4 : FVec F S4096x16384 .f32) (main_arg5 : FVec F S4096 .f32) (main_arg6 : FVec F S512x4096 .f32) (main_arg7 : FVec F S512x4096 .f32) (main_arg8 : FVec F S512 .f32) (main_arg9 : FVec F S100x200 .f32) (main_arg10 : FVec F S100 .f32) (main_arg11 : FVec F S50x100 .f32) (main_arg12 : FVec F S50 .f32) (main_arg13 : FVec F S10x50 .f32) (main_arg14 : FVec F S10 .f32) : IVec S_ 1 :=
  let main_v0 : FVec F S200x16384 .f32 := Host.absf main_arg0
  let main_cst : FVec F S_ .f32 := constant S_ .f32 0x7F800000#32
  let main_v1 : FVec F S200x16384 .f32 := broadcastInDim S200x16384 ![] bcast_S_S200x16384 main_cst
  let main_v2 : IVec S200x16384 1 := cmpf .olt main_v0 main_v1
  let main_c : IVec S_ 1 := constantI S_ 1 1#1
  let main_v3 : IVec S_ 1 := (fun x v => Host.reduce IntOp.andi x v reducesTo_S200x16384_S_d0_1 h_S_) main_v2 main_c
  let main_v4 : FVec F S12800 .f32 := Host.absf main_arg2
  let main_cst_0 : FVec F S_ .f32 := constant S_ .f32 0x7F800000#32
  let main_v5 : FVec F S12800 .f32 := broadcastInDim S12800 ![] bcast_S_S12800 main_cst_0
  let main_v6 : IVec S12800 1 := cmpf .olt main_v4 main_v5
  let main_c_1 : IVec S_ 1 := constantI S_ 1 1#1
  let main_v7 : IVec S_ 1 := (fun x v => Host.reduce IntOp.andi x v reducesTo_S12800_S_d0 h_S_) main_v6 main_c_1
  let main_v8 : IVec S_ 1 := andi main_v3 main_v7
  let main_v9 : FVec F S4096x16384 .f32 := Host.absf main_arg3
  let main_cst_2 : FVec F S_ .f32 := constant S_ .f32 0x7F800000#32
  let main_v10 : FVec F S4096x16384 .f32 := broadcastInDim S4096x16384 ![] bcast_S_S4096x16384 main_cst_2
  let main_v11 : IVec S4096x16384 1 := cmpf .olt main_v9 main_v10
  let main_c_3 : IVec S_ 1 := constantI S_ 1 1#1
  let main_v12 : IVec S_ 1 := (fun x v => Host.reduce IntOp.andi x v reducesTo_S4096x16384_S_d0_1 h_S_) main_v11 main_c_3
  let main_v13 : IVec S_ 1 := andi main_v8 main_v12
  let main_v14 : FVec F S4096x16384 .f32 := Host.absf main_arg4
  let main_cst_4 : FVec F S_ .f32 := constant S_ .f32 0x7F800000#32
  let main_v15 : FVec F S4096x16384 .f32 := broadcastInDim S4096x16384 ![] bcast_S_S4096x16384 main_cst_4
  let main_v16 : IVec S4096x16384 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S200x16384 : Shape := ⟨2, ![200, 16384]⟩
abbrev S2x12800 : Shape := ⟨2, ![2, 12800]⟩
abbrev S12800 : Shape := ⟨1, ![12800]⟩
abbrev S4096x16384 : Shape := ⟨2, ![4096, 16384]⟩
abbrev S4096 : Shape := ⟨1, ![4096]⟩
abbrev S512x4096 : Shape := ⟨2, ![512, 4096]⟩
abbrev S512 : Shape := ⟨1, ![512]⟩
abbrev S100x200 : Shape := ⟨2, ![100, 200]⟩
abbrev S100 : Shape := ⟨1, ![100]⟩
abbrev S50x100 : Shape := ⟨2, ![50, 100]⟩
abbrev S50 : Shape := ⟨1, ![50]⟩
abbrev S10x50 : Shape := ⟨2, ![10, 50]⟩
abbrev S10 : Shape := ⟨1, ![10]⟩
abbrev S1x12800 : Shape := ⟨2, ![1, 12800]⟩
abbrev S_ : Shape := ⟨0, ![]⟩
abbrev S200x200 : Shape := ⟨2, ![200, 200]⟩
abbrev S12800x1 : Shape := ⟨2, ![12800, 1]⟩
abbrev S12800x2 : Shape := ⟨2, ![12800, 2]⟩
abbrev S200 : Shape := ⟨1, ![200]⟩
abbrev S200x1 : Shape := ⟨2, ![200, 1]⟩
abbrev S1x4096 : Shape := ⟨2, ![1, 4096]⟩
abbrev S200x4096 : Shape := ⟨2, ![200, 4096]⟩
abbrev S512x2048 : Shape := ⟨2, ![512, 2048]⟩
abbrev S1x512 : Shape := ⟨2, ![1, 512]⟩
abbrev S200x512 : Shape := ⟨2, ![200, 512]⟩
abbrev S200x2048 : Shape := ⟨2, ![200, 2048]⟩
abbrev S128x4096 : Shape := ⟨2, ![128, 4096]⟩
abbrev S1x128 : Shape := ⟨2, ![1, 128]⟩
abbrev S200x128 : Shape := ⟨2, ![200, 128]⟩
abbrev S512x200 : Shape := ⟨2, ![512, 200]⟩
abbrev S200x100 : Shape := ⟨2, ![200, 100]⟩
abbrev S512x100 : Shape := ⟨2, ![512, 100]⟩
abbrev S1x100 : Shape := ⟨2, ![1, 100]⟩
abbrev S100x50 : Shape := ⟨2, ![100, 50]⟩
abbrev S512x50 : Shape := ⟨2, ![512, 50]⟩
abbrev S1x50 : Shape := ⟨2, ![1, 50]⟩
abbrev S50x10 : Shape := ⟨2, ![50, 10]⟩
abbrev S512x10 : Shape := ⟨2, ![512, 10]⟩
abbrev S1x10 : Shape := ⟨2, ![1, 10]⟩

abbrev nBuf : Space → Nat
  | .hbm => 90
  | .vmem => 22
  | .smem => 0
  | _ => 0

abbrev bufTy : (tb : Table) → Fin (tcTables nBuf tb) → BufTy
  | .hbm, ⟨0, _⟩ => ⟨S200x16384, .f32⟩
  | .hbm, ⟨1, _⟩ => ⟨S2x12800, .i32⟩
  | .hbm, ⟨2, _⟩ => ⟨S12800, .f32⟩
  | .hbm, ⟨3, _⟩ => ⟨S4096x16384, .f32⟩
  | .hbm, ⟨4, _⟩ => ⟨S4096x16384, .f32⟩
  | .hbm, ⟨5, _⟩ => ⟨S4096, .f32⟩
  | .hbm, ⟨6, _⟩ => ⟨S512x4096, .f32⟩
  | .hbm, ⟨7, _⟩ => ⟨S512x4096, .f32⟩
  | .hbm, ⟨8, _⟩ => ⟨S512, .f32⟩
  | .hbm, ⟨9, _⟩ => ⟨S100x200, .f32⟩
  | .hbm, ⟨10, _⟩ => ⟨S100, .f32⟩
  | .hbm, ⟨11, _⟩ => ⟨S50x100, .f32⟩
  | .hbm, ⟨12, _⟩ => ⟨S50, .f32⟩
  | .hbm, ⟨13, _⟩ => ⟨S10x50, .f32⟩
  | .hbm, ⟨14, _⟩ => ⟨S10, .f32⟩
  | .hbm, ⟨15, _⟩ => ⟨S1x12800, .i32⟩
  | .hbm, ⟨16, _⟩ => ⟨S12800, .i32⟩
  | .hbm, ⟨17, _⟩ => ⟨S1x12800, .i32⟩
  | .hbm, ⟨18, _⟩ => ⟨S12800, .i32⟩
  | .hbm, ⟨19, _⟩ => ⟨S_, .f32⟩
  | .hbm, ⟨20, _⟩ => ⟨S200x200, .f32⟩
  | .hbm, ⟨21, _⟩ => ⟨S_, .i32⟩
  | .hbm, ⟨22, _⟩ => ⟨S12800, .i32⟩
  | .hbm, ⟨23, _⟩ => ⟨S12800, .i1⟩
  | .hbm, ⟨24, _⟩ => ⟨S_, .i32⟩
  | .hbm, ⟨25, _⟩ => ⟨S12800, .i32⟩
  | .hbm, ⟨26, _⟩ => ⟨S12800, .i32⟩
  | .hbm, ⟨27, _⟩ => ⟨S12800, .i32⟩
  | .hbm, ⟨28, _⟩ => ⟨S_, .i32⟩
  | .hbm, ⟨29, _⟩ => ⟨S12800, .i32⟩
  | .hbm, ⟨30, _⟩ => ⟨S12800, .i1⟩
  | .hbm, ⟨31, _⟩ => ⟨S_, .i32⟩
  | .hbm, ⟨32, _⟩ => ⟨S12800, .i32⟩
  | .hbm, ⟨33, _⟩ => ⟨S12800, .i32⟩
  | .hbm, ⟨34, _⟩ => ⟨S12800, .i32⟩
  | .hbm, ⟨35, _⟩ => ⟨S12800x1, .i32⟩
  | .hbm, ⟨36, _⟩ => ⟨S12800x1, .i32⟩
  | .hbm, ⟨37, _⟩ => ⟨S12800x2, .i32⟩
  | .hbm, ⟨38, _⟩ => ⟨S200x200, .f32⟩
  | .hbm, ⟨39, _⟩ => ⟨S_, .f32⟩
  | .hbm, ⟨40, _⟩ => ⟨S200, .f32⟩
  | .hbm, ⟨41, _⟩ => ⟨S_, .f32⟩
  | .hbm, ⟨42, _⟩ => ⟨S12800, .f32⟩
  | .hbm, ⟨43, _⟩ => ⟨S_, .i32⟩
  | .hbm, ⟨44, _⟩ => ⟨S12800, .i32⟩
  | .hbm, ⟨45, _⟩ => ⟨S12800, .i1⟩
  | .hbm, ⟨46, _⟩ => ⟨S_, .i32⟩
  | .hbm, ⟨47, _⟩ => ⟨S12800, .i32⟩
  | .hbm, ⟨48, _⟩ => ⟨S12800, .i32⟩
  | .hbm, ⟨49, _⟩ => ⟨S12800, .i32⟩
  | .hbm, ⟨50, _⟩ => ⟨S12800x1, .i32⟩
  | .hbm, ⟨51, _⟩ => ⟨S200, .f32⟩
  | .hbm, ⟨52, _⟩ => ⟨S_, .f32⟩
  | .hbm, ⟨53, _⟩ => ⟨S200, .f32⟩
  | .hbm, ⟨54, _⟩ => ⟨S200, .f32⟩
  | .hbm, ⟨55, _⟩ => ⟨S200x1, .f32⟩
  | .hbm, ⟨56, _⟩ => ⟨S200x200, .f32⟩
  | .hbm, ⟨57, _⟩ => ⟨S200x200, .f32⟩
  | .hbm, ⟨58, _⟩ => ⟨S200x16384, .f32⟩
  | .hbm, ⟨59, _⟩ => ⟨S200x16384, .bf16⟩
  | .hbm, ⟨60, _⟩ => ⟨S200x16384, .bf16⟩
  | .hbm, ⟨61, _⟩ => ⟨S1x4096, .f32⟩
  | .hbm, ⟨62, _⟩ => ⟨S200x4096, .f32⟩
  | .hbm, ⟨63, _⟩ => ⟨S200x4096, .f32⟩
  | .hbm, ⟨64, _⟩ => ⟨S200x4096, .bf16⟩
  | .hbm, ⟨65, _⟩ => ⟨S200x4096, .bf16⟩
  | .hbm, ⟨66, _⟩ => ⟨S1x512, .f32⟩
  | .hbm, ⟨67, _⟩ => ⟨S200x512, .f32⟩
  | .hbm, ⟨68, _⟩ => ⟨S512x200, .f32⟩
  | .hbm, ⟨69, _⟩ => ⟨S200x100, .f32⟩
  | .hbm, ⟨70, _⟩ => ⟨S512x100, .f32⟩
  | .hbm, ⟨71, _⟩ => ⟨S1x100, .f32⟩
  | .hbm, ⟨72, _⟩ => ⟨S512x100, .f32⟩
  | .hbm, ⟨73, _⟩ => ⟨S512x100, .f32⟩
  | .hbm, ⟨74, _⟩ => ⟨S_, .f32⟩
  | .hbm, ⟨75, _⟩ => ⟨S512x100, .f32⟩
  | .hbm, ⟨76, _⟩ => ⟨S512x100, .f32⟩
  | .hbm, ⟨77, _⟩ => ⟨S100x50, .f32⟩
  | .hbm, ⟨78, _⟩ => ⟨S512x50, .f32⟩
  | .hbm, ⟨79, _⟩ => ⟨S1x50, .f32⟩
  | .hbm, ⟨80, _⟩ => ⟨S512x50, .f32⟩
  | .hbm, ⟨81, _⟩ => ⟨S512x50, .f32⟩
  | .hbm, ⟨82, _⟩ => ⟨S_, .f32⟩
  | .hbm, ⟨83, _⟩ => ⟨S512x50, .f32⟩
  | .hbm, ⟨84, _⟩ => ⟨S512x50, .f32⟩
  | .hbm, ⟨85, _⟩ => ⟨S50x10, .f32⟩
  | .hbm, ⟨86, _⟩ => ⟨S512x10, .f32⟩
  | .hbm, ⟨87, _⟩ => ⟨S1x10, .f32⟩
  | .hbm, ⟨88, _⟩ => ⟨S512x10, .f32⟩
  | .hbm, ⟨89, _⟩ => ⟨S512x10, .f32⟩
  | .local _ .vmem, ⟨0, _⟩ => ⟨S200x16384, .bf16⟩
  | .local _ .vmem, ⟨1, _⟩ => ⟨S200x16384, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x512, .f32⟩
  | .local _ .vmem, ⟨7, _⟩ => ⟨S1x512, .f32⟩
  | .local _ .vmem, ⟨8, _⟩ => ⟨S200x512, .f32⟩
  | .local _ .vmem, ⟨9, _⟩ => ⟨S200x512, .f32⟩
  | .local _ .vmem, ⟨10, _⟩ => ⟨S200x512, .f32⟩
  | .local _ .vmem, ⟨11, _⟩ => ⟨S200x4096, .bf16⟩
  | .local _ .vmem, ⟨12, _⟩ => ⟨S200x4096, .bf16⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S1x128, .f32⟩
  | .local _ .vmem, ⟨18, _⟩ => ⟨S1x128, .f32⟩
  | .local _ .vmem, ⟨19, _⟩ => ⟨S200x128, .f32⟩
  | .local _ .vmem, ⟨20, _⟩ => ⟨S200x128, .f32⟩
  | .local _ .vmem, ⟨21, _⟩ => ⟨S200x128, .f32⟩
  | _, _ => ⟨S200x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call0_cst : Ref sig .tc := ⟨.hbm, 74, rfl⟩
abbrev main_call0_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let c0 : Index := 0#32
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S200x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S200x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S200x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 1], ![false, false]⟩

def k1_mult1 (i : grid1.Coords) : BitVec 32 :=
  let arg1 : BitVec 32 := BitVec.ofNat 32 (i 1).val
  let c4096_i32 : BitVec 32 := 4096#32
  let v3 : BitVec 32 := Scalar.muli arg1 c4096_i32
  v3
def k1_off1 (i : grid1.Coords) : Fin 2 → Nat :=
  let c0 : Index := 0#32
  let arg1 : BitVec 32 := BitVec.ofNat 32 (i 1).val
  let c4096_i32 : BitVec 32 := 4096#32
  let v3 : BitVec 32 := Scalar.muli arg1 c4096_i32
  let v4 : BitVec 32 := v3
  let v5 : Index := Scalar.indexCast v4
  ![0, v5.toNat]
def k1_cond2 (i : grid1.Coords) : BitVec 1 :=
  let arg1 : BitVec 32 := BitVec.ofNat 32 (i 1).val
  let c0_i32_11 : BitVec 32 := 0#32
  let v23 : BitVec 1 := Scalar.cmpi .eq arg1 c0_i32_11
  let v24 : BitVec 32 := Scalar.extui v23
  let c0_i32_12 : BitVec 32 := 0#32
  let v25 : BitVec 1 := Scalar.cmpi .ne v24 c0_i32_12
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S200x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S200x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S200x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S2x12800_S1x12800_0_0 : S2x12800.Slices ![0, 0] S1x12800
  shapeCasts_S1x12800_S12800 : S1x12800.ShapeCasts S12800
  slices_S2x12800_S1x12800_1_0 : S2x12800.Slices ![1, 0] S1x12800
  bcast_S_S200x200 : S_.BroadcastsInDim S200x200 (![] : Fin 0 → Fin S200x200.rank)
  bcast_S_S12800 : S_.BroadcastsInDim S12800 (![] : Fin 0 → Fin S12800.rank)
  bcast_S12800_S12800x1_0 : S12800.BroadcastsInDim S12800x1 (![0] : Fin 1 → Fin S12800x1.rank)
  concatenates_S12800x1_S12800x1_S12800x2_d1 : Shape.Concatenates [S12800x1, S12800x1] S12800x2 1
  bcast_S_S200 : S_.BroadcastsInDim S200 (![] : Fin 0 → Fin S200.rank)
  bcast_S200_S200x1_0 : S200.BroadcastsInDim S200x1 (![0] : Fin 1 → Fin S200x1.rank)
  bcast_S200x1_S200x200_0_1 : S200x1.BroadcastsInDim S200x200 (![0, 1] : Fin 2 → Fin S200x200.rank)
  bitsLt_bf16_f32 : FTy.bits .bf16 < FTy.bits .f32
  shapeCasts_S4096_S1x4096 : S4096.ShapeCasts S1x4096
  inb_S200x512_S200x512_0_0 : ∀ a, (![0, 0] : Fin 2 → Nat) a + S200x512.size a ≤ S200x512.size a
  h_S200x512 : 0 < S200x512.numel
  shapeCasts_S200x512_S200x512 : S200x512.ShapeCasts S200x512
  h_S200x2048 : 0 < S200x2048.numel
  shapeCasts_S200x2048_S200x2048 : S200x2048.ShapeCasts S200x2048
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  shapeCasts_S512_S1x512 : S512.ShapeCasts S1x512
  inb_S200x128_S200x128_0_0 : ∀ a, (![0, 0] : Fin 2 → Nat) a + S200x128.size a ≤ S200x128.size a
  h_S200x128 : 0 < S200x128.numel
  shapeCasts_S200x128_S200x128 : S200x128.ShapeCasts S200x128
  h_S200x4096 : 0 < S200x4096.numel
  shapeCasts_S200x4096_S200x4096 : S200x4096.ShapeCasts S200x4096
  inb_S128x4096_S128x4096_0_0 : ∀ a, (![0, 0] : Fin 2 → Nat) a + S128x4096.size a ≤ S128x4096.size a
  h_S128x4096 : 0 < S128x4096.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  transposes_S200x512_S512x200_1_0 : S200x512.Transposes [1, 0] S512x200
  transposes_S100x200_S200x100_1_0 : S100x200.Transposes [1, 0] S200x100
  bcast_S100_S1x100_1 : S100.BroadcastsInDim S1x100 (![1] : Fin 1 → Fin S1x100.rank)
  bcast_S1x100_S512x100_0_1 : S1x100.BroadcastsInDim S512x100 (![0, 1] : Fin 2 → Fin S512x100.rank)
  bcast_S_S512x100 : S_.BroadcastsInDim S512x100 (![] : Fin 0 → Fin S512x100.rank)
  transposes_S50x100_S100x50_1_0 : S50x100.Transposes [1, 0] S100x50
  bcast_S50_S1x50_1 : S50.BroadcastsInDim S1x50 (![1] : Fin 1 → Fin S1x50.rank)
  bcast_S1x50_S512x50_0_1 : S1x50.BroadcastsInDim S512x50 (![0, 1] : Fin 2 → Fin S512x50.rank)
  bcast_S_S512x50 : S_.BroadcastsInDim S512x50 (![] : Fin 0 → Fin S512x50.rank)
  transposes_S10x50_S50x10_1_0 : S10x50.Transposes [1, 0] S50x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S200x200_S12800x2_S12800_n_01_01_1_wf : ScatterDims.WF S200x200 S12800x2 S12800 [] [0, 1] [0, 1] 1
  scatter_S200_S12800x1_S12800_n_0_0_1_wf : ScatterDims.WF S200 S12800x1 S12800 [] [0] [0] 1
  dot_S200x200_S200x16384_S200x16384_1_0_0_1_n_n_wf : DotDims.WF S200x200 S200x16384 S200x16384 [1] [0] [0] [1] [] []
  dot_S200x2048_S512x2048_S200x512_1_1_0_0_n_n_wf : DotDims.WF S200x2048 S512x2048 S200x512 [1] [1] [0] [0] [] []
  dot_S200x200_S200x4096_S200x4096_1_0_0_1_n_n_wf : DotDims.WF S200x200 S200x4096 S200x4096 [1] [0] [0] [1] [] []
  dot_S200x4096_S128x4096_S200x128_1_1_0_0_n_n_wf : DotDims.WF S200x4096 S128x4096 S200x128 [1] [1] [0] [0] [] []
  dot_S512x200_S200x100_S512x100_1_0_0_1_n_n_wf : DotDims.WF S512x200 S200x100 S512x100 [1] [0] [0] [1] [] []
  dot_S512x100_S100x50_S512x50_1_0_0_1_n_n_wf : DotDims.WF S512x100 S100x50 S512x50 [1] [0] [0] [1] [] []
  dot_S512x50_S50x10_S512x10_1_0_0_1_n_n_wf : DotDims.WF S512x50 S50x10 S512x10 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S200x2048.size a ≤ S200x16384.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S200x16384.size a ≤ S200x16384.size a
  hwx0_0 : ∀ i : grid0.Coords, EltTy.bits .bf16 = 32 ∨ (Rect.block (s := S200x16384) S200x16384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x16384.size a ≤ S200x16384.size a
  hwx0_1 : ∀ i : grid0.Coords, EltTy.bits .bf16 = 32 ∨ (Rect.block (s := S200x16384) S200x16384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x16384.size a
  hwx0_2 : ∀ i : grid0.Coords, EltTy.bits .f32 = 32 ∨ (Rect.block (s := S4096x16384) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x16384.size a
  hwx0_3 : ∀ i : grid0.Coords, EltTy.bits .f32 = 32 ∨ (Rect.block (s := S4096x16384) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x512.size a ≤ S200x4096.size a
  hwx0_5 : ∀ i : grid0.Coords, EltTy.bits .f32 = 32 ∨ (Rect.block (s := S200x4096) S200x512.size (cc0_transform_5 i) (hinb0_5 i)).WholeWords (EltTy.packing .f32)
  hrank1 : 0 < grid1.rank
  k1_mult1_dvd : ∀ i : grid1.Coords, 4096 ∣ (k1_mult1 i).toNat
  k1_off1_inb : ∀ i : grid1.Coords, ∀ a, (k1_off1 i) a + S200x4096.size a ≤ S200x4096.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S200x4096.size a ≤ S200x4096.size a
  hwx1_0 : ∀ i : grid1.Coords, EltTy.bits .bf16 = 32 ∨ (Rect.block (s := S200x4096) S200x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200x4096.size a ≤ S200x4096.size a
  hwx1_1 : ∀ i : grid1.Coords, EltTy.bits .bf16 = 32 ∨ (Rect.block (s := S200x4096) S200x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S512x4096.size a
  hwx1_2 : ∀ i : grid1.Coords, EltTy.bits .f32 = 32 ∨ (Rect.block (s := S512x4096) S128x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S512x4096.size a
  hwx1_3 : ∀ i : grid1.Coords, EltTy.bits .f32 = 32 ∨ (Rect.block (s := S512x4096) S128x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x512.size a
  hwx1_4 : ∀ i : grid1.Coords, EltTy.bits .f32 = 32 ∨ (Rect.block (s := S1x512) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x128.size a ≤ S200x512.size a
  hwx1_5 : ∀ i : grid1.Coords, EltTy.bits .f32 = 32 ∨ (Rect.block (s := S200x512) S200x128.size (cc1_transform_5 i) (hinb1_5 i)).WholeWords (EltTy.packing .f32)

variable [Facts₀]

def scatter_S200x200_S12800x2_S12800_n_01_01_1 : ScatterDims S200x200 S12800x2 S12800 where
  updateWindowDims := []
  insertedWindowDims := [0, 1]
  scatterDimsToOperandDims := [0, 1]
  indexVectorDim := 1
  wf := scatter_S200x200_S12800x2_S12800_n_01_01_1_wf
def scatter_S200_S12800x1_S12800_n_0_0_1 : ScatterDims S200 S12800x1 S12800 where
  updateWindowDims := []
  insertedWindowDims := [0]
  scatterDimsToOperandDims := [0]
  indexVectorDim := 1
  wf := scatter_S200_S12800x1_S12800_n_0_0_1_wf
def dot_S200x200_S200x16384_S200x16384_1_0_0_1_n_n : DotDims S200x200 S200x16384 S200x16384 where
  lhsContracting := [1]
  rhsContracting := [0]
  lhsNonContracting := [0]
  rhsNonContracting := [1]
  lhsBatch := []
  rhsBatch := []
  wf := dot_S200x200_S200x16384_S200x16384_1_0_0_1_n_n_wf
def dot_S200x2048_S512x2048_S200x512_1_1_0_0_n_n : DotDims S200x2048 S512x2048 S200x512 where
  lhsContracting := [1]
  rhsContracting := [1]
  lhsNonContracting := [0]
  rhsNonContracting := [0]
  lhsBatch := []
  rhsBatch := []
  wf := dot_S200x2048_S512x2048_S200x512_1_1_0_0_n_n_wf
def dot_S200x200_S200x4096_S200x4096_1_0_0_1_n_n : DotDims S200x200 S200x4096 S200x4096 where
  lhsContracting := [1]
  rhsContracting := [0]
  lhsNonContracting := [0]
  rhsNonContracting := [1]
  lhsBatch := []
  rhsBatch := []
  wf := dot_S200x200_S200x4096_S200x4096_1_0_0_1_n_n_wf
def dot_S200x4096_S128x4096_S200x128_1_1_0_0_n_n : DotDims S200x4096 S128x4096 S200x128 where
  lhsContracting := [1]
  rhsContracting := [1]
  lhsNonContracting := [0]
  rhsNonContracting := [0]
  lhsBatch := []
  rhsBatch := []
  wf := dot_S200x4096_S128x4096_S200x128_1_1_0_0_n_n_wf
def dot_S512x200_S200x100_S512x100_1_0_0_1_n_n : DotDims S512x200 S200x100 S512x100 where
  lhsContracting := [1]
  rhsContracting := [0]
  lhsNonContracting := [0]
  rhsNonContracting := [1]
  lhsBatch := []
  rhsBatch := []
  wf := dot_S512x200_S200x100_S512x100_1_0_0_1_n_n_wf
def dot_S512x100_S100x50_S512x50_1_0_0_1_n_n : DotDims S512x100 S100x50 S512x50 where
  lhsContracting := [1]
  rhsContracting := [0]
  lhsNonContracting := [0]
  rhsNonContracting := [1]
  lhsBatch := []
  rhsBatch := []
  wf := dot_S512x100_S100x50_S512x50_1_0_0_1_n_n_wf
def dot_S512x50_S50x10_S512x10_1_0_0_1_n_n : DotDims S512x50 S50x10 S512x10 where
  lhsContracting := [1]
  rhsContracting := [0]
  lhsNonContracting := [0]
  rhsNonContracting := [1]
  lhsBatch := []
  rhsBatch := []
  wf := dot_S512x50_S50x10_S512x10_1_0_0_1_n_n_wf

abbrev win0_0 : Pipeline.Window sig grid0 :=
  Pipeline.Window.ofSpec (Memref.whole main_v35) S200x16384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v34) S200x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v37) S200x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v40) S200x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v39) S200x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v42) S200x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S200x16384 : Shape := ⟨2, ![200, 16384]⟩
abbrev S2x12800 : Shape := ⟨2, ![2, 12800]⟩
abbrev S12800 : Shape := ⟨1, ![12800]⟩
abbrev S4096x16384 : Shape := ⟨2, ![4096, 16384]⟩
abbrev S4096 : Shape := ⟨1, ![4096]⟩
abbrev S512x4096 : Shape := ⟨2, ![512, 4096]⟩
abbrev S512 : Shape := ⟨1, ![512]⟩
abbrev S100x200 : Shape := ⟨2, ![100, 200]⟩
abbrev S100 : Shape := ⟨1, ![100]⟩
abbrev S50x100 : Shape := ⟨2, ![50, 100]⟩
abbrev S50 : Shape := ⟨1, ![50]⟩
abbrev S10x50 : Shape := ⟨2, ![10, 50]⟩
abbrev S10 : Shape := ⟨1, ![10]⟩
abbrev S1x12800 : Shape := ⟨2, ![1, 12800]⟩
abbrev S_ : Shape := ⟨0, ![]⟩
abbrev S12800x1 : Shape := ⟨2, ![12800, 1]⟩
abbrev S12800x16384 : Shape := ⟨2, ![12800, 16384]⟩
abbrev S200 : Shape := ⟨1, ![200]⟩
abbrev S200x1 : Shape := ⟨2, ![200, 1]⟩
abbrev S16384x4096 : Shape := ⟨2, ![16384, 4096]⟩
abbrev S200x4096 : Shape := ⟨2, ![200, 4096]⟩
abbrev S1x4096 : Shape := ⟨2, ![1, 4096]⟩
abbrev S12800x4096 : Shape := ⟨2, ![12800, 4096]⟩
abbrev S4096x512 : Shape := ⟨2, ![4096, 512]⟩
abbrev S200x512 : Shape := ⟨2, ![200, 512]⟩
abbrev S1x512 : Shape := ⟨2, ![1, 512]⟩
abbrev S512x200 : Shape := ⟨2, ![512, 200]⟩
abbrev S200x100 : Shape := ⟨2, ![200, 100]⟩
abbrev S512x100 : Shape := ⟨2, ![512, 100]⟩
abbrev S1x100 : Shape := ⟨2, ![1, 100]⟩
abbrev S100x50 : Shape := ⟨2, ![100, 50]⟩
abbrev S512x50 : Shape := ⟨2, ![512, 50]⟩
abbrev S1x50 : Shape := ⟨2, ![1, 50]⟩
abbrev S50x10 : Shape := ⟨2, ![50, 10]⟩
abbrev S512x10 : Shape := ⟨2, ![512, 10]⟩
abbrev S1x10 : Shape := ⟨2, ![1, 10]⟩

abbrev nBuf : Space → Nat
  | .hbm => 116
  | .vmem => 0
  | .smem => 0
  | _ => 0

abbrev bufTy : (tb : Table) → Fin (tcTables nBuf tb) → BufTy
  | .hbm, ⟨0, _⟩ => ⟨S200x16384, .f32⟩
  | .hbm, ⟨1, _⟩ => ⟨S2x12800, .i32⟩
  | .hbm, ⟨2, _⟩ => ⟨S12800, .f32⟩
  | .hbm, ⟨3, _⟩ => ⟨S4096x16384, .f32⟩
  | .hbm, ⟨4, _⟩ => ⟨S4096x16384, .f32⟩
  | .hbm, ⟨5, _⟩ => ⟨S4096, .f32⟩
  | .hbm, ⟨6, _⟩ => ⟨S512x4096, .f32⟩
  | .hbm, ⟨7, _⟩ => ⟨S512x4096, .f32⟩
  | .hbm, ⟨8, _⟩ => ⟨S512, .f32⟩
  | .hbm, ⟨9, _⟩ => ⟨S100x200, .f32⟩
  | .hbm, ⟨10, _⟩ => ⟨S100, .f32⟩
  | .hbm, ⟨11, _⟩ => ⟨S50x100, .f32⟩
  | .hbm, ⟨12, _⟩ => ⟨S50, .f32⟩
  | .hbm, ⟨13, _⟩ => ⟨S10x50, .f32⟩
  | .hbm, ⟨14, _⟩ => ⟨S10, .f32⟩
  | .hbm, ⟨15, _⟩ => ⟨S1x12800, .i32⟩
  | .hbm, ⟨16, _⟩ => ⟨S12800, .i32⟩
  | .hbm, ⟨17, _⟩ => ⟨S1x12800, .i32⟩
  | .hbm, ⟨18, _⟩ => ⟨S12800, .i32⟩
  | .hbm, ⟨19, _⟩ => ⟨S_, .i32⟩
  | .hbm, ⟨20, _⟩ => ⟨S12800, .i32⟩
  | .hbm, ⟨21, _⟩ => ⟨S12800, .i1⟩
  | .hbm, ⟨22, _⟩ => ⟨S_, .i32⟩
  | .hbm, ⟨23, _⟩ => ⟨S12800, .i32⟩
  | .hbm, ⟨24, _⟩ => ⟨S12800, .i32⟩
  | .hbm, ⟨25, _⟩ => ⟨S12800, .i32⟩
  | .hbm, ⟨26, _⟩ => ⟨S12800x1, .i32⟩
  | .hbm, ⟨27, _⟩ => ⟨S12800x16384, .f32⟩
  | .hbm, ⟨28, _⟩ => ⟨S12800x1, .f32⟩
  | .hbm, ⟨29, _⟩ => ⟨S12800x16384, .f32⟩
  | .hbm, ⟨30, _⟩ => ⟨S12800x16384, .f32⟩
  | .hbm, ⟨31, _⟩ => ⟨S_, .f32⟩
  | .hbm, ⟨32, _⟩ => ⟨S200x16384, .f32⟩
  | .hbm, ⟨33, _⟩ => ⟨S12800x1, .i32⟩
  | .hbm, ⟨34, _⟩ => ⟨S200x16384, .f32⟩
  | .hbm, ⟨35, _⟩ => ⟨S_, .f32⟩
  | .hbm, ⟨36, _⟩ => ⟨S12800, .f32⟩
  | .hbm, ⟨37, _⟩ => ⟨S_, .f32⟩
  | .hbm, ⟨38, _⟩ => ⟨S200, .f32⟩
  | .hbm, ⟨39, _⟩ => ⟨S12800x1, .i32⟩
  | .hbm, ⟨40, _⟩ => ⟨S200, .f32⟩
  | .hbm, ⟨41, _⟩ => ⟨S_, .f32⟩
  | .hbm, ⟨42, _⟩ => ⟨S200, .f32⟩
  | .hbm, ⟨43, _⟩ => ⟨S200, .f32⟩
  | .hbm, ⟨44, _⟩ => ⟨S200x1, .f32⟩
  | .hbm, ⟨45, _⟩ => ⟨S200x16384, .f32⟩
  | .hbm, ⟨46, _⟩ => ⟨S200x16384, .f32⟩
  | .hbm, ⟨47, _⟩ => ⟨S16384x4096, .f32⟩
  | .hbm, ⟨48, _⟩ => ⟨S200x4096, .f32⟩
  | .hbm, ⟨49, _⟩ => ⟨S16384x4096, .f32⟩
  | .hbm, ⟨50, _⟩ => ⟨S200x4096, .f32⟩
  | .hbm, ⟨51, _⟩ => ⟨S200x4096, .f32⟩
  | .hbm, ⟨52, _⟩ => ⟨S1x4096, .f32⟩
  | .hbm, ⟨53, _⟩ => ⟨S200x4096, .f32⟩
  | .hbm, ⟨54, _⟩ => ⟨S200x4096, .f32⟩
  | .hbm, ⟨55, _⟩ => ⟨S_, .f32⟩
  | .hbm, ⟨56, _⟩ => ⟨S200x4096, .f32⟩
  | .hbm, ⟨57, _⟩ => ⟨S200x4096, .f32⟩
  | .hbm, ⟨58, _⟩ => ⟨S_, .i32⟩
  | .hbm, ⟨59, _⟩ => ⟨S12800, .i32⟩
  | .hbm, ⟨60, _⟩ => ⟨S12800, .i1⟩
  | .hbm, ⟨61, _⟩ => ⟨S_, .i32⟩
  | .hbm, ⟨62, _⟩ => ⟨S12800, .i32⟩
  | .hbm, ⟨63, _⟩ => ⟨S12800, .i32⟩
  | .hbm, ⟨64, _⟩ => ⟨S12800, .i32⟩
  | .hbm, ⟨65, _⟩ => ⟨S12800x1, .i32⟩
  | .hbm, ⟨66, _⟩ => ⟨S12800x4096, .f32⟩
  | .hbm, ⟨67, _⟩ => ⟨S12800x1, .f32⟩
  | .hbm, ⟨68, _⟩ => ⟨S12800x4096, .f32⟩
  | .hbm, ⟨69, _⟩ => ⟨S12800x4096, .f32⟩
  | .hbm, ⟨70, _⟩ => ⟨S_, .f32⟩
  | .hbm, ⟨71, _⟩ => ⟨S200x4096, .f32⟩
  | .hbm, ⟨72, _⟩ => ⟨S12800x1, .i32⟩
  | .hbm, ⟨73, _⟩ => ⟨S200x4096, .f32⟩
  | .hbm, ⟨74, _⟩ => ⟨S_, .f32⟩
  | .hbm, ⟨75, _⟩ => ⟨S12800, .f32⟩
  | .hbm, ⟨76, _⟩ => ⟨S_, .f32⟩
  | .hbm, ⟨77, _⟩ => ⟨S200, .f32⟩
  | .hbm, ⟨78, _⟩ => ⟨S12800x1, .i32⟩
  | .hbm, ⟨79, _⟩ => ⟨S200, .f32⟩
  | .hbm, ⟨80, _⟩ => ⟨S_, .f32⟩
  | .hbm, ⟨81, _⟩ => ⟨S200, .f32⟩
  | .hbm, ⟨82, _⟩ => ⟨S200, .f32⟩
  | .hbm, ⟨83, _⟩ => ⟨S200x1, .f32⟩
  | .hbm, ⟨84, _⟩ => ⟨S200x4096, .f32⟩
  | .hbm, ⟨85, _⟩ => ⟨S200x4096, .f32⟩
  | .hbm, ⟨86, _⟩ => ⟨S4096x512, .f32⟩
  | .hbm, ⟨87, _⟩ => ⟨S200x512, .f32⟩
  | .hbm, ⟨88, _⟩ => ⟨S4096x512, .f32⟩
  | .hbm, ⟨89, _⟩ => ⟨S200x512, .f32⟩
  | .hbm, ⟨90, _⟩ => ⟨S200x512, .f32⟩
  | .hbm, ⟨91, _⟩ => ⟨S1x512, .f32⟩
  | .hbm, ⟨92, _⟩ => ⟨S200x512, .f32⟩
  | .hbm, ⟨93, _⟩ => ⟨S200x512, .f32⟩
  | .hbm, ⟨94, _⟩ => ⟨S512x200, .f32⟩
  | .hbm, ⟨95, _⟩ => ⟨S200x100, .f32⟩
  | .hbm, ⟨96, _⟩ => ⟨S512x100, .f32⟩
  | .hbm, ⟨97, _⟩ => ⟨S1x100, .f32⟩
  | .hbm, ⟨98, _⟩ => ⟨S512x100, .f32⟩
  | .hbm, ⟨99, _⟩ => ⟨S512x100, .f32⟩
  | .hbm, ⟨100, _⟩ => ⟨S_, .f32⟩
  | .hbm, ⟨101, _⟩ => ⟨S512x100, .f32⟩
  | .hbm, ⟨102, _⟩ => ⟨S512x100, .f32⟩
  | .hbm, ⟨103, _⟩ => ⟨S100x50, .f32⟩
  | .hbm, ⟨104, _⟩ => ⟨S512x50, .f32⟩
  | .hbm, ⟨105, _⟩ => ⟨S1x50, .f32⟩
  | .hbm, ⟨106, _⟩ => ⟨S512x50, .f32⟩
  | .hbm, ⟨107, _⟩ => ⟨S512x50, .f32⟩
  | .hbm, ⟨108, _⟩ => ⟨S_, .f32⟩
  | .hbm, ⟨109, _⟩ => ⟨S512x50, .f32⟩
  | .hbm, ⟨110, _⟩ => ⟨S512x50, .f32⟩
  | .hbm, ⟨111, _⟩ => ⟨S50x10, .f32⟩
  | .hbm, ⟨112, _⟩ => ⟨S512x10, .f32⟩
  | .hbm, ⟨113, _⟩ => ⟨S1x10, .f32⟩
  | .hbm, ⟨114, _⟩ => ⟨S512x10, .f32⟩
  | .hbm, ⟨115, _⟩ => ⟨S512x10, .f32⟩
  | _, _ => ⟨S200x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call0_cst : Ref sig .tc := ⟨.hbm, 55, rfl⟩
abbrev main_call0_v0 : Ref sig .tc := ⟨.hbm, 56, rfl⟩
abbrev main_v34 : Ref sig .tc := ⟨.hbm, 57, rfl⟩
abbrev main_c_4 : Ref sig .tc := ⟨.hbm, 58, rfl⟩
abbrev main_v35 : Ref sig .tc := ⟨.hbm, 59, rfl⟩
abbrev main_v36 : Ref sig .tc := ⟨.hbm, 60, rfl⟩
abbrev main_c_5 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call1_cst : Ref sig .tc := ⟨.hbm, 100, rfl⟩
abbrev main_call1_v0 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call2_cst : Ref sig .tc := ⟨.hbm, 108, rfl⟩
abbrev main_call2_v0 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]

class Facts₀ : Prop where
  slices_S2x12800_S1x12800_0_0 : S2x12800.Slices ![0, 0] S1x12800
  shapeCasts_S1x12800_S12800 : S1x12800.ShapeCasts S12800
  slices_S2x12800_S1x12800_1_0 : S2x12800.Slices ![1, 0] S1x12800
  bcast_S_S12800 : S_.BroadcastsInDim S12800 (![] : Fin 0 → Fin S12800.rank)
  bcast_S12800_S12800x1_0 : S12800.BroadcastsInDim S12800x1 (![0] : Fin 1 → Fin S12800x1.rank)
  bcast_S12800x1_S12800x16384_0_1 : S12800x1.BroadcastsInDim S12800x16384 (![0, 1] : Fin 2 → Fin S12800x16384.rank)
  bcast_S_S200x16384 : S_.BroadcastsInDim S200x16384 (![] : Fin 0 → Fin S200x16384.rank)
  bcast_S_S200 : S_.BroadcastsInDim S200 (![] : Fin 0 → Fin S200.rank)
  bcast_S200_S200x1_0 : S200.BroadcastsInDim S200x1 (![0] : Fin 1 → Fin S200x1.rank)
  bcast_S200x1_S200x16384_0_1 : S200x1.BroadcastsInDim S200x16384 (![0, 1] : Fin 2 → Fin S200x16384.rank)
  transposes_S4096x16384_S16384x4096_1_0 : S4096x16384.Transposes [1, 0] S16384x4096
  bcast_S4096_S1x4096_1 : S4096.BroadcastsInDim S1x4096 (![1] : Fin 1 → Fin S1x4096.rank)
  bcast_S1x4096_S200x4096_0_1 : S1x4096.BroadcastsInDim S200x4096 (![0, 1] : Fin 2 → Fin S200x4096.rank)
  bcast_S_S200x4096 : S_.BroadcastsInDim S200x4096 (![] : Fin 0 → Fin S200x4096.rank)
  bcast_S12800x1_S12800x4096_0_1 : S12800x1.BroadcastsInDim S12800x4096 (![0, 1] : Fin 2 → Fin S12800x4096.rank)
  bcast_S200x1_S200x4096_0_1 : S200x1.BroadcastsInDim S200x4096 (![0, 1] : Fin 2 → Fin S200x4096.rank)
  transposes_S512x4096_S4096x512_1_0 : S512x4096.Transposes [1, 0] S4096x512
  bcast_S512_S1x512_1 : S512.BroadcastsInDim S1x512 (![1] : Fin 1 → Fin S1x512.rank)
  bcast_S1x512_S200x512_0_1 : S1x512.BroadcastsInDim S200x512 (![0, 1] : Fin 2 → Fin S200x512.rank)
  transposes_S200x512_S512x200_1_0 : S200x512.Transposes [1, 0] S512x200
  transposes_S100x200_S200x100_1_0 : S100x200.Transposes [1, 0] S200x100
  bcast_S100_S1x100_1 : S100.BroadcastsInDim S1x100 (![1] : Fin 1 → Fin S1x100.rank)
  bcast_S1x100_S512x100_0_1 : S1x100.BroadcastsInDim S512x100 (![0, 1] : Fin 2 → Fin S512x100.rank)
  bcast_S_S512x100 : S_.BroadcastsInDim S512x100 (![] : Fin 0 → Fin S512x100.rank)
  transposes_S50x100_S100x50_1_0 : S50x100.Transposes [1, 0] S100x50
  bcast_S50_S1x50_1 : S50.BroadcastsInDim S1x50 (![1] : Fin 1 → Fin S1x50.rank)
  bcast_S1x50_S512x50_0_1 : S1x50.BroadcastsInDim S512x50 (![0, 1] : Fin 2 → Fin S512x50.rank)
  bcast_S_S512x50 : S_.BroadcastsInDim S512x50 (![] : Fin 0 → Fin S512x50.rank)
  transposes_S10x50_S50x10_1_0 : S10x50.Transposes [1, 0] S50x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S200x16384_S12800x1_S12800x16384_1_0_n_n_0_1_116384_wf : GatherDims.WF S200x16384 S12800x1 S12800x16384 [1] [0] [] [0] [] 1 ![1, 16384]
  scatter_S200x16384_S12800x1_S12800x16384_1_0_0_1_wf : ScatterDims.WF S200x16384 S12800x1 S12800x16384 [1] [0] [0] 1
  scatter_S200_S12800x1_S12800_n_0_0_1_wf : ScatterDims.WF S200 S12800x1 S12800 [] [0] [0] 1
  dot_S200x16384_S16384x4096_S200x4096_1_0_0_1_n_n_wf : DotDims.WF S200x16384 S16384x4096 S200x4096 [1] [0] [0] [1] [] []
  gather_S200x4096_S12800x1_S12800x4096_1_0_n_n_0_1_14096_wf : GatherDims.WF S200x4096 S12800x1 S12800x4096 [1] [0] [] [0] [] 1 ![1, 4096]
  scatter_S200x4096_S12800x1_S12800x4096_1_0_0_1_wf : ScatterDims.WF S200x4096 S12800x1 S12800x4096 [1] [0] [0] 1
  dot_S200x4096_S4096x512_S200x512_1_0_0_1_n_n_wf : DotDims.WF S200x4096 S4096x512 S200x512 [1] [0] [0] [1] [] []
  dot_S512x200_S200x100_S512x100_1_0_0_1_n_n_wf : DotDims.WF S512x200 S200x100 S512x100 [1] [0] [0] [1] [] []
  dot_S512x100_S100x50_S512x50_1_0_0_1_n_n_wf : DotDims.WF S512x100 S100x50 S512x50 [1] [0] [0] [1] [] []
  dot_S512x50_S50x10_S512x10_1_0_0_1_n_n_wf : DotDims.WF S512x50 S50x10 S512x10 [1] [0] [0] [1] [] []

variable [Facts₀]

def gather_S200x16384_S12800x1_S12800x16384_1_0_n_n_0_1_116384 : GatherDims S200x16384 S12800x1 S12800x16384 where
  offsetDims := [1]
  collapsedSliceDims := [0]
  operandBatchingDims := []
  startIndicesBatchingDims := []
  startIndexMap := [0]
  indexVectorDim := 1
  sliceSizes := ![1, 16384]
  wf := gather_S200x16384_S12800x1_S12800x16384_1_0_n_n_0_1_116384_wf
def scatter_S200x16384_S12800x1_S12800x16384_1_0_0_1 : ScatterDims S200x16384 S12800x1 S12800x16384 where
  updateWindowDims := [1]
  insertedWindowDims := [0]
  scatterDimsToOperandDims := [0]
  indexVectorDim := 1
  wf := scatter_S200x16384_S12800x1_S12800x16384_1_0_0_1_wf
def scatter_S200_S12800x1_S12800_n_0_0_1 : ScatterDims S200 S12800x1 S12800 where
  updateWindowDims := []
  insertedWindowDims := [0]
  scatterDimsToOperandDims := [0]
  indexVectorDim := 1
  wf := scatter_S200_S12800x1_S12800_n_0_0_1_wf
def dot_S200x16384_S16384x4096_S200x4096_1_0_0_1_n_n : DotDims S200x16384 S16384x4096 S200x4096 where
  lhsContracting := [1]
  rhsContracting := [0]
  lhsNonContracting := [0]
  rhsNonContracting := [1]
  lhsBatch := []
  rhsBatch := []
  wf := dot_S200x16384_S16384x4096_S200x4096_1_0_0_1_n_n_wf
def gather_S200x4096_S12800x1_S12800x4096_1_0_n_n_0_1_14096 : GatherDims S200x4096 S12800x1 S12800x4096 where
  offsetDims := [1]
  collapsedSliceDims := [0]
  operandBatchingDims := []
  startIndicesBatchingDims := []
  startIndexMap := [0]
  indexVectorDim := 1
  sliceSizes := ![1, 4096]
  wf := gather_S200x4096_S12800x1_S12800x4096_1_0_n_n_0_1_14096_wf
def scatter_S200x4096_S12800x1_S12800x4096_1_0_0_1 : ScatterDims S200x4096 S12800x1 S12800x4096 where
  updateWindowDims := [1]
  insertedWindowDims := [0]
  scatterDimsToOperandDims := [0]
  indexVectorDim := 1
  wf := scatter_S200x4096_S12800x1_S12800x4096_1_0_0_1_wf
def dot_S200x4096_S4096x512_S200x512_1_0_0_1_n_n : DotDims S200x4096 S4096x512 S200x512 where
  lhsContracting := [1]
  rhsContracting := [0]
  lhsNonContracting := [0]
  rhsNonContracting := [1]
  lhsBatch := []
  rhsBatch := []
  wf := dot_S200x4096_S4096x512_S200x512_1_0_0_1_n_n_wf
def dot_S512x200_S200x100_S512x100_1_0_0_1_n_n : DotDims S512x200 S200x100 S512x100 where
  lhsContracting := [1]
  rhsContracting := [0]
  lhsNonContracting := [0]
  rhsNonContracting := [1]
  lhsBatch := []
  rhsBatch := []
  wf := dot_S512x200_S200x100_S512x100_1_0_0_1_n_n_wf
def dot_S512x100_S100x50_S512x50_1_0_0_1_n_n : DotDims S512x100 S100x50 S512x50 where
  lhsContracting := [1]
  rhsContracting := [0]
  lhsNonContracting := [0]
  rhsNonContracting := [1]
  lhsBatch := []
  rhsBatch := []
  wf := dot_S512x100_S100x50_S512x50_1_0_0_1_n_n_wf
def dot_S512x50_S50x10_S512x10_1_0_0_1_n_n : DotDims S512x50 S50x10 S512x10 where
  lhsContracting := [1]
  rhsContracting := [0]
  lhsNonContracting := [0]
  rhsNonContracting := [1]
  lhsBatch := []
  rhsBatch := []
  wf := dot_S512x50_S50x10_S512x10_1_0_0_1_n_n_wf

class Facts : Prop extends Facts₀ where

variable [Facts]
-- ==== Proof.R0Body.lean ====
import proofs.«400777_j26645977104607_3_alg».proof.Proof.Gen.KernelIdeal.Launch
import proofs.«400777_j26645977104607_3_alg».proof.Proof.Gen.KernelIdeal.Skeleton
import proofs.«400777_j26645977104607_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: one grid point of the first layer's kernel

The grid is 8 × 8: the outer coordinate picks a tile of 512 output features, the inner one a slab of 2048 input
features. At a point the body reads the slab's columns of the two resident `200 × 16384` operands and the point's
`512 × 2048` tiles of the two weight matrices, forms the two partial products, and adds their sum to an accumulator
kept in a scratch buffer across the inner coordinate: the accumulator is reset at inner coordinate 0, and at inner
coordinate 7 the bias row is added, the result clamped below at zero, and the tile written out. -/

/-- The whole of a `200 × 512` buffer. -/
abbrev rAcc0 : Rect S200x512 := Rect.unit (s := S200x512) ![0, 0] S200x512.size inb_S200x512_S200x512_0_0
/-- The whole of a `512 × 2048` weight tile. -/
abbrev rWt0 : Rect S512x2048 := Rect.unit (s := S512x2048) ![0, 0] S512x2048.size inb_S512x2048_S512x2048_0_0
/-- The whole of a `1 × 512` bias row. -/
abbrev rBias0 : Rect S1x512 := Rect.unit (s := S1x512) ![0, 0] S1x512.size inb_S1x512_S1x512_0_0
/-- The slab of 2048 columns of a resident `200 × 16384` operand that the point at coordinates `i` reads. -/
abbrev rSlab0 (i : grid0.Coords) : Rect S200x16384 := Rect.unit (s := S200x16384) (k0_off1 i) S200x2048.size (k0_off1_inb i)

/-- The accumulator after a point, from the operands' contents and the accumulator `a` the point started from. -/
def accStep0 (i : grid0.Coords) (x0 x1 : Vec F S200x16384 .bf16) (x2 x3 : Vec F S512x2048 .f32) (a : Vec F S200x512 .f32) :
    Vec F S200x512 .f32 :=
  k0_pay2 (View.ld x0 (rSlab0 i)) (View.ld x1 (rSlab0 i)) (View.ld x2 rWt0) (View.ld x3 rWt0) a

/-- The tile written out at the last inner coordinate, from the final accumulator and the bias row. -/
def outStep0 (a : Vec F S200x512 .f32) (x4 : Vec F S1x512 .f32) : Vec F S200x512 .f32 :=
  k0_pay3 a (View.ld x4 rBias0)

/-- "The inner coordinate is 0": the condition under which the body resets the accumulator. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
/-- "The inner coordinate is 7": the condition under which the body writes the tile out. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-- The zero offsets of a rank-2 rectangle, as the constant function. -/
theorem off2_zero : (![0, 0] : Fin 2 → Nat) = fun _ => 0 := by
  funext a; fin_cases a <;> rfl

set_option maxHeartbeats 1000000 in
/-- A first point (inner coordinate 0): whatever the accumulator held, it ends at one step from zero; the output
    buffer is not touched. -/
theorem sound_first0 (c : Dev nD) (i : grid0.Coords) (E : Set ℕ) (arg2 : Memref sig .tc .vmem S200x16384 .bf16) (harg2 : arg2.IsWhole) (arg3 : Memref sig .tc .vmem S200x16384 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512 .f32) (harg6 : arg6.IsWhole) (arg7 : Memref sig .tc .vmem S200x512 .f32) (harg7 : arg7.IsWhole) (arg8 : Memref sig .tc .vmem S200x512 .f32) (harg8 : arg8.IsWhole)
    (hc0 : cond0_0 i) (hc1 : ¬ cond0_1 i) (x0 x1 : Vec F S200x16384 .bf16) (x2 x3 : Vec F S512x2048 .f32) (x4 : Vec F S1x512 .f32) (xo : Vec F S200x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ owns (c : Thread nD τ) arg8 fullShare (accStep0 i x0 x1 x2 x3 (k0_pay1 (F := F)))) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec (disch := first | exact hc0 | exact hc1)
  sl_step
  iapply Hk
  -- The operands are read and never written: each is handed back at the contents it came with.
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  -- Two stores through the whole accumulator, the later over the earlier: what is read back is the later one's
  -- value; the load between them read the earlier one's value, the zero tile.
  sl_unfold_run_names
  rw [View.read_writes_eq_canon _ _ _ (fun y => ⟨_, List.mem_cons.mpr (Or.inl rfl), View.mem_set_unit_zero off2_zero inb_S200x512_S200x512_0_0 y⟩),
    View.canon_cons_unit_zero (S := S200x512) off2_zero]
  unfold accStep0
  simp only [View.readAt_eq_ld, View.readCov_unit_zero (S := S200x512) _ off2_zero]

set_option maxHeartbeats 1000000 in
/-- A middle point (inner coordinate 1 … 6): the accumulator advances one step; the output buffer is not touched. -/
theorem sound_mid0 (c : Dev nD) (i : grid0.Coords) (E : Set ℕ) (arg2 : Memref sig .tc .vmem S200x16384 .bf16) (harg2 : arg2.IsWhole) (arg3 : Memref sig .tc .vmem S200x16384 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512 .f32) (harg6 : arg6.IsWhole) (arg7 : Memref sig .tc .vmem S200x512 .f32) (harg7 : arg7.IsWhole) (arg8 : Memref sig .tc .vmem S200x512 .f32) (harg8 : arg8.IsWhole)
    (hc0 : ¬ cond0_0 i) (hc1 : ¬ cond0_1 i) (x0 x1 : Vec F S200x16384 .bf16) (x2 x3 : Vec F S512x2048 .f32) (x4 : Vec F S1x512 .f32) (xo : Vec F S200x512 .f32) (a : Vec F S200x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ owns (c : Thread nD τ) arg8 fullShare (accStep0 i x0 x1 x2 x3 a)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  -- The operands are read and never written: each is handed back at the contents it came with.
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  -- One store through the whole accumulator: what is read back is the stored value, and the load of the whole
  -- accumulator that fed it read the contents the point started from.
  rw [View.read_writes_eq_canon _ _ _ (fun y => ⟨_, List.mem_singleton_self _, View.mem_set_unit_zero off2_zero inb_S200x512_S200x512_0_0 y⟩),
    View.canon_unit_zero off2_zero]
  unfold accStep0
  simp only [View.readAt_eq_ld, View.ld_unit_zero (S := S200x512) off2_zero]

set_option maxHeartbeats 1000000 in
/-- A last point (inner coordinate 7): the accumulator advances one step and the output buffer, whatever it held,
    ends at the finished tile. -/
theorem sound_last0 (c : Dev nD) (i : grid0.Coords) (E : Set ℕ) (arg2 : Memref sig .tc .vmem S200x16384 .bf16) (harg2 : arg2.IsWhole) (arg3 : Memref sig .tc .vmem S200x16384 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512 .f32) (harg6 : arg6.IsWhole) (arg7 : Memref sig .tc .vmem S200x512 .f32) (harg7 : arg7.IsWhole) (arg8 : Memref sig .tc .vmem S200x512 .f32) (harg8 : arg8.IsWhole)
    (hc0 : ¬ cond0_0 i) (hc1 : cond0_1 i) (x0 x1 : Vec F S200x16384 .bf16) (x2 x3 : Vec F S512x2048 .f32) (x4 : Vec F S1x512 .f32) (a : Vec F S200x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outStep0 (accStep0 i x0 x1 x2 x3 a) x4)
            ∗ owns (c : Thread nD τ) arg8 fullShare (accStep0 i x0 x1 x2 x3 a)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  sl_exec (disch := first | exact hc0 | exact hc1)
  sl_step
  iapply Hk
  -- The operands are read and never written: each is handed back at the contents it came with.
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    -- One store through the whole output buffer: what is read back is the stored tile, formed from the accumulator
    -- as the store just before left it (read back through the whole buffer) and the bias row.
    sl_unfold_run_names
    rw [View.read_writes_eq_canon _ _ _ (fun y => ⟨_, List.mem_singleton_self _, View.mem_set_unit_zero off2_zero inb_S200x512_S200x512_0_0 y⟩),
      View.canon_unit_zero off2_zero]
    unfold outStep0 accStep0
    simp only [View.readAt_eq_ld, View.readCov_unit_zero (S := S200x512) _ off2_zero,
      View.ld_unit_zero (S := S200x512) off2_zero]
  iexists _; isplitr
  swap; · iexact H6
  ipureintro
  -- The accumulator, as at a middle point: one store through the whole buffer, fed by a load of the whole buffer.
  sl_unfold_run_names
  rw [View.read_writes_eq_canon _ _ _ (fun y => ⟨_, List.mem_singleton_self _, View.mem_set_unit_zero off2_zero inb_S200x512_S200x512_0_0 y⟩),
    View.canon_unit_zero off2_zero]
  unfold accStep0
  simp only [View.readAt_eq_ld, View.ld_unit_zero (S := S200x512) off2_zero]

end Cert.KernelIdeal.Hand

end
-- ==== Proof.R0Dat.lean ====
import proofs.«400777_j26645977104607_3_alg».proof.Proof.Gen.KernelIdeal.Launch
import proofs.«400777_j26645977104607_3_alg».proof.Proof.Gen.KernelIdeal.Skeleton
import proofs.«400777_j26645977104607_3_alg».proof.Proof.Gen.KernelIdeal.Points
import proofs.«400777_j26645977104607_3_alg».proof.Proof.R0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the accumulation over the grid, the proof data, the body obligation

Point `t` of the 8 × 8 grid has outer coordinate `t / 8` and inner coordinate `t % 8`. The accumulator after point
`t` is one step (`accStep0`) from zero at an inner coordinate 0 and one step from the accumulator after point `t - 1`
elsewhere; the output tile is written at the inner coordinate 7 from that point's accumulator and bias row. -/

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the point at position `n`. -/
def accAt0 (c : Dev nD) : (n : ℕ) → n < cfg0.N → Vec F S200x512 .f32
  | 0, hn => accStep0 (grid0.coords ⟨0, hn⟩) (iblk0 V c 0 ⟨0, hn⟩) (iblk0 V c 1 ⟨0, hn⟩) (iblk0 V c 2 ⟨0, hn⟩) (iblk0 V c 3 ⟨0, hn⟩) (k0_pay1 (F := F))
  | n + 1, hn =>
    if (n + 1) % 8 = 0 then
      accStep0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (k0_pay1 (F := F))
    else
      accStep0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn))

/-- At an inner coordinate 0 the accumulator restarts from zero. -/
theorem accAt0_reset (c : Dev nD) (t : Fin cfg0.N) (h : t.val % 8 = 0) :
    accAt0 V c t.val t.isLt = accStep0 (grid0.coords t) (iblk0 V c 0 t) (iblk0 V c 1 t) (iblk0 V c 2 t) (iblk0 V c 3 t) (k0_pay1 (F := F)) := by
  obtain ⟨n, hn⟩ := t
  cases n with
  | zero => rfl
  | succ n => exact if_pos h

/-- Elsewhere it advances from the point before. -/
theorem accAt0_step (c : Dev nD) (t : Fin cfg0.N) (h : t.val % 8 ≠ 0) :
    accAt0 V c t.val t.isLt = accStep0 (grid0.coords t) (iblk0 V c 0 t) (iblk0 V c 1 t) (iblk0 V c 2 t) (iblk0 V c 3 t)
      (accAt0 V c (t.val - 1) (Nat.lt_of_le_of_lt (Nat.sub_le _ _) t.isLt)) := by
  obtain ⟨n, hn⟩ := t
  cases n with
  | zero => exact absurd (Nat.zero_mod _) h
  | succ n => exact if_neg h

/-! ## The invariant: what the scratch accumulator holds between points -/

/-- The scratch operand: the whole of the region's own scoped accumulator buffer. -/
abbrev scM0 : Memref sig .tc .vmem S200x512 .f32 := Memref.whole cc0_scratch0

/-- The core's other scoped buffers that are no staging buffer of this region (the second region's staging buffers
    and scratch), at some contents each: they ride along untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The class invariant with the scratch accumulator as a memref owned at some contents, the other scoped buffers
    beside it. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-- The region invariant before position `n`: before the first point the class's (the scratch at anything);
    afterwards the scratch at the accumulator after the point before, the other scoped buffers at anything, and the
    generator register at some state. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's accumulator. -/
theorem PhiS0_succ (c : Dev nD) (n : ℕ) (hn : n < cfg0.N) :
    PhiS0 V c (n + 1) hn = iprop((owns (c : Thread nD τ) scM0 fullShare (accAt0 V c n hn) ∗ rest0 (F := F) c) ∗ (∃ r, prngReg c r)) := rfl

/-- Before a point that is not the first: the scratch at the accumulator after the point before. -/
theorem PhiS0_pos (c : Dev nD) (n : ℕ) (h : n ≤ cfg0.N) (hz : n ≠ 0) :
    PhiS0 V c n h = iprop((owns (c : Thread nD τ) scM0 fullShare (accAt0 V c (n - 1) (by omega)) ∗ rest0 (F := F) c) ∗ (∃ r, prngReg c r)) := by
  cases n with
  | zero => exact absurd rfl hz
  | succ n => rfl

/-! ## The proof data -/

/-- The proof data of the first layer's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outStep0 (accAt0 V c t.val t.isLt) (iblk0 V c 4 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
/-- What the body leaves in the output window's buffer. -/
theorem after0_5 (c : Dev nD) (t : Fin cfg0.N) :
    (dat0 V c).after 5 t = outStep0 (accAt0 V c t.val t.isLt) (iblk0 V c 4 t) := by dsimp only [dat0]

/-! ## Where the windows are idle -/

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- The output window is idle away from the last inner coordinate, -/
theorem idleAt0_5 : ∀ t : Fin cfg0.N, ¬ cond0_1 (grid0.coords t) → cfg0.idle 5 (grid0.coords t) = true := by decide +kernel
/-- is not written back there, -/
theorem noFlush0_5 : ∀ t : Fin cfg0.N, ¬ cond0_1 (grid0.coords t) → (cfg0.win 5).flush t = false := by decide +kernel
/-- and is live at the last inner coordinate. -/
theorem liveAt0_5 : ∀ t : Fin cfg0.N, cond0_1 (grid0.coords t) → cfg0.idle 5 (grid0.coords t) = false := by decide +kernel

/-! ## What the input windows' buffers hold -/

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the inner coordinate says which of the three cases
    the point is in. At an inner coordinate 0 the scratch's old contents do not matter (anything before the first
    point, the forgotten accumulator of the outer coordinate before elsewhere) and the output buffer comes back as
    found; at an inner coordinate 1 … 6 the scratch holds the accumulator after the point before and advances one
    step, the output buffer again as found; at the inner coordinate 7 it advances one step and the output buffer ends
    at the finished tile. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  have hN : t.val < 64 := lt_of_lt_of_eq t.isLt (show cfg0.N = 64 from N_0)
  by_cases h0 : t.val % 8 = 0
  · have hc0 : cond0_0 (grid0.coords t) := (hcond0_0 t).mpr h0
    have hc1 : ¬ cond0_1 (grid0.coords t) := fun h => by have := (hcond0_1 t).mp h; omega
    rw [Dat.leavesExact_idle (dat0 V c) 5 t (idleAt0_5 t hc1) (noFlush0_5 t hc1)]
    rw [accAt0_reset V c t h0]
    by_cases hz : t.val = 0
    · rw [PhiS0_castSucc V c t, PhiS0_zero V c _ _ hz, PhiA0_eq]
      iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
      iapply (sound_first0 c (grid0.coords t) Set.univ _ _ _ _ _ _ _ _ _ _ _ _ _ _ hc0 hc1 (iblk0 V c 0 t) (iblk0 V c 1 t) (iblk0 V c 2 t) (iblk0 V c 3 t) (iblk0 V c 4 t) ((dat0 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_first0 c (grid0.coords t) Set.univ _ _ _ _ _ _ _ _ _ _ _ _ _ _ hc0 hc1 (iblk0 V c 0 t) (iblk0 V c 1 t) (iblk0 V c 2 t) (iblk0 V c 3 t) (iblk0 V c 4 t) ((dat0 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hc0 : ¬ cond0_0 (grid0.coords t) := fun h => h0 ((hcond0_0 t).mp h)
    have hz : t.val ≠ 0 := fun e => h0 (by rw [e])
    rw [accAt0_step V c t h0]
    rw [PhiS0_castSucc V c t, PhiS0_pos V c _ _ hz]
    by_cases h1 : t.val % 8 = 7
    · have hc1 : cond0_1 (grid0.coords t) := (hcond0_1 t).mpr h1
      rw [show (dat0 V c).leavesExact 5 t = owns (c : Thread nD τ) (st0_5 t) fullShare ((dat0 V c).after 5 t) from by
        unfold Dat.leavesExact; rw [liveAt0_5 t hc1], after0_5, accAt0_step V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_last0 c (grid0.coords t) Set.univ _ _ _ _ _ _ _ _ _ _ _ _ _ _ hc0 hc1 (iblk0 V c 0 t) (iblk0 V c 1 t) (iblk0 V c 2 t) (iblk0 V c 3 t) (iblk0 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬ cond0_1 (grid0.coords t) := fun h => h1 ((hcond0_1 t).mp h)
      rw [Dat.leavesExact_idle (dat0 V c) 5 t (idleAt0_5 t hc1) (noFlush0_5 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_mid0 c (grid0.coords t) Set.univ _ _ _ _ _ _ _ _ _ _ _ _ _ _ hc0 hc1 (iblk0 V c 0 t) (iblk0 V c 1 t) (iblk0 V c 2 t) (iblk0 V c 3 t) (iblk0 V c 4 t) ((dat0 V c).before 5 t d5) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.R1Body.lean ====
import proofs.«400777_j26645977104607_3_alg».proof.Proof.Gen.KernelIdeal.Launch
import proofs.«400777_j26645977104607_3_alg».proof.Proof.Gen.KernelIdeal.Skeleton
import proofs.«400777_j26645977104607_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one grid point of the second layer's kernel

The grid is 4 × 1: the outer coordinate picks a tile of 128 output features; the one slab of input features is all
4096 of them. So every point is both a first and a last point: the accumulator is reset, receives the sum of the two
products, and the tile is written out with the bias row added (no clamping in this layer). -/

/-- The whole of a `200 × 128` buffer. -/
abbrev rAcc1 : Rect S200x128 := Rect.unit (s := S200x128) ![0, 0] S200x128.size inb_S200x128_S200x128_0_0
/-- The whole of a `128 × 4096` weight tile. -/
abbrev rWt1 : Rect S128x4096 := Rect.unit (s := S128x4096) ![0, 0] S128x4096.size inb_S128x4096_S128x4096_0_0
/-- The whole of a `1 × 128` bias row. -/
abbrev rBias1 : Rect S1x128 := Rect.unit (s := S1x128) ![0, 0] S1x128.size inb_S1x128_S1x128_0_0
/-- The columns of a resident `200 × 4096` operand that the point at coordinates `i` reads (all of them). -/
abbrev rSlab1 (i : grid1.Coords) : Rect S200x4096 := Rect.unit (s := S200x4096) (k1_off1 i) S200x4096.size (k1_off1_inb i)

/-- The accumulator after a point, from the operands' contents and the accumulator `a` the point started from. -/
def accStep1 (i : grid1.Coords) (x0 x1 : Vec F S200x4096 .bf16) (x2 x3 : Vec F S128x4096 .f32) (a : Vec F S200x128 .f32) :
    Vec F S200x128 .f32 :=
  k1_pay2 (View.ld x0 (rSlab1 i)) (View.ld x1 (rSlab1 i)) (View.ld x2 rWt1) (View.ld x3 rWt1) a

/-- The tile written out, from the final accumulator and the bias row. -/
def outStep1 (a : Vec F S200x128 .f32) (x4 : Vec F S1x128 .f32) : Vec F S200x128 .f32 :=
  k1_pay3 a (View.ld x4 rBias1)

/-- "The inner coordinate is 0": the condition under which the body resets the accumulator. -/
abbrev cond1_0 (i : grid1.Coords) : Prop := (Scalar.cmpi .ne (Scalar.extui (Scalar.cmpi .eq (BitVec.ofNat 32 (i 1).val) 0#32)) 0#32) = 1#1
/-- It holds at every point. -/
theorem hcond1_0 : ∀ t : Fin cfg1.N, cond1_0 (grid1.coords t) :=
  (by decide +kernel : ∀ t : Fin grid1.N, cond1_0 (grid1.coords t))
/-- "The inner coordinate is the last one": the condition under which the body writes the tile out. -/
abbrev cond1_1 (i : grid1.Coords) : Prop := k1_cond2 i = 1#1
/-- It holds at every point. -/
theorem hcond1_1 : ∀ t : Fin cfg1.N, cond1_1 (grid1.coords t) :=
  (by decide +kernel : ∀ t : Fin grid1.N, cond1_1 (grid1.coords t))

/-- The zero offsets of a rank-two rectangle, as the constant function. -/
theorem zero_off1 : (![0, 0] : Fin 2 → ℕ) = fun _ => 0 := funext fun a => by fin_cases a <;> rfl

/-- A list of pieces whose newest is the whole `200 × 128` buffer covers it, whatever its payload and the older pieces. -/
theorem cover_acc1 (p0 : Vec F S200x128 .f32) (L : List (View.Piece (Elt F) S200x128 .f32)) (y : S200x128.Idx) :
    ∃ pc ∈ ((⟨rAcc1, p0⟩ : View.Piece (Elt F) S200x128 .f32) :: L), y ∈ pc.1.set :=
  ⟨⟨rAcc1, p0⟩, List.Mem.head _, View.mem_set_unit_zero (S := S200x128) zero_off1 inb_S200x128_S200x128_0_0 y⟩

-- (the accumulator is stored twice and read back in between: the later store covers the buffer, and a load through
-- the whole rectangle of what one covering store left is that store's payload; the output buffer is stored once)
set_option maxHeartbeats 1000000 in
/-- The body at a point: whatever the accumulator and the output buffer held, the accumulator ends at one step from
    zero and the output buffer at the finished tile. -/
theorem sound_only1 (c : Dev nD) (i : grid1.Coords) (E : Set ℕ) (arg2 : Memref sig .tc .vmem S200x4096 .bf16) (harg2 : arg2.IsWhole) (arg3 : Memref sig .tc .vmem S200x4096 .bf16) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x128 .f32) (harg6 : arg6.IsWhole) (arg7 : Memref sig .tc .vmem S200x128 .f32) (harg7 : arg7.IsWhole) (arg8 : Memref sig .tc .vmem S200x128 .f32) (harg8 : arg8.IsWhole)
    (hc0 : cond1_0 i) (hc1 : cond1_1 i) (x0 x1 : Vec F S200x4096 .bf16) (x2 x3 : Vec F S128x4096 .f32) (x4 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outStep1 (accStep1 i x0 x1 x2 x3 (k1_pay1 (F := F))) x4)
            ∗ owns (c : Thread nD τ) arg8 fullShare (accStep1 i x0 x1 x2 x3 (k1_pay1 (F := F)))) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr
    swap; · iexact H7
    ipureintro
    sl_unfold_run_names
    rw [View.read_writes_eq_canon _ _ _ (cover_acc1 _ _),
      View.canon_unit_zero (S := S200x128) zero_off1, View.readCov_cons_toLoadRect,
      View.readCov_unit_zero (S := S200x128) _ zero_off1]
    unfold outStep1 accStep1
    simp only [View.readAt_eq_ld, harg2.read_unread, harg3.read_unread, harg4.read_unread, harg5.read_unread,
      harg6.read_unread]
  iexists _; isplitr
  swap; · iexact H8
  ipureintro
  sl_unfold_run_names
  rw [View.read_writes_eq_canon _ _ _ (cover_acc1 _ _),
    View.canon_cons_unit_zero (S := S200x128) zero_off1, View.readCov_unit_zero (S := S200x128) _ zero_off1]
  unfold accStep1
  simp only [View.readAt_eq_ld, harg2.read_unread, harg3.read_unread, harg4.read_unread, harg5.read_unread]

end Cert.KernelIdeal.Hand

end
-- ==== Proof.R1Dat.lean ====
import proofs.«400777_j26645977104607_3_alg».proof.Proof.Gen.KernelIdeal.Launch
import proofs.«400777_j26645977104607_3_alg».proof.Proof.Gen.KernelIdeal.Skeleton
import proofs.«400777_j26645977104607_3_alg».proof.Proof.Gen.KernelIdeal.Points
import proofs.«400777_j26645977104607_3_alg».proof.Proof.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the proof data and the body obligation

Every point of the 4 × 1 grid resets the accumulator, so nothing is carried between points: the tile written at point
`t` is a function of that point's blocks alone, and between points the scratch buffer holds contents nobody names. -/

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `t`: one step from zero. -/
def accAt1 (c : Dev nD) (t : Fin cfg1.N) : Vec F S200x128 .f32 :=
  accStep1 (grid1.coords t) (iblk1 V c 0 t) (iblk1 V c 1 t) (iblk1 V c 2 t) (iblk1 V c 3 t) (k1_pay1 (F := F))

/-- The proof data of the second layer's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outStep1 (accAt1 V c t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves in the output window's buffer. -/
theorem after1_5 (c : Dev nD) (t : Fin cfg1.N) :
    (dat1 V c).after 5 t = outStep1 (accAt1 V c t) (iblk1 V c 4 t) := by dsimp only [dat1]

/-! ## The schedule's facts for this region -/

/-- No input window is idle anywhere, and the output window is live at every point (each point writes the tile). -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

/-- Each window's current staging memref at point `t`, and its wholeness. -/
abbrev ms1_0 (t : Fin cfg1.N) : Memref sig .tc .vmem S200x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S200x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S200x128 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S200x128 .f32 := Memref.whole cc1_scratch0

/-! ## What the body finds in the input windows -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

/-- Each input's current staging buffer holds its block at every point, fetched there or not: where the pipeline
    does not fetch, the block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The invariant: nothing is carried -/

/-- The class invariant lends the accumulator's buffer out at some contents and takes it back at any contents: the
    core's other scoped buffers and its generator register ride along untouched. -/
theorem PhiA1_open (c : Dev nD) :
    (Pipeline.ΦA spec1 c : sProp 𝕄)
      ⊢ iprop((∃ d, owns (c : Thread nD τ) scM1_0 fullShare d)
          ∗ ((∃ d, owns (c : Thread nD τ) scM1_0 fullShare d) -∗ Pipeline.ΦA spec1 c)) := by
  unfold Pipeline.ΦA; rw [scopedRest1_eq]; simp only [scM1_0, owns_whole]
  iintro ⟨⟨R0, R1, R2, R3, R4, R5, R6, R7, R8, R9, R10, HS⟩, Hg⟩
  isplitl [HS]; · iexact HS
  iintro HS
  iframe

theorem hin1 (c : Dev nD) : Pipeline.ΦA spec1 c ⊢ (dat1 V c).Φ 0 := by
  rw [show (dat1 V c).Φ 0 = Pipeline.ΦA spec1 c from by dsimp only [dat1]]

theorem hout1 (c : Dev nD) : (dat1 V c).Φ (Fin.last cfg1.N) ⊢ Pipeline.ΦA spec1 c := by
  rw [show (dat1 V c).Φ (Fin.last cfg1.N) = Pipeline.ΦA spec1 c from by dsimp only [dat1]]

/-! ## The body obligation, at a generic point -/

/-- What the body leaves in each window's current buffer: every window is live at every point, so each buffer is
    stated at the contents the proof data names. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) :
    (dat1 V c).leavesExact 5 t
      = owns (c : Thread nD τ) (ms1_5 t) fullShare (outStep1 (accAt1 V c t) (iblk1 V c 4 t)) := by
  unfold Dat.leavesExact; rw [liveAt1_5 t, after1_5]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the invariant lends the accumulator's buffer at
    whatever it holds; both conditions hold at the point, so the body resets the accumulator, adds the two products
    and writes the tile with the bias row added, whatever the output buffer held; the accumulator's buffer goes back
    to the invariant with its contents forgotten, and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Pipeline.ΦA spec1 c from by dsimp only [dat1],
    show (dat1 V c).Φ t.castSucc = Pipeline.ΦA spec1 c from by dsimp only [dat1]]
  rw [leaves1_0, leaves1_1, leaves1_2, leaves1_3, leaves1_4, leaves1_5]
  unfold accAt1
  iintro ⟨HP, Ho, ⟨%d0, H0⟩, ⟨%d1, H1⟩, ⟨%d2, H2⟩, ⟨%d3, H3⟩, ⟨%d4, H4⟩, ⟨%d5, H5⟩⟩
  icases (PhiA1_open (F := F) c) $$ HP with ⟨HS, Hclose⟩
  iapply (sound_only1 c (grid1.coords t) Set.univ _ _ _ _ _ _ _ _ _ _ _ _ _ _ (hcond1_0 t) (hcond1_1 t)
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS Hclose]
  · iapply Hclose; iexists _; iexact HS
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
import proofs.«400777_j26645977104607_3_alg».proof.Proof.Gen.KernelIdeal.Launch
import proofs.«400777_j26645977104607_3_alg».proof.Proof.Gen.KernelIdeal.Skeleton
import proofs.«400777_j26645977104607_3_alg».proof.Proof.Gen.KernelIdeal.Points
import proofs.«400777_j26645977104607_3_alg».proof.Proof.Gen.KernelIdeal.Regions
import proofs.«400777_j26645977104607_3_alg».proof.Proof.R0Dat
import proofs.«400777_j26645977104607_3_alg».proof.Proof.R1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program's run

@main is: host operations, the first layer's kernel, host operations, the second layer's kernel, five stretches of
host operations. Between two items a core's buffers hold the launch contents pushed through the host operations so
far, with each kernel's output array at what its pipeline's write-backs leave. Every weakly fair execution from the
launch ends with every buffer at the last of these valuations. -/

variable (m : (ℓ : Loc nD τ sig) → Buf (Elt F) ℓ) (ρ : Dev nD → PrngReg)

/-- The buffers as the first kernel finds them. -/
abbrev VR0 : (c : Dev nD) → (b : Ref sig .tc) → Buf (Elt F) ((c : Thread nD τ).loc b) := fun c b => Gen.V1 m c b

/-- The first kernel's arrays after its region, every other buffer as the region found it: each input array as it
    was, the output array at its write-backs folded. -/
def o2 : Gen.Outs (F := F) := fun _ r c =>
  Pipeline.withArrays spec0 c (Gen.V1 m c) (fun w => (dat0 (VR0 m) c).arrAt w cfg0.N) (Proc.devRef .tc r)

/-- The buffers as the second kernel finds them, over the first kernel's part alone. -/
abbrev VR1o : (c : Dev nD) → (b : Ref sig .tc) → Buf (Elt F) ((c : Thread nD τ).loc b) := fun c b => Gen.V3 m (o2 m) c b

/-- What the two kernels leave in their output arrays. The second kernel is entered from the buffers the first one
    left pushed through the host operations between them, so its part is stated over the first kernel's part alone. -/
def outs : Gen.Outs (F := F) := fun J r c =>
  if J = 2 then o2 m J r c
  else Pipeline.withArrays spec1 c (Gen.V3 m (o2 m) c)
    (fun w => (dat1 (VR1o m) c).arrAt w cfg1.N) (Proc.devRef .tc r)

/-- The buffers as the second kernel finds them. -/
abbrev VR1 : (c : Dev nD) → (b : Ref sig .tc) → Buf (Elt F) ((c : Thread nD τ).loc b) := fun c b => Gen.V3 m (outs m) c b

/-- After the first region the two descriptions of the kernels' outputs agree. -/
theorem outs_two (r : Ref sig .tc) (c : Dev nD) : outs m 2 r c = o2 m 2 r c := by
  unfold outs; exact if_pos rfl

theorem V2_outs (c : Dev nD) : Gen.V2 m (outs m) c = Gen.V2 m (o2 m) c := by
  unfold Gen.V2; rw [outs_two]

theorem V3_outs (c : Dev nD) : Gen.V3 m (outs m) c = Gen.V3 m (o2 m) c :=
  congrArg (StableHlo.after hostOps1) (V2_outs m c)

/-- So the second kernel is entered from the buffers its part of `outs` is stated over. -/
theorem VR1_eq : VR1 m = VR1o m :=
  funext fun c => funext fun b => congrFun (V3_outs m c) b

/-- The first kernel's output array after its region: the write-backs of its pipeline folded. -/
theorem outs_2 (c : Dev nD) : outs m 2 main_v37 c = (dat0 (VR0 m) c).arrAt 5 cfg0.N := by
  rw [outs_two]; unfold o2
  exact Pipeline.withArrays_arr spec0 launch0.win.arr_inj c _ _ 5

/-- The second kernel's output array after its region. -/
theorem outs_4 (c : Dev nD) : outs m 4 main_v42 c = (dat1 (VR1 m) c).arrAt 5 cfg1.N := by
  rw [VR1_eq]; unfold outs; rw [if_neg (by decide)]
  exact Pipeline.withArrays_arr spec1 launch1.win.arr_inj c _ _ 5

/-- The buffers as the first kernel leaves them. -/
abbrev VX0 : (c : Dev nD) → (b : Ref sig .tc) → Buf (Elt F) ((c : Thread nD τ).loc b) := fun c b => Gen.V2 m (outs m) c b
/-- The buffers as the second kernel leaves them. -/
abbrev VX1 : (c : Dev nD) → (b : Ref sig .tc) → Buf (Elt F) ((c : Thread nD τ).loc b) := fun c b => Gen.V4 m (outs m) c b

/-- At the first region's exit each of its arrays holds what the pipeline leaves: an input array what it held at
    entry, the output array its write-backs folded. -/
theorem hF0 (c : Dev nD) : ∀ w : Fin cfg0.W, (dat0 (VR0 m) c).arrAt w cfg0.N = VX0 m c (Pipeline.arrRef spec0 w)
  | 0 => ((dat0 (VR0 m) c).arrAt_in 0 rfl _).trans ((A_eq0 (VR0 m) c 0).trans (Gen.V2_of m (outs m) c _ (by decide)).symm)
  | 1 => ((dat0 (VR0 m) c).arrAt_in 1 rfl _).trans ((A_eq0 (VR0 m) c 1).trans (Gen.V2_of m (outs m) c _ (by decide)).symm)
  | 2 => ((dat0 (VR0 m) c).arrAt_in 2 rfl _).trans ((A_eq0 (VR0 m) c 2).trans (Gen.V2_of m (outs m) c _ (by decide)).symm)
  | 3 => ((dat0 (VR0 m) c).arrAt_in 3 rfl _).trans ((A_eq0 (VR0 m) c 3).trans (Gen.V2_of m (outs m) c _ (by decide)).symm)
  | 4 => ((dat0 (VR0 m) c).arrAt_in 4 rfl _).trans ((A_eq0 (VR0 m) c 4).trans (Gen.V2_of m (outs m) c _ (by decide)).symm)
  | 5 => by
    show _ = Function.update (Gen.V1 m c) (Proc.devRef .tc main_v37) (outs m 2 main_v37 c) (Proc.devRef .tc main_v37)
    rw [Function.update_self, outs_2]
  | ⟨_ + 6, h⟩ => absurd h (Nat.not_lt.2 (Nat.le_add_left _ _))

/-- Every buffer that is none of the first region's arrays holds what it held at entry. -/
theorem hrest0 (c : Dev nD) : ∀ b : Ref sig .tc, b ∉ Finset.univ.image (Pipeline.arrRef spec0) → VX0 m c b = VR0 m c b :=
  fun b hb => Gen.V2_of m (outs m) c b fun h => hb (by
    rw [List.mem_singleton] at h; subst h
    exact Finset.mem_image.mpr ⟨5, Finset.mem_univ _, rfl⟩)

/-- At the second region's exit each of its arrays holds what the pipeline leaves. -/
theorem hF1 (c : Dev nD) : ∀ w : Fin cfg1.W, (dat1 (VR1 m) c).arrAt w cfg1.N = VX1 m c (Pipeline.arrRef spec1 w)
  | 0 => ((dat1 (VR1 m) c).arrAt_in 0 rfl _).trans ((A_eq1 (VR1 m) c 0).trans (Gen.V4_of m (outs m) c _ (by decide)).symm)
  | 1 => ((dat1 (VR1 m) c).arrAt_in 1 rfl _).trans ((A_eq1 (VR1 m) c 1).trans (Gen.V4_of m (outs m) c _ (by decide)).symm)
  | 2 => ((dat1 (VR1 m) c).arrAt_in 2 rfl _).trans ((A_eq1 (VR1 m) c 2).trans (Gen.V4_of m (outs m) c _ (by decide)).symm)
  | 3 => ((dat1 (VR1 m) c).arrAt_in 3 rfl _).trans ((A_eq1 (VR1 m) c 3).trans (Gen.V4_of m (outs m) c _ (by decide)).symm)
  | 4 => ((dat1 (VR1 m) c).arrAt_in 4 rfl _).trans ((A_eq1 (VR1 m) c 4).trans (Gen.V4_of m (outs m) c _ (by decide)).symm)
  | 5 => by
    show _ = Function.update (Gen.V3 m (outs m) c) (Proc.devRef .tc main_v42) (outs m 4 main_v42 c) (Proc.devRef .tc main_v42)
    rw [Function.update_self, outs_4]
  | ⟨_ + 6, h⟩ => absurd h (Nat.not_lt.2 (Nat.le_add_left _ _))

/-- Every buffer that is none of the second region's arrays holds what it held at entry. -/
theorem hrest1 (c : Dev nD) : ∀ b : Ref sig .tc, b ∉ Finset.univ.image (Pipeline.arrRef spec1) → VX1 m c b = VR1 m c b :=
  fun b hb => Gen.V4_of m (outs m) c b fun h => hb (by
    rw [List.mem_singleton] at h; subst h
    exact Finset.mem_image.mpr ⟨5, Finset.mem_univ _, rfl⟩)

/-! ## The proof data family and what rides along -/

/-- Every pipeline's proof data, each at the buffers its region is entered from. -/
def pdats : (p : Fin 2) → (c : Dev nD) → Dat τ (Elt F) Unit ℕ (UR sig nD τ) ℕ (cfgs p) c
  | ⟨0, _⟩ => fun c => dat0 (VR0 m) c
  | ⟨1, _⟩ => fun c => dat1 (VR1 m) c

/-- No core owes another anything: no level is assigned. -/
abbrev runL : GSem nD τ sig → Finset Unit := fun _ => ∅
abbrev runLv : GSem nD τ sig → Unit → ℕ := fun _ _ => 0
/-- What rides beside the buffers through every item: the core's generator register at some state and its dues, at
    nothing. -/
abbrev Ride (c : Dev nD) : sProp 𝕄 := iprop((∃ r, prngReg c r) ∗ ∃ W, owes (c : Thread nD τ) (0 : CellTallies nD τ sig Unit) W)
/-- The same beside every host stretch. -/
abbrev rideE : Fin 3 → Dev nD → sProp 𝕄 := fun _ c => Ride c

/-! ## The regions as segments -/

set_option backward.isDefEq.respectTransparency.types false in
/-- The first kernel's region: entered from every unscoped buffer at the contents after the first host stretch, left
    with its output array at the write-backs folded and every other buffer as entered. Its arrays are split out of the
    unscoped buffers and put back at the exit contents; the generator register goes into the region invariant and comes
    back; nothing is owed; the kernel has no semaphore of its own. -/
def reg0 : Pipeline.RegionSeg (pcfgs (F := F)) adm (pdats m) () defs₀ Variants.none runL runLv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ runL runLv 0 fun _ _ => rfl
  pre c := iprop(StableHlo.held (c : Thread nD τ) (Pipeline.ucRefs τ sig) (Gen.V1 m c) ∗ Ride c)
  post c := iprop(StableHlo.held (c : Thread nD τ) (Pipeline.ucRefs τ sig) (Gen.V2 m (outs m) c) ∗ Ride c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) (A_eq0 (VR0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VR0 m) c)
    unfold Pipeline.ΦA
    iintro ⟨Hp, -, Hr⟩
    isplitl [Hr]; · iexact Hr
    iexact Hp
  hout c := by
    refine BIBase.Entails.trans (hout0 (VR0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered from every unscoped buffer at the contents after the host stretch between the
    kernels, left with its output array at the write-backs folded and every other buffer as entered. -/
def reg1 : Pipeline.RegionSeg (pcfgs (F := F)) adm (pdats m) () defs₀ Variants.none runL runLv 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ runL runLv 1 fun _ _ => rfl
  pre c := iprop(StableHlo.held (c : Thread nD τ) (Pipeline.ucRefs τ sig) (Gen.V3 m (outs m) c) ∗ Ride c)
  post c := iprop(StableHlo.held (c : Thread nD τ) (Pipeline.ucRefs τ sig) (Gen.V4 m (outs m) c) ∗ Ride c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR1 m c) (A_eq1 (VR1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR1 m) c)
    unfold Pipeline.ΦA
    iintro ⟨Hp, -, Hr⟩
    isplitl [Hr]; · iexact Hr
    iexact Hp
  hout c := by
    refine BIBase.Entails.trans (hout1 (VR1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At the end the generator register stays beside the buffers and the dues, at nothing, stand apart. -/
theorem ride_end (c : Dev nD) (H : sProp 𝕄) :
    iprop(H ∗ Ride c) ⊢ iprop((H ∗ ∃ r, prngReg c r) ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- Every weakly fair execution of @main terminates, faults nowhere, and ends with every buffer of every core at the
    last valuation. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V9 m (outs m) c b) := by
  refine Pipeline.θ_run_regions_kit_dev (pcfgs (F := F)) adm (pdats m) () cellOf_inj emb₁ defs₀ Variants.none runL runLv m ρ main
    (Gen.segs m (outs m) Variants.none runL runLv rideE () (pdats m) (reg0 m) (reg1 m))
    (fun c Q => by
      rewrite [main_chain c, Pipeline.Seg.run_eq_chain,
        show (Gen.segs m (outs m) Variants.none runL runLv rideE () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Ride c))
    (Tₙ := fun c => iprop(StableHlo.held (c : Thread nD τ) (Pipeline.ucRefs τ sig) (Gen.V9 m (outs m) c) ∗ ∃ r, prngReg c r))
    (hch := fun c => ⟨.rfl, .rfl, .rfl, .rfl, .rfl, .rfl, .rfl, .rfl, .rfl, ride_end c _⟩)
    (hinit := by
      refine Pipeline.initEach runL runLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V9 m (outs m) c b)
    (hfin := fun c s' => by
      iintro ⟨⟨Hh, -⟩, HSI⟩
      unfold StableHlo.held
      imodintro
      iapply (pointsTo_read_all (Pipeline.ucRefs τ sig) (fun b => ((c : Thread nD τ).1, b)) (Gen.V9 m (outs m) c) s')
      isplitl [Hh] <;> iassumption)
    (hQ := fun _ h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (Gen.V9_main_arg0 m (outs m) c),
     (h c _ (mem_uc main_arg1 (by decide))).trans (Gen.V9_main_arg1 m (outs m) c),
     (h c _ (mem_uc main_arg2 (by decide))).trans (Gen.V9_main_arg2 m (outs m) c),
     (h c _ (mem_uc main_arg3 (by decide))).trans (Gen.V9_main_arg3 m (outs m) c),
     (h c _ (mem_uc main_arg4 (by decide))).trans (Gen.V9_main_arg4 m (outs m) c),
     (h c _ (mem_uc main_arg5 (by decide))).trans (Gen.V9_main_arg5 m (outs m) c),
     (h c _ (mem_uc main_arg6 (by decide))).trans (Gen.V9_main_arg6 m (outs m) c),
     (h c _ (mem_uc main_arg7 (by decide))).trans (Gen.V9_main_arg7 m (outs m) c),
     (h c _ (mem_uc main_arg8 (by decide))).trans (Gen.V9_main_arg8 m (outs m) c),
     (h c _ (mem_uc main_arg9 (by decide))).trans (Gen.V9_main_arg9 m (outs m) c),
     (h c _ (mem_uc main_arg10 (by decide))).trans (Gen.V9_main_arg10 m (outs m) c),
     (h c _ (mem_uc main_arg11 (by decide))).trans (Gen.V9_main_arg11 m (outs m) c),
     (h c _ (mem_uc main_arg12 (by decide))).trans (Gen.V9_main_arg12 m (outs m) c),
     (h c _ (mem_uc main_arg13 (by decide))).trans (Gen.V9_main_arg13 m (outs m) c),
     (h c _ (mem_uc main_arg14 (by decide))).trans (Gen.V9_main_arg14 m (outs m) c)⟩) (run_all m ρ)

end Cert.KernelIdeal.Hand

end
-- ==== Proof.R0BodyB.lean ====
import proofs.«400777_j26645977104607_3_alg».proof.Proof.Gen.Kernel.Launch
import proofs.«400777_j26645977104607_3_alg».proof.Proof.Gen.Kernel.Skeleton
import proofs.«400777_j26645977104607_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: one grid point of the first layer's kernel

The grid is 8 × 8: the outer coordinate picks a tile of 512 output features, the inner one a slab of 2048 input
features. At a point the body reads the slab's columns of the two resident `200 × 16384` operands and the point's
`512 × 2048` tiles of the two weight matrices, forms the two partial products, and adds their sum to an accumulator
kept in a scratch buffer across the inner coordinate: the accumulator is reset at inner coordinate 0, and at inner
coordinate 7 the bias row is added, the result clamped below at zero, and the tile written out. -/

/-- The whole of a `200 × 512` buffer. -/
abbrev rAcc0 : Rect S200x512 := Rect.unit (s := S200x512) ![0, 0] S200x512.size inb_S200x512_S200x512_0_0
/-- The whole of a `512 × 2048` weight tile. -/
abbrev rWt0 : Rect S512x2048 := Rect.unit (s := S512x2048) ![0, 0] S512x2048.size inb_S512x2048_S512x2048_0_0
/-- The whole of a `1 × 512` bias row. -/
abbrev rBias0 : Rect S1x512 := Rect.unit (s := S1x512) ![0, 0] S1x512.size inb_S1x512_S1x512_0_0
/-- The slab of 2048 columns of a resident `200 × 16384` operand that the point at coordinates `i` reads. -/
abbrev rSlab0 (i : grid0.Coords) : Rect S200x16384 := Rect.unit (s := S200x16384) (k0_off1 i) S200x2048.size (k0_off1_inb i)

/-- The accumulator after a point, from the operands' contents and the accumulator `a` the point started from. -/
def accStep0 (i : grid0.Coords) (x0 x1 : Vec F S200x16384 .bf16) (x2 x3 : Vec F S512x2048 .f32) (a : Vec F S200x512 .f32) :
    Vec F S200x512 .f32 :=
  k0_pay2 (View.ld x0 (rSlab0 i)) (View.ld x1 (rSlab0 i)) (View.ld x2 rWt0) (View.ld x3 rWt0) a

/-- The tile written out at the last inner coordinate, from the final accumulator and the bias row. -/
def outStep0 (a : Vec F S200x512 .f32) (x4 : Vec F S1x512 .f32) : Vec F S200x512 .f32 :=
  k0_pay3 a (View.ld x4 rBias0)

/-- "The inner coordinate is 0": the condition under which the body resets the accumulator. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
/-- "The inner coordinate is 7": the condition under which the body writes the tile out. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-- The zero offsets of a rank-2 rectangle, as the constant function. -/
theorem off2_zero : (![0, 0] : Fin 2 → Nat) = fun _ => 0 := by
  funext a; fin_cases a <;> rfl

set_option maxHeartbeats 1000000 in
/-- A first point (inner coordinate 0): whatever the accumulator held, it ends at one step from zero; the output
    buffer is not touched. -/
theorem sound_first0 (c : Dev nD) (i : grid0.Coords) (E : Set ℕ) (arg2 : Memref sig .tc .vmem S200x16384 .bf16) (harg2 : arg2.IsWhole) (arg3 : Memref sig .tc .vmem S200x16384 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512 .f32) (harg6 : arg6.IsWhole) (arg7 : Memref sig .tc .vmem S200x512 .f32) (harg7 : arg7.IsWhole) (arg8 : Memref sig .tc .vmem S200x512 .f32) (harg8 : arg8.IsWhole)
    (hc0 : cond0_0 i) (hc1 : ¬ cond0_1 i) (x0 x1 : Vec F S200x16384 .bf16) (x2 x3 : Vec F S512x2048 .f32) (x4 : Vec F S1x512 .f32) (xo : Vec F S200x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ owns (c : Thread nD τ) arg8 fullShare (accStep0 i x0 x1 x2 x3 (k0_pay1 (F := F)))) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec (disch := first | exact hc0 | exact hc1)
  sl_step
  iapply Hk
  -- The operands are read and never written: each is handed back at the contents it came with.
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  -- Two stores through the whole accumulator, the later over the earlier: what is read back is the later one's
  -- value; the load between them read the earlier one's value, the zero tile.
  sl_unfold_run_names
  rw [View.read_writes_eq_canon _ _ _ (fun y => ⟨_, List.mem_cons.mpr (Or.inl rfl), View.mem_set_unit_zero off2_zero inb_S200x512_S200x512_0_0 y⟩),
    View.canon_cons_unit_zero (S := S200x512) off2_zero]
  unfold accStep0
  simp only [View.readAt_eq_ld, View.readCov_unit_zero (S := S200x512) _ off2_zero]

set_option maxHeartbeats 1000000 in
/-- A middle point (inner coordinate 1 … 6): the accumulator advances one step; the output buffer is not touched. -/
theorem sound_mid0 (c : Dev nD) (i : grid0.Coords) (E : Set ℕ) (arg2 : Memref sig .tc .vmem S200x16384 .bf16) (harg2 : arg2.IsWhole) (arg3 : Memref sig .tc .vmem S200x16384 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512 .f32) (harg6 : arg6.IsWhole) (arg7 : Memref sig .tc .vmem S200x512 .f32) (harg7 : arg7.IsWhole) (arg8 : Memref sig .tc .vmem S200x512 .f32) (harg8 : arg8.IsWhole)
    (hc0 : ¬ cond0_0 i) (hc1 : ¬ cond0_1 i) (x0 x1 : Vec F S200x16384 .bf16) (x2 x3 : Vec F S512x2048 .f32) (x4 : Vec F S1x512 .f32) (xo : Vec F S200x512 .f32) (a : Vec F S200x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ owns (c : Thread nD τ) arg8 fullShare (accStep0 i x0 x1 x2 x3 a)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  -- The operands are read and never written: each is handed back at the contents it came with.
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  -- One store through the whole accumulator: what is read back is the stored value, and the load of the whole
  -- accumulator that fed it read the contents the point started from.
  rw [View.read_writes_eq_canon _ _ _ (fun y => ⟨_, List.mem_singleton_self _, View.mem_set_unit_zero off2_zero inb_S200x512_S200x512_0_0 y⟩),
    View.canon_unit_zero off2_zero]
  unfold accStep0
  simp only [View.readAt_eq_ld, View.ld_unit_zero (S := S200x512) off2_zero]

set_option maxHeartbeats 1000000 in
/-- A last point (inner coordinate 7): the accumulator advances one step and the output buffer, whatever it held,
    ends at the finished tile. -/
theorem sound_last0 (c : Dev nD) (i : grid0.Coords) (E : Set ℕ) (arg2 : Memref sig .tc .vmem S200x16384 .bf16) (harg2 : arg2.IsWhole) (arg3 : Memref sig .tc .vmem S200x16384 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x512 .f32) (harg6 : arg6.IsWhole) (arg7 : Memref sig .tc .vmem S200x512 .f32) (harg7 : arg7.IsWhole) (arg8 : Memref sig .tc .vmem S200x512 .f32) (harg8 : arg8.IsWhole)
    (hc0 : ¬ cond0_0 i) (hc1 : cond0_1 i) (x0 x1 : Vec F S200x16384 .bf16) (x2 x3 : Vec F S512x2048 .f32) (x4 : Vec F S1x512 .f32) (a : Vec F S200x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outStep0 (accStep0 i x0 x1 x2 x3 a) x4)
            ∗ owns (c : Thread nD τ) arg8 fullShare (accStep0 i x0 x1 x2 x3 a)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  sl_exec (disch := first | exact hc0 | exact hc1)
  sl_step
  iapply Hk
  -- The operands are read and never written: each is handed back at the contents it came with.
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    -- One store through the whole output buffer: what is read back is the stored tile, formed from the accumulator
    -- as the store just before left it (read back through the whole buffer) and the bias row.
    sl_unfold_run_names
    rw [View.read_writes_eq_canon _ _ _ (fun y => ⟨_, List.mem_singleton_self _, View.mem_set_unit_zero off2_zero inb_S200x512_S200x512_0_0 y⟩),
      View.canon_unit_zero off2_zero]
    unfold outStep0 accStep0
    simp only [View.readAt_eq_ld, View.readCov_unit_zero (S := S200x512) _ off2_zero,
      View.ld_unit_zero (S := S200x512) off2_zero]
  iexists _; isplitr
  swap; · iexact H6
  ipureintro
  -- The accumulator, as at a middle point: one store through the whole buffer, fed by a load of the whole buffer.
  sl_unfold_run_names
  rw [View.read_writes_eq_canon _ _ _ (fun y => ⟨_, List.mem_singleton_self _, View.mem_set_unit_zero off2_zero inb_S200x512_S200x512_0_0 y⟩),
    View.canon_unit_zero off2_zero]
  unfold accStep0
  simp only [View.readAt_eq_ld, View.ld_unit_zero (S := S200x512) off2_zero]

end Cert.Kernel.Hand

end
-- ==== Proof.R0DatB.lean ====
import proofs.«400777_j26645977104607_3_alg».proof.Proof.Gen.Kernel.Launch
import proofs.«400777_j26645977104607_3_alg».proof.Proof.Gen.Kernel.Skeleton
import proofs.«400777_j26645977104607_3_alg».proof.Proof.Gen.Kernel.Points
import proofs.«400777_j26645977104607_3_alg».proof.Proof.R0BodyB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the accumulation over the grid, the proof data, the body obligation

Point `t` of the 8 × 8 grid has outer coordinate `t / 8` and inner coordinate `t % 8`. The accumulator after point
`t` is one step (`accStep0`) from zero at an inner coordinate 0 and one step from the accumulator after point `t - 1`
elsewhere; the output tile is written at the inner coordinate 7 from that point's accumulator and bias row. -/

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the point at position `n`. -/
def accAt0 (c : Dev nD) : (n : ℕ) → n < cfg0.N → Vec F S200x512 .f32
  | 0, hn => accStep0 (grid0.coords ⟨0, hn⟩) (iblk0 V c 0 ⟨0, hn⟩) (iblk0 V c 1 ⟨0, hn⟩) (iblk0 V c 2 ⟨0, hn⟩) (iblk0 V c 3 ⟨0, hn⟩) (k0_pay1 (F := F))
  | n + 1, hn =>
    if (n + 1) % 8 = 0 then
      accStep0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (k0_pay1 (F := F))
    else
      accStep0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn))

/-- At an inner coordinate 0 the accumulator restarts from zero. -/
theorem accAt0_reset (c : Dev nD) (t : Fin cfg0.N) (h : t.val % 8 = 0) :
    accAt0 V c t.val t.isLt = accStep0 (grid0.coords t) (iblk0 V c 0 t) (iblk0 V c 1 t) (iblk0 V c 2 t) (iblk0 V c 3 t) (k0_pay1 (F := F)) := by
  obtain ⟨n, hn⟩ := t
  cases n with
  | zero => rfl
  | succ n => exact if_pos h

/-- Elsewhere it advances from the point before. -/
theorem accAt0_step (c : Dev nD) (t : Fin cfg0.N) (h : t.val % 8 ≠ 0) :
    accAt0 V c t.val t.isLt = accStep0 (grid0.coords t) (iblk0 V c 0 t) (iblk0 V c 1 t) (iblk0 V c 2 t) (iblk0 V c 3 t)
      (accAt0 V c (t.val - 1) (Nat.lt_of_le_of_lt (Nat.sub_le _ _) t.isLt)) := by
  obtain ⟨n, hn⟩ := t
  cases n with
  | zero => exact absurd (Nat.zero_mod _) h
  | succ n => exact if_neg h

/-! ## The invariant: what the scratch accumulator holds between points -/

/-- The scratch operand: the whole of the region's own scoped accumulator buffer. -/
abbrev scM0 : Memref sig .tc .vmem S200x512 .f32 := Memref.whole cc0_scratch0

/-- The core's other scoped buffers that are no staging buffer of this region (the second region's staging buffers
    and scratch), at some contents each: they ride along untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The class invariant with the scratch accumulator as a memref owned at some contents, the other scoped buffers
    beside it. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-- The region invariant before position `n`: before the first point the class's (the scratch at anything);
    afterwards the scratch at the accumulator after the point before, the other scoped buffers at anything, and the
    generator register at some state. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's accumulator. -/
theorem PhiS0_succ (c : Dev nD) (n : ℕ) (hn : n < cfg0.N) :
    PhiS0 V c (n + 1) hn = iprop((owns (c : Thread nD τ) scM0 fullShare (accAt0 V c n hn) ∗ rest0 (F := F) c) ∗ (∃ r, prngReg c r)) := rfl

/-- Before a point that is not the first: the scratch at the accumulator after the point before. -/
theorem PhiS0_pos (c : Dev nD) (n : ℕ) (h : n ≤ cfg0.N) (hz : n ≠ 0) :
    PhiS0 V c n h = iprop((owns (c : Thread nD τ) scM0 fullShare (accAt0 V c (n - 1) (by omega)) ∗ rest0 (F := F) c) ∗ (∃ r, prngReg c r)) := by
  cases n with
  | zero => exact absurd rfl hz
  | succ n => rfl

/-! ## The proof data -/

/-- The proof data of the first layer's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outStep0 (accAt0 V c t.val t.isLt) (iblk0 V c 4 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
/-- What the body leaves in the output window's buffer. -/
theorem after0_5 (c : Dev nD) (t : Fin cfg0.N) :
    (dat0 V c).after 5 t = outStep0 (accAt0 V c t.val t.isLt) (iblk0 V c 4 t) := by dsimp only [dat0]

/-! ## Where the windows are idle -/

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- The output window is idle away from the last inner coordinate, -/
theorem idleAt0_5 : ∀ t : Fin cfg0.N, ¬ cond0_1 (grid0.coords t) → cfg0.idle 5 (grid0.coords t) = true := by decide +kernel
/-- is not written back there, -/
theorem noFlush0_5 : ∀ t : Fin cfg0.N, ¬ cond0_1 (grid0.coords t) → (cfg0.win 5).flush t = false := by decide +kernel
/-- and is live at the last inner coordinate. -/
theorem liveAt0_5 : ∀ t : Fin cfg0.N, cond0_1 (grid0.coords t) → cfg0.idle 5 (grid0.coords t) = false := by decide +kernel

/-! ## What the input windows' buffers hold -/

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' buffers hold their blocks; the inner coordinate says which of the three cases
    the point is in. At an inner coordinate 0 the scratch's old contents do not matter (anything before the first
    point, the forgotten accumulator of the outer coordinate before elsewhere) and the output buffer comes back as
    found; at an inner coordinate 1 … 6 the scratch holds the accumulator after the point before and advances one
    step, the output buffer again as found; at the inner coordinate 7 it advances one step and the output buffer ends
    at the finished tile. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  have hN : t.val < 64 := lt_of_lt_of_eq t.isLt (show cfg0.N = 64 from N_0)
  by_cases h0 : t.val % 8 = 0
  · have hc0 : cond0_0 (grid0.coords t) := (hcond0_0 t).mpr h0
    have hc1 : ¬ cond0_1 (grid0.coords t) := fun h => by have := (hcond0_1 t).mp h; omega
    rw [Dat.leavesExact_idle (dat0 V c) 5 t (idleAt0_5 t hc1) (noFlush0_5 t hc1)]
    rw [accAt0_reset V c t h0]
    by_cases hz : t.val = 0
    · rw [PhiS0_castSucc V c t, PhiS0_zero V c _ _ hz, PhiA0_eq]
      iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
      iapply (sound_first0 c (grid0.coords t) Set.univ _ _ _ _ _ _ _ _ _ _ _ _ _ _ hc0 hc1 (iblk0 V c 0 t) (iblk0 V c 1 t) (iblk0 V c 2 t) (iblk0 V c 3 t) (iblk0 V c 4 t) ((dat0 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_first0 c (grid0.coords t) Set.univ _ _ _ _ _ _ _ _ _ _ _ _ _ _ hc0 hc1 (iblk0 V c 0 t) (iblk0 V c 1 t) (iblk0 V c 2 t) (iblk0 V c 3 t) (iblk0 V c 4 t) ((dat0 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hc0 : ¬ cond0_0 (grid0.coords t) := fun h => h0 ((hcond0_0 t).mp h)
    have hz : t.val ≠ 0 := fun e => h0 (by rw [e])
    rw [accAt0_step V c t h0]
    rw [PhiS0_castSucc V c t, PhiS0_pos V c _ _ hz]
    by_cases h1 : t.val % 8 = 7
    · have hc1 : cond0_1 (grid0.coords t) := (hcond0_1 t).mpr h1
      rw [show (dat0 V c).leavesExact 5 t = owns (c : Thread nD τ) (st0_5 t) fullShare ((dat0 V c).after 5 t) from by
        unfold Dat.leavesExact; rw [liveAt0_5 t hc1], after0_5, accAt0_step V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_last0 c (grid0.coords t) Set.univ _ _ _ _ _ _ _ _ _ _ _ _ _ _ hc0 hc1 (iblk0 V c 0 t) (iblk0 V c 1 t) (iblk0 V c 2 t) (iblk0 V c 3 t) (iblk0 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬ cond0_1 (grid0.coords t) := fun h => h1 ((hcond0_1 t).mp h)
      rw [Dat.leavesExact_idle (dat0 V c) 5 t (idleAt0_5 t hc1) (noFlush0_5 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (sound_mid0 c (grid0.coords t) Set.univ _ _ _ _ _ _ _ _ _ _ _ _ _ _ hc0 hc1 (iblk0 V c 0 t) (iblk0 V c 1 t) (iblk0 V c 2 t) (iblk0 V c 3 t) (iblk0 V c 4 t) ((dat0 V c).before 5 t d5) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.R1BodyB.lean ====
import proofs.«400777_j26645977104607_3_alg».proof.Proof.Gen.Kernel.Launch
import proofs.«400777_j26645977104607_3_alg».proof.Proof.Gen.Kernel.Skeleton
import proofs.«400777_j26645977104607_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one grid point of the second layer's kernel

The grid is 4 × 1: the outer coordinate picks a tile of 128 output features; the one slab of input features is all
4096 of them. So every point is both a first and a last point: the accumulator is reset, receives the sum of the two
products, and the tile is written out with the bias row added (no clamping in this layer). -/

/-- The whole of a `200 × 128` buffer. -/
abbrev rAcc1 : Rect S200x128 := Rect.unit (s := S200x128) ![0, 0] S200x128.size inb_S200x128_S200x128_0_0
/-- The whole of a `128 × 4096` weight tile. -/
abbrev rWt1 : Rect S128x4096 := Rect.unit (s := S128x4096) ![0, 0] S128x4096.size inb_S128x4096_S128x4096_0_0
/-- The whole of a `1 × 128` bias row. -/
abbrev rBias1 : Rect S1x128 := Rect.unit (s := S1x128) ![0, 0] S1x128.size inb_S1x128_S1x128_0_0
/-- The columns of a resident `200 × 4096` operand that the point at coordinates `i` reads (all of them). -/
abbrev rSlab1 (i : grid1.Coords) : Rect S200x4096 := Rect.unit (s := S200x4096) (k1_off1 i) S200x4096.size (k1_off1_inb i)

/-- The accumulator after a point, from the operands' contents and the accumulator `a` the point started from. -/
def accStep1 (i : grid1.Coords) (x0 x1 : Vec F S200x4096 .bf16) (x2 x3 : Vec F S128x4096 .f32) (a : Vec F S200x128 .f32) :
    Vec F S200x128 .f32 :=
  k1_pay2 (View.ld x0 (rSlab1 i)) (View.ld x1 (rSlab1 i)) (View.ld x2 rWt1) (View.ld x3 rWt1) a

/-- The tile written out, from the final accumulator and the bias row. -/
def outStep1 (a : Vec F S200x128 .f32) (x4 : Vec F S1x128 .f32) : Vec F S200x128 .f32 :=
  k1_pay3 a (View.ld x4 rBias1)

/-- "The inner coordinate is 0": the condition under which the body resets the accumulator. -/
abbrev cond1_0 (i : grid1.Coords) : Prop := (Scalar.cmpi .ne (Scalar.extui (Scalar.cmpi .eq (BitVec.ofNat 32 (i 1).val) 0#32)) 0#32) = 1#1
/-- It holds at every point. -/
theorem hcond1_0 : ∀ t : Fin cfg1.N, cond1_0 (grid1.coords t) :=
  (by decide +kernel : ∀ t : Fin grid1.N, cond1_0 (grid1.coords t))
/-- "The inner coordinate is the last one": the condition under which the body writes the tile out. -/
abbrev cond1_1 (i : grid1.Coords) : Prop := k1_cond2 i = 1#1
/-- It holds at every point. -/
theorem hcond1_1 : ∀ t : Fin cfg1.N, cond1_1 (grid1.coords t) :=
  (by decide +kernel : ∀ t : Fin grid1.N, cond1_1 (grid1.coords t))

/-- The zero offsets of a rank-two rectangle, as the constant function. -/
theorem zero_off1 : (![0, 0] : Fin 2 → ℕ) = fun _ => 0 := funext fun a => by fin_cases a <;> rfl

/-- A list of pieces whose newest is the whole `200 × 128` buffer covers it, whatever its payload and the older pieces. -/
theorem cover_acc1 (p0 : Vec F S200x128 .f32) (L : List (View.Piece (Elt F) S200x128 .f32)) (y : S200x128.Idx) :
    ∃ pc ∈ ((⟨rAcc1, p0⟩ : View.Piece (Elt F) S200x128 .f32) :: L), y ∈ pc.1.set :=
  ⟨⟨rAcc1, p0⟩, List.Mem.head _, View.mem_set_unit_zero (S := S200x128) zero_off1 inb_S200x128_S200x128_0_0 y⟩

-- (the accumulator is stored twice and read back in between: the later store covers the buffer, and a load through
-- the whole rectangle of what one covering store left is that store's payload; the output buffer is stored once)
set_option maxHeartbeats 1000000 in
/-- The body at a point: whatever the accumulator and the output buffer held, the accumulator ends at one step from
    zero and the output buffer at the finished tile. -/
theorem sound_only1 (c : Dev nD) (i : grid1.Coords) (E : Set ℕ) (arg2 : Memref sig .tc .vmem S200x4096 .bf16) (harg2 : arg2.IsWhole) (arg3 : Memref sig .tc .vmem S200x4096 .bf16) (harg3 : arg3.IsWhole) (arg4 : Memref sig .tc .vmem S128x4096 .f32) (harg4 : arg4.IsWhole) (arg5 : Memref sig .tc .vmem S128x4096 .f32) (harg5 : arg5.IsWhole) (arg6 : Memref sig .tc .vmem S1x128 .f32) (harg6 : arg6.IsWhole) (arg7 : Memref sig .tc .vmem S200x128 .f32) (harg7 : arg7.IsWhole) (arg8 : Memref sig .tc .vmem S200x128 .f32) (harg8 : arg8.IsWhole)
    (hc0 : cond1_0 i) (hc1 : cond1_1 i) (x0 x1 : Vec F S200x4096 .bf16) (x2 x3 : Vec F S128x4096 .f32) (x4 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outStep1 (accStep1 i x0 x1 x2 x3 (k1_pay1 (F := F))) x4)
            ∗ owns (c : Thread nD τ) arg8 fullShare (accStep1 i x0 x1 x2 x3 (k1_pay1 (F := F)))) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr
    swap; · iexact H7
    ipureintro
    sl_unfold_run_names
    rw [View.read_writes_eq_canon _ _ _ (cover_acc1 _ _),
      View.canon_unit_zero (S := S200x128) zero_off1, View.readCov_cons_toLoadRect,
      View.readCov_unit_zero (S := S200x128) _ zero_off1]
    unfold outStep1 accStep1
    simp only [View.readAt_eq_ld, harg2.read_unread, harg3.read_unread, harg4.read_unread, harg5.read_unread,
      harg6.read_unread]
  iexists _; isplitr
  swap; · iexact H8
  ipureintro
  sl_unfold_run_names
  rw [View.read_writes_eq_canon _ _ _ (cover_acc1 _ _),
    View.canon_cons_unit_zero (S := S200x128) zero_off1, View.readCov_unit_zero (S := S200x128) _ zero_off1]
  unfold accStep1
  simp only [View.readAt_eq_ld, harg2.read_unread, harg3.read_unread, harg4.read_unread, harg5.read_unread]

end Cert.Kernel.Hand

end
-- ==== Proof.R1DatB.lean ====
import proofs.«400777_j26645977104607_3_alg».proof.Proof.Gen.Kernel.Launch
import proofs.«400777_j26645977104607_3_alg».proof.Proof.Gen.Kernel.Skeleton
import proofs.«400777_j26645977104607_3_alg».proof.Proof.Gen.Kernel.Points
import proofs.«400777_j26645977104607_3_alg».proof.Proof.R1BodyB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the proof data and the body obligation

Every point of the 4 × 1 grid resets the accumulator, so nothing is carried between points: the tile written at point
`t` is a function of that point's blocks alone, and between points the scratch buffer holds contents nobody names. -/

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `t`: one step from zero. -/
def accAt1 (c : Dev nD) (t : Fin cfg1.N) : Vec F S200x128 .f32 :=
  accStep1 (grid1.coords t) (iblk1 V c 0 t) (iblk1 V c 1 t) (iblk1 V c 2 t) (iblk1 V c 3 t) (k1_pay1 (F := F))

/-- The proof data of the second layer's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outStep1 (accAt1 V c t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves in the output window's buffer. -/
theorem after1_5 (c : Dev nD) (t : Fin cfg1.N) :
    (dat1 V c).after 5 t = outStep1 (accAt1 V c t) (iblk1 V c 4 t) := by dsimp only [dat1]

/-! ## The schedule's facts for this region -/

/-- No input window is idle anywhere, and the output window is live at every point (each point writes the tile). -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

/-- Each window's current staging memref at point `t`, and its wholeness. -/
abbrev ms1_0 (t : Fin cfg1.N) : Memref sig .tc .vmem S200x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S200x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S200x128 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1_0 : Memref sig .tc .vmem S200x128 .f32 := Memref.whole cc1_scratch0

/-! ## What the body finds in the input windows -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

/-- Each input's current staging buffer holds its block at every point, fetched there or not: where the pipeline
    does not fetch, the block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The invariant: nothing is carried -/

/-- The class invariant lends the accumulator's buffer out at some contents and takes it back at any contents: the
    core's other scoped buffers and its generator register ride along untouched. -/
theorem PhiA1_open (c : Dev nD) :
    (Pipeline.ΦA spec1 c : sProp 𝕄)
      ⊢ iprop((∃ d, owns (c : Thread nD τ) scM1_0 fullShare d)
          ∗ ((∃ d, owns (c : Thread nD τ) scM1_0 fullShare d) -∗ Pipeline.ΦA spec1 c)) := by
  unfold Pipeline.ΦA; rw [scopedRest1_eq]; simp only [scM1_0, owns_whole]
  iintro ⟨⟨R0, R1, R2, R3, R4, R5, R6, R7, R8, R9, R10, HS⟩, Hg⟩
  isplitl [HS]; · iexact HS
  iintro HS
  iframe

theorem hin1 (c : Dev nD) : Pipeline.ΦA spec1 c ⊢ (dat1 V c).Φ 0 := by
  rw [show (dat1 V c).Φ 0 = Pipeline.ΦA spec1 c from by dsimp only [dat1]]

theorem hout1 (c : Dev nD) : (dat1 V c).Φ (Fin.last cfg1.N) ⊢ Pipeline.ΦA spec1 c := by
  rw [show (dat1 V c).Φ (Fin.last cfg1.N) = Pipeline.ΦA spec1 c from by dsimp only [dat1]]

/-! ## The body obligation, at a generic point -/

/-- What the body leaves in each window's current buffer: every window is live at every point, so each buffer is
    stated at the contents the proof data names. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) :
    (dat1 V c).leavesExact 5 t
      = owns (c : Thread nD τ) (ms1_5 t) fullShare (outStep1 (accAt1 V c t) (iblk1 V c 4 t)) := by
  unfold Dat.leavesExact; rw [liveAt1_5 t, after1_5]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the invariant lends the accumulator's buffer at
    whatever it holds; both conditions hold at the point, so the body resets the accumulator, adds the two products
    and writes the tile with the bias row added, whatever the output buffer held; the accumulator's buffer goes back
    to the invariant with its contents forgotten, and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Pipeline.ΦA spec1 c from by dsimp only [dat1],
    show (dat1 V c).Φ t.castSucc = Pipeline.ΦA spec1 c from by dsimp only [dat1]]
  rw [leaves1_0, leaves1_1, leaves1_2, leaves1_3, leaves1_4, leaves1_5]
  unfold accAt1
  iintro ⟨HP, Ho, ⟨%d0, H0⟩, ⟨%d1, H1⟩, ⟨%d2, H2⟩, ⟨%d3, H3⟩, ⟨%d4, H4⟩, ⟨%d5, H5⟩⟩
  icases (PhiA1_open (F := F) c) $$ HP with ⟨HS, Hclose⟩
  iapply (sound_only1 c (grid1.coords t) Set.univ _ _ _ _ _ _ _ _ _ _ _ _ _ _ (hcond1_0 t) (hcond1_1 t)
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS Hclose]
  · iapply Hclose; iexists _; iexact HS
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRunB.lean ====
import proofs.«400777_j26645977104607_3_alg».proof.Proof.Gen.Kernel.Launch
import proofs.«400777_j26645977104607_3_alg».proof.Proof.Gen.Kernel.Skeleton
import proofs.«400777_j26645977104607_3_alg».proof.Proof.Gen.Kernel.Points
import proofs.«400777_j26645977104607_3_alg».proof.Proof.Gen.Kernel.Regions
import proofs.«400777_j26645977104607_3_alg».proof.Proof.R0DatB
import proofs.«400777_j26645977104607_3_alg».proof.Proof.R1DatB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program's run

@main is: host operations, the first layer's kernel, host operations, the second layer's kernel, five stretches of
host operations. Between two items a core's buffers hold the launch contents pushed through the host operations so
far, with each kernel's output array at what its pipeline's write-backs leave. Every weakly fair execution from the
launch ends with every buffer at the last of these valuations. -/

variable (m : (ℓ : Loc nD τ sig) → Buf (Elt F) ℓ) (ρ : Dev nD → PrngReg)

/-- The buffers as the first kernel finds them. -/
abbrev VR0 : (c : Dev nD) → (b : Ref sig .tc) → Buf (Elt F) ((c : Thread nD τ).loc b) := fun c b => Gen.V1 m c b

/-- The first kernel's arrays after its region, every other buffer as the region found it: each input array as it
    was, the output array at its write-backs folded. -/
def o2 : Gen.Outs (F := F) := fun _ r c =>
  Pipeline.withArrays spec0 c (Gen.V1 m c) (fun w => (dat0 (VR0 m) c).arrAt w cfg0.N) (Proc.devRef .tc r)

/-- The buffers as the second kernel finds them, over the first kernel's part alone. -/
abbrev VR1o : (c : Dev nD) → (b : Ref sig .tc) → Buf (Elt F) ((c : Thread nD τ).loc b) := fun c b => Gen.V3 m (o2 m) c b

/-- What the two kernels leave in their output arrays. The second kernel is entered from the buffers the first one
    left pushed through the host operations between them, so its part is stated over the first kernel's part alone. -/
def outs : Gen.Outs (F := F) := fun J r c =>
  if J = 2 then o2 m J r c
  else Pipeline.withArrays spec1 c (Gen.V3 m (o2 m) c)
    (fun w => (dat1 (VR1o m) c).arrAt w cfg1.N) (Proc.devRef .tc r)

/-- The buffers as the second kernel finds them. -/
abbrev VR1 : (c : Dev nD) → (b : Ref sig .tc) → Buf (Elt F) ((c : Thread nD τ).loc b) := fun c b => Gen.V3 m (outs m) c b

/-- After the first region the two descriptions of the kernels' outputs agree. -/
theorem outs_two (r : Ref sig .tc) (c : Dev nD) : outs m 2 r c = o2 m 2 r c := by
  unfold outs; exact if_pos rfl

theorem V2_outs (c : Dev nD) : Gen.V2 m (outs m) c = Gen.V2 m (o2 m) c := by
  unfold Gen.V2; rw [outs_two]

theorem V3_outs (c : Dev nD) : Gen.V3 m (outs m) c = Gen.V3 m (o2 m) c :=
  congrArg (StableHlo.after hostOps1) (V2_outs m c)

/-- So the second kernel is entered from the buffers its part of `outs` is stated over. -/
theorem VR1_eq : VR1 m = VR1o m :=
  funext fun c => funext fun b => congrFun (V3_outs m c) b

/-- The first kernel's output array after its region: the write-backs of its pipeline folded. -/
theorem outs_2 (c : Dev nD) : outs m 2 main_v37 c = (dat0 (VR0 m) c).arrAt 5 cfg0.N := by
  rw [outs_two]; unfold o2
  exact Pipeline.withArrays_arr spec0 launch0.win.arr_inj c _ _ 5

/-- The second kernel's output array after its region. -/
theorem outs_4 (c : Dev nD) : outs m 4 main_v42 c = (dat1 (VR1 m) c).arrAt 5 cfg1.N := by
  rw [VR1_eq]; unfold outs; rw [if_neg (by decide)]
  exact Pipeline.withArrays_arr spec1 launch1.win.arr_inj c _ _ 5

/-- The buffers as the first kernel leaves them. -/
abbrev VX0 : (c : Dev nD) → (b : Ref sig .tc) → Buf (Elt F) ((c : Thread nD τ).loc b) := fun c b => Gen.V2 m (outs m) c b
/-- The buffers as the second kernel leaves them. -/
abbrev VX1 : (c : Dev nD) → (b : Ref sig .tc) → Buf (Elt F) ((c : Thread nD τ).loc b) := fun c b => Gen.V4 m (outs m) c b

/-- At the first region's exit each of its arrays holds what the pipeline leaves: an input array what it held at
    entry, the output array its write-backs folded. -/
theorem hF0 (c : Dev nD) : ∀ w : Fin cfg0.W, (dat0 (VR0 m) c).arrAt w cfg0.N = VX0 m c (Pipeline.arrRef spec0 w)
  | 0 => ((dat0 (VR0 m) c).arrAt_in 0 rfl _).trans ((A_eq0 (VR0 m) c 0).trans (Gen.V2_of m (outs m) c _ (by decide)).symm)
  | 1 => ((dat0 (VR0 m) c).arrAt_in 1 rfl _).trans ((A_eq0 (VR0 m) c 1).trans (Gen.V2_of m (outs m) c _ (by decide)).symm)
  | 2 => ((dat0 (VR0 m) c).arrAt_in 2 rfl _).trans ((A_eq0 (VR0 m) c 2).trans (Gen.V2_of m (outs m) c _ (by decide)).symm)
  | 3 => ((dat0 (VR0 m) c).arrAt_in 3 rfl _).trans ((A_eq0 (VR0 m) c 3).trans (Gen.V2_of m (outs m) c _ (by decide)).symm)
  | 4 => ((dat0 (VR0 m) c).arrAt_in 4 rfl _).trans ((A_eq0 (VR0 m) c 4).trans (Gen.V2_of m (outs m) c _ (by decide)).symm)
  | 5 => by
    show _ = Function.update (Gen.V1 m c) (Proc.devRef .tc main_v37) (outs m 2 main_v37 c) (Proc.devRef .tc main_v37)
    rw [Function.update_self, outs_2]
  | ⟨_ + 6, h⟩ => absurd h (Nat.not_lt.2 (Nat.le_add_left _ _))

/-- Every buffer that is none of the first region's arrays holds what it held at entry. -/
theorem hrest0 (c : Dev nD) : ∀ b : Ref sig .tc, b ∉ Finset.univ.image (Pipeline.arrRef spec0) → VX0 m c b = VR0 m c b :=
  fun b hb => Gen.V2_of m (outs m) c b fun h => hb (by
    rw [List.mem_singleton] at h; subst h
    exact Finset.mem_image.mpr ⟨5, Finset.mem_univ _, rfl⟩)

/-- At the second region's exit each of its arrays holds what the pipeline leaves. -/
theorem hF1 (c : Dev nD) : ∀ w : Fin cfg1.W, (dat1 (VR1 m) c).arrAt w cfg1.N = VX1 m c (Pipeline.arrRef spec1 w)
  | 0 => ((dat1 (VR1 m) c).arrAt_in 0 rfl _).trans ((A_eq1 (VR1 m) c 0).trans (Gen.V4_of m (outs m) c _ (by decide)).symm)
  | 1 => ((dat1 (VR1 m) c).arrAt_in 1 rfl _).trans ((A_eq1 (VR1 m) c 1).trans (Gen.V4_of m (outs m) c _ (by decide)).symm)
  | 2 => ((dat1 (VR1 m) c).arrAt_in 2 rfl _).trans ((A_eq1 (VR1 m) c 2).trans (Gen.V4_of m (outs m) c _ (by decide)).symm)
  | 3 => ((dat1 (VR1 m) c).arrAt_in 3 rfl _).trans ((A_eq1 (VR1 m) c 3).trans (Gen.V4_of m (outs m) c _ (by decide)).symm)
  | 4 => ((dat1 (VR1 m) c).arrAt_in 4 rfl _).trans ((A_eq1 (VR1 m) c 4).trans (Gen.V4_of m (outs m) c _ (by decide)).symm)
  | 5 => by
    show _ = Function.update (Gen.V3 m (outs m) c) (Proc.devRef .tc main_v42) (outs m 4 main_v42 c) (Proc.devRef .tc main_v42)
    rw [Function.update_self, outs_4]
  | ⟨_ + 6, h⟩ => absurd h (Nat.not_lt.2 (Nat.le_add_left _ _))

/-- Every buffer that is none of the second region's arrays holds what it held at entry. -/
theorem hrest1 (c : Dev nD) : ∀ b : Ref sig .tc, b ∉ Finset.univ.image (Pipeline.arrRef spec1) → VX1 m c b = VR1 m c b :=
  fun b hb => Gen.V4_of m (outs m) c b fun h => hb (by
    rw [List.mem_singleton] at h; subst h
    exact Finset.mem_image.mpr ⟨5, Finset.mem_univ _, rfl⟩)

/-! ## The proof data family and what rides along -/

/-- Every pipeline's proof data, each at the buffers its region is entered from. -/
def pdats : (p : Fin 2) → (c : Dev nD) → Dat τ (Elt F) Unit ℕ (UR sig nD τ) ℕ (cfgs p) c
  | ⟨0, _⟩ => fun c => dat0 (VR0 m) c
  | ⟨1, _⟩ => fun c => dat1 (VR1 m) c

/-- No core owes another anything: no level is assigned. -/
abbrev runL : GSem nD τ sig → Finset Unit := fun _ => ∅
abbrev runLv : GSem nD τ sig → Unit → ℕ := fun _ _ => 0
/-- What rides beside the buffers through every item: the core's generator register at some state and its dues, at
    nothing. -/
abbrev Ride (c : Dev nD) : sProp 𝕄 := iprop((∃ r, prngReg c r) ∗ ∃ W, owes (c : Thread nD τ) (0 : CellTallies nD τ sig Unit) W)
/-- The same beside every host stretch. -/
abbrev rideE : Fin 3 → Dev nD → sProp 𝕄 := fun _ c => Ride c

/-! ## The regions as segments -/

set_option backward.isDefEq.respectTransparency.types false in
/-- The first kernel's region: entered from every unscoped buffer at the contents after the first host stretch, left
    with its output array at the write-backs folded and every other buffer as entered. Its arrays are split out of the
    unscoped buffers and put back at the exit contents; the generator register goes into the region invariant and comes
    back; nothing is owed; the kernel has no semaphore of its own. -/
def reg0 : Pipeline.RegionSeg (pcfgs (F := F)) adm (pdats m) () defs₀ Variants.none runL runLv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ runL runLv 0 fun _ _ => rfl
  pre c := iprop(StableHlo.held (c : Thread nD τ) (Pipeline.ucRefs τ sig) (Gen.V1 m c) ∗ Ride c)
  post c := iprop(StableHlo.held (c : Thread nD τ) (Pipeline.ucRefs τ sig) (Gen.V2 m (outs m) c) ∗ Ride c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) (A_eq0 (VR0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VR0 m) c)
    unfold Pipeline.ΦA
    iintro ⟨Hp, -, Hr⟩
    isplitl [Hr]; · iexact Hr
    iexact Hp
  hout c := by
    refine BIBase.Entails.trans (hout0 (VR0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered from every unscoped buffer at the contents after the host stretch between the
    kernels, left with its output array at the write-backs folded and every other buffer as entered. -/
def reg1 : Pipeline.RegionSeg (pcfgs (F := F)) adm (pdats m) () defs₀ Variants.none runL runLv 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ runL runLv 1 fun _ _ => rfl
  pre c := iprop(StableHlo.held (c : Thread nD τ) (Pipeline.ucRefs τ sig) (Gen.V3 m (outs m) c) ∗ Ride c)
  post c := iprop(StableHlo.held (c : Thread nD τ) (Pipeline.ucRefs τ sig) (Gen.V4 m (outs m) c) ∗ Ride c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR1 m c) (A_eq1 (VR1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR1 m) c)
    unfold Pipeline.ΦA
    iintro ⟨Hp, -, Hr⟩
    isplitl [Hr]; · iexact Hr
    iexact Hp
  hout c := by
    refine BIBase.Entails.trans (hout1 (VR1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At the end the generator register stays beside the buffers and the dues, at nothing, stand apart. -/
theorem ride_end (c : Dev nD) (H : sProp 𝕄) :
    iprop(H ∗ Ride c) ⊢ iprop((H ∗ ∃ r, prngReg c r) ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- Every weakly fair execution of @main terminates, faults nowhere, and ends with every buffer of every core at the
    last valuation. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V9 m (outs m) c b) := by
  refine Pipeline.θ_run_regions_kit_dev (pcfgs (F := F)) adm (pdats m) () cellOf_inj emb₁ defs₀ Variants.none runL runLv m ρ main
    (Gen.segs m (outs m) Variants.none runL runLv rideE () (pdats m) (reg0 m) (reg1 m))
    (fun c Q => by
      rewrite [main_chain c, Pipeline.Seg.run_eq_chain,
        show (Gen.segs m (outs m) Variants.none runL runLv rideE () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Ride c))
    (Tₙ := fun c => iprop(StableHlo.held (c : Thread nD τ) (Pipeline.ucRefs τ sig) (Gen.V9 m (outs m) c) ∗ ∃ r, prngReg c r))
    (hch := fun c => ⟨.rfl, .rfl, .rfl, .rfl, .rfl, .rfl, .rfl, .rfl, .rfl, ride_end c _⟩)
    (hinit := by
      refine Pipeline.initEach runL runLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V9 m (outs m) c b)
    (hfin := fun c s' => by
      iintro ⟨⟨Hh, -⟩, HSI⟩
      unfold StableHlo.held
      imodintro
      iapply (pointsTo_read_all (Pipeline.ucRefs τ sig) (fun b => ((c : Thread nD τ).1, b)) (Gen.V9 m (outs m) c) s')
      isplitl [Hh] <;> iassumption)
    (hQ := fun _ h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (Gen.V9_main_arg0 m (outs m) c),
     (h c _ (mem_uc main_arg1 (by decide))).trans (Gen.V9_main_arg1 m (outs m) c),
     (h c _ (mem_uc main_arg2 (by decide))).trans (Gen.V9_main_arg2 m (outs m) c),
     (h c _ (mem_uc main_arg3 (by decide))).trans (Gen.V9_main_arg3 m (outs m) c),
     (h c _ (mem_uc main_arg4 (by decide))).trans (Gen.V9_main_arg4 m (outs m) c),
     (h c _ (mem_uc main_arg5 (by decide))).trans (Gen.V9_main_arg5 m (outs m) c),
     (h c _ (mem_uc main_arg6 (by decide))).trans (Gen.V9_main_arg6 m (outs m) c),
     (h c _ (mem_uc main_arg7 (by decide))).trans (Gen.V9_main_arg7 m (outs m) c),
     (h c _ (mem_uc main_arg8 (by decide))).trans (Gen.V9_main_arg8 m (outs m) c),
     (h c _ (mem_uc main_arg9 (by decide))).trans (Gen.V9_main_arg9 m (outs m) c),
     (h c _ (mem_uc main_arg10 (by decide))).trans (Gen.V9_main_arg10 m (outs m) c),
     (h c _ (mem_uc main_arg11 (by decide))).trans (Gen.V9_main_arg11 m (outs m) c),
     (h c _ (mem_uc main_arg12 (by decide))).trans (Gen.V9_main_arg12 m (outs m) c),
     (h c _ (mem_uc main_arg13 (by decide))).trans (Gen.V9_main_arg13 m (outs m) c),
     (h c _ (mem_uc main_arg14 (by decide))).trans (Gen.V9_main_arg14 m (outs m) c)⟩) (run_all m ρ)

end Cert.Kernel.Hand

end
-- ==== Proof.Sage.lean ====
/-
  The mathematics of one mean-aggregation graph layer on the extended reals, over abstract finite index types:
  nodes `Fin N`, edges `Fin E`, input features `Fin D`, output features `Fin H`.

  An edge `e` carries a weight `ea e`, a source `src e` and a target `dst e`. The aggregate at a node is the
  weighted sum of its incoming neighbours' rows divided by `max (number of incoming edges) 1`. It can be computed
  edge by edge (`aggR`: gather the source row, scale, sum by target, divide) or through the dense operator
  `adj n j = (sum of the weights of the edges j → n) / max (count n) 1` applied to the feature matrix (`aggK`).
  The two agree when the features and the weights are real numbers (`aggK_eq_aggR`): the identity moves a
  division and a product across finite sums, which is distributivity and fails at the infinities.
-/
import Idealize.ShloMosaic.PureOps.Ideal

noncomputable section

open scoped BigOperators

namespace Cert.Sage

open Idealize.ShloMosaic

variable {N E D H : ℕ}

/-- The number of edges whose target is `n`, as an extended real. -/
def cnt (dst : Fin E → Fin N) (n : Fin N) : EReal := ∑ e : Fin E, if dst e = n then (1 : EReal) else 0

/-- The divisor of the mean at node `n`: the count, or one for a node with no incoming edge. -/
def den (dst : Fin E → Fin N) (n : Fin N) : EReal := max (cnt dst n) 1

/-- The weighted sum of the source rows of the edges into `n`, at feature `f`. -/
def wsum (src dst : Fin E → Fin N) (ea : Fin E → EReal) (x : Fin N → Fin D → EReal) (n : Fin N) (f : Fin D) : EReal :=
  ∑ e : Fin E, if dst e = n then x (src e) f * ea e else 0

/-- The aggregate computed edge by edge. -/
def aggR (src dst : Fin E → Fin N) (ea : Fin E → EReal) (x : Fin N → Fin D → EReal) (n : Fin N) (f : Fin D) : EReal :=
  Ideal.div (wsum src dst ea x n f) (den dst n)

/-- The total weight of the edges from `j` to `n`. -/
def araw (src dst : Fin E → Fin N) (ea : Fin E → EReal) (n j : Fin N) : EReal :=
  ∑ e : Fin E, if dst e = n ∧ src e = j then ea e else 0

/-- The dense mean-aggregation operator. -/
def adj (src dst : Fin E → Fin N) (ea : Fin E → EReal) (n j : Fin N) : EReal :=
  Ideal.div (araw src dst ea n j) (den dst n)

/-- The aggregate computed as the dense operator applied to the features. -/
def aggK (src dst : Fin E → Fin N) (ea : Fin E → EReal) (x : Fin N → Fin D → EReal) (n : Fin N) (f : Fin D) : EReal :=
  ∑ j : Fin N, adj src dst ea n j * x j f

/-- Every entry of a matrix is a real number. -/
def IsReal2 {A B : ℕ} (x : Fin A → Fin B → EReal) : Prop := ∀ a b, ∃ r : ℝ, x a b = (r : EReal)

/-- Every entry of a vector is a real number. -/
def IsReal1 {A : ℕ} (x : Fin A → EReal) : Prop := ∀ a, ∃ r : ℝ, x a = (r : EReal)

/-- An extended real that is a real number. -/
def IsR (z : EReal) : Prop := ∃ r : ℝ, z = (r : EReal)

/-- The embedding of the reals commutes with finite sums (it is additive). -/
theorem coe_sum {ι : Type} (s : Finset ι) (g : ι → ℝ) :
    ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

/-- The embedding of the reals commutes with a choice between a value and zero. -/
theorem coe_ite (p : Prop) [Decidable p] (r : ℝ) :
    ((if p then r else 0 : ℝ) : EReal) = if p then (r : EReal) else 0 := by
  split_ifs <;> simp

/-- The embedding of the reals is monotone, so it commutes with the maximum. -/
theorem coe_max (r s : ℝ) : ((max r s : ℝ) : EReal) = max (r : EReal) (s : EReal) :=
  EReal.coe_strictMono.monotone.map_max

theorem IsR.add {y z : EReal} (hy : IsR y) (hz : IsR z) : IsR (y + z) := by
  obtain ⟨r, rfl⟩ := hy
  obtain ⟨s, rfl⟩ := hz
  exact ⟨r + s, (EReal.coe_add r s).symm⟩

theorem IsR.mul {y z : EReal} (hy : IsR y) (hz : IsR z) : IsR (y * z) := by
  obtain ⟨r, rfl⟩ := hy
  obtain ⟨s, rfl⟩ := hz
  exact ⟨r * s, (EReal.coe_mul r s).symm⟩

theorem IsR.max {y z : EReal} (hy : IsR y) (hz : IsR z) : IsR (max y z) := by
  obtain ⟨r, rfl⟩ := hy
  obtain ⟨s, rfl⟩ := hz
  exact ⟨Max.max r s, (coe_max r s).symm⟩

theorem IsR.zero : IsR 0 := ⟨0, rfl⟩

theorem IsR.sum {ι : Type} (s : Finset ι) (g : ι → EReal) (hg : ∀ i, IsR (g i)) : IsR (∑ i ∈ s, g i) := by
  choose r hr using hg
  exact ⟨∑ i ∈ s, r i, by rw [coe_sum]; exact Finset.sum_congr rfl fun i _ => hr i⟩

/-- The count is a natural number, hence real, and the divisor is a real number at least one. -/
theorem den_real (dst : Fin E → Fin N) (n : Fin N) : ∃ r : ℝ, 1 ≤ r ∧ den dst n = (r : EReal) := by
  refine ⟨Max.max (∑ e : Fin E, if dst e = n then (1 : ℝ) else 0) 1, le_max_right _ _, ?_⟩
  rw [coe_max, coe_sum]
  unfold den cnt
  congr 1
  exact Finset.sum_congr rfl fun e _ => by rw [coe_ite]; rfl

/-- The identity on real numbers: the dense operator applied to the features is the edge-wise aggregate.
    Exchange the two sums; for a fixed edge the sum over the source index has a single nonzero term. -/
theorem agg_real (src dst : Fin E → Fin N) (rea : Fin E → ℝ) (rx : Fin N → Fin D → ℝ) (r : ℝ) (n : Fin N) (f : Fin D) :
    ∑ j : Fin N, (∑ e : Fin E, if dst e = n ∧ src e = j then rea e else 0) * (1 / r) * rx j f
      = (∑ e : Fin E, if dst e = n then rx (src e) f * rea e else 0) * (1 / r) := by
  simp only [Finset.sum_mul]
  rw [Finset.sum_comm]
  refine Finset.sum_congr rfl fun e _ => ?_
  by_cases h : dst e = n
  · simp only [h, true_and, if_true, ite_mul, zero_mul, Finset.sum_ite_eq, Finset.mem_univ]
    ring
  · simp [h]

/-- The weighted sum of real rows with real weights is the embedding of the real weighted sum. -/
theorem wsum_coe (src dst : Fin E → Fin N) (rea : Fin E → ℝ) (rx : Fin N → Fin D → ℝ) (n : Fin N) (f : Fin D) :
    wsum src dst (fun e => (rea e : EReal)) (fun a b => (rx a b : EReal)) n f
      = ((∑ e : Fin E, if dst e = n then rx (src e) f * rea e else 0 : ℝ) : EReal) := by
  unfold wsum
  rw [coe_sum]
  exact Finset.sum_congr rfl fun e _ => by rw [coe_ite, EReal.coe_mul]

/-- The dense form and the edge form of the aggregate agree on real features and real weights. -/
theorem aggK_eq_aggR (src dst : Fin E → Fin N) (ea : Fin E → EReal) (x : Fin N → Fin D → EReal)
    (hx : IsReal2 x) (hea : IsReal1 ea) (n : Fin N) (f : Fin D) :
    aggK src dst ea x n f = aggR src dst ea x n f := by
  choose rx hrx using hx
  choose rea hrea using hea
  obtain rfl : x = fun a b => (rx a b : EReal) := funext fun a => funext fun b => hrx a b
  obtain rfl : ea = fun e => (rea e : EReal) := funext hrea
  obtain ⟨r, hr1, hr⟩ := den_real dst n
  have hr0 : r ≠ 0 := by linarith
  unfold aggK adj aggR
  rw [hr, wsum_coe, Ideal.div_coe hr0, ← EReal.coe_mul, ← agg_real, coe_sum]
  refine Finset.sum_congr rfl fun j _ => ?_
  rw [Ideal.div_coe hr0, EReal.coe_mul, EReal.coe_mul]
  congr 2
  unfold araw
  rw [coe_sum]
  exact Finset.sum_congr rfl fun e _ => by rw [coe_ite]

/-- The edge form of the aggregate of real features with real weights is real. -/
theorem aggR_isReal (src dst : Fin E → Fin N) (ea : Fin E → EReal) (x : Fin N → Fin D → EReal)
    (hx : IsReal2 x) (hea : IsReal1 ea) : IsReal2 (aggR src dst ea x) := by
  intro n f
  choose rx hrx using hx
  choose rea hrea using hea
  obtain rfl : x = fun a b => (rx a b : EReal) := funext fun a => funext fun b => hrx a b
  obtain rfl : ea = fun e => (rea e : EReal) := funext hrea
  obtain ⟨r, hr1, hr⟩ := den_real dst n
  have hr0 : r ≠ 0 := by linarith
  unfold aggR
  rw [hr, wsum_coe, Ideal.div_coe hr0, ← EReal.coe_mul]
  exact ⟨_, rfl⟩

/-- The two linear maps of a layer and its bias: `a · Wlᵀ + x · Wrᵀ + b`. -/
def lin (a x : Fin N → Fin D → EReal) (Wl Wr : Fin H → Fin D → EReal) (b : Fin H → EReal) (n : Fin N) (h : Fin H) : EReal :=
  (∑ f : Fin D, a n f * Wl h f + ∑ f : Fin D, x n f * Wr h f) + b h

/-- A layer's linear part maps real data to real data. -/
theorem lin_isReal (a x : Fin N → Fin D → EReal) (Wl Wr : Fin H → Fin D → EReal) (b : Fin H → EReal)
    (ha : IsReal2 a) (hx : IsReal2 x) (hWl : IsReal2 Wl) (hWr : IsReal2 Wr) (hb : IsReal1 b) :
    IsReal2 (lin a x Wl Wr b) := by
  intro n h
  exact IsR.add (IsR.add (IsR.sum _ _ fun f => IsR.mul (ha n f) (hWl h f))
    (IsR.sum _ _ fun f => IsR.mul (hx n f) (hWr h f))) (hb h)

/-- Clamping real data below at zero leaves it real. -/
theorem relu_isReal {A B : ℕ} (y : Fin A → Fin B → EReal) (hy : IsReal2 y) : IsReal2 (fun a b => max (y a b) 0) := by
  intro a b
  exact IsR.max (hy a b) IsR.zero

/-- Adding the terms of a finite family to a zero accumulator in index order is the sum of the family
    (addition of extended reals is associative and has zero as its unit). -/
theorem foldl_finRange_add (B : ℕ) (g : Fin B → EReal) :
    (List.finRange B).foldl (fun acc q => acc + g q) 0 = ∑ q : Fin B, g q := by
  rw [Fin.sum_univ_def, List.sum_eq_foldl, List.foldl_map]

/-- A sum over `Fin (B * T)` is the double sum over blocks `q` and offsets `k` at the index `q * T + k`. -/
theorem sum_blocks (B T : ℕ) (g : Fin (B * T) → EReal) (hlt : ∀ (q : Fin B) (k : Fin T), q.val * T + k.val < B * T) :
    ∑ q : Fin B, ∑ k : Fin T, g ⟨q.val * T + k.val, hlt q k⟩ = ∑ i : Fin (B * T), g i := by
  rw [← Equiv.sum_comp finProdFinEquiv g, Fintype.sum_prod_type]
  refine Finset.sum_congr rfl fun q _ => Finset.sum_congr rfl fun k _ => ?_
  congr 1
  apply Fin.ext
  rw [finProdFinEquiv_apply_val]
  simp only
  rw [Nat.add_comm, Nat.mul_comm]

/-- The same sums taken block by block along the feature axis: with `D = B * T`, adding the `B` partial
    products to a zero accumulator in order and then the bias is the layer's linear part. -/
theorem lin_blocked (B T : ℕ) (hD : D = B * T) (a x : Fin N → Fin D → EReal) (Wl Wr : Fin H → Fin D → EReal)
    (b : Fin H → EReal) (n : Fin N) (h : Fin H) :
    ((List.finRange B).foldl (fun acc q => acc +
        (∑ k : Fin T, a n ⟨q.val * T + k.val, by subst hD; exact Nat.lt_of_lt_of_le (Nat.add_lt_add_left k.isLt _) (by rw [← Nat.succ_mul]; exact Nat.mul_le_mul_right _ q.isLt)⟩
            * Wl h ⟨q.val * T + k.val, by subst hD; exact Nat.lt_of_lt_of_le (Nat.add_lt_add_left k.isLt _) (by rw [← Nat.succ_mul]; exact Nat.mul_le_mul_right _ q.isLt)⟩
          + ∑ k : Fin T, x n ⟨q.val * T + k.val, by subst hD; exact Nat.lt_of_lt_of_le (Nat.add_lt_add_left k.isLt _) (by rw [← Nat.succ_mul]; exact Nat.mul_le_mul_right _ q.isLt)⟩
            * Wr h ⟨q.val * T + k.val, by subst hD; exact Nat.lt_of_lt_of_le (Nat.add_lt_add_left k.isLt _) (by rw [← Nat.succ_mul]; exact Nat.mul_le_mul_right _ q.isLt)⟩)) 0)
      + b h = lin a x Wl Wr b n h := by
  subst hD
  unfold lin
  congr 1
  rw [foldl_finRange_add, Finset.sum_add_distrib]
  congr 1
  · exact sum_blocks B T (fun i => a n i * Wl h i) _
  · exact sum_blocks B T (fun i => x n i * Wr h i) _

end Cert.Sage

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.Val0Aux.lean ====
import proofs.«400777_j26645977104607_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-! # The first layer's body, entry by entry, on the extended reals

A grid point multiplies a `200 × 2048` slab of each resident operand by the transpose of a `512 × 2048` weight tile:
both factors are contracted along their second axis, so entry `(n, j)` of a product is `∑ k, l (n, k) · r (j, k)`.
The point adds the two products to the accumulator; the last point of a tile adds the bias row to every row of the
accumulator and clamps the result below at zero. -/

/-- The left factor's index at result entry `i` and contraction position `q`: the row is `i`'s row … -/
theorem lhs_tile_0 (i : S200x512.Idx) (q : dot_S200x2048_S512x2048_S200x512_1_1_0_0_n_n.contr.Idx) :
    (dot_S200x2048_S512x2048_S200x512_1_1_0_0_n_n.lhsIdx i q 0).val = (i 0).val := by
  unfold DotDims.lhsIdx
  rw [dif_neg (show ¬(0 : Fin S200x2048.rank) ∈ dot_S200x2048_S512x2048_S200x512_1_1_0_0_n_n.lhsBatch by decide), dif_pos (show (0 : Fin S200x2048.rank) ∈ dot_S200x2048_S512x2048_S200x512_1_1_0_0_n_n.lhsNonContracting by decide)]
  rfl
/-- … and the column is the contraction position. -/
theorem lhs_tile_1 (i : S200x512.Idx) (q : dot_S200x2048_S512x2048_S200x512_1_1_0_0_n_n.contr.Idx) :
    (dot_S200x2048_S512x2048_S200x512_1_1_0_0_n_n.lhsIdx i q 1).val = (q ⟨0, by decide⟩).val :=
  dot_S200x2048_S512x2048_S200x512_1_1_0_0_n_n.lhsIdx_val_of_single rfl i q
/-- The right factor's index: the row is `i`'s column … -/
theorem rhs_tile_0 (i : S200x512.Idx) (q : dot_S200x2048_S512x2048_S200x512_1_1_0_0_n_n.contr.Idx) :
    (dot_S200x2048_S512x2048_S200x512_1_1_0_0_n_n.rhsIdx i q 0).val = (i 1).val := by
  unfold DotDims.rhsIdx
  rw [dif_neg (show ¬(0 : Fin S512x2048.rank) ∈ dot_S200x2048_S512x2048_S200x512_1_1_0_0_n_n.rhsBatch by decide), dif_pos (show (0 : Fin S512x2048.rank) ∈ dot_S200x2048_S512x2048_S200x512_1_1_0_0_n_n.rhsNonContracting by decide)]
  rfl
/-- … and the column is the contraction position. -/
theorem rhs_tile_1 (i : S200x512.Idx) (q : dot_S200x2048_S512x2048_S200x512_1_1_0_0_n_n.contr.Idx) :
    (dot_S200x2048_S512x2048_S200x512_1_1_0_0_n_n.rhsIdx i q 1).val = (q ⟨0, by decide⟩).val :=
  dot_S200x2048_S512x2048_S200x512_1_1_0_0_n_n.rhsIdx_val_of_single rfl i q

/-- A slab times a transposed tile, into a zero accumulator, at entry `(n, j)`. -/
theorem matmulT_apply {φ₁ φ₂ : FTy} (lhs : FVec Ideal S200x2048 φ₁) (rhs : FVec Ideal S512x2048 φ₂) (n : Fin 200) (j : Fin 512) :
    matmul dot_S200x2048_S512x2048_S200x512_1_1_0_0_n_n none lhs rhs (constant S200x512 .f32 0x00000000#32) (ix2 n j)
      = ∑ k : Fin 2048, lhs (ix2 n k) * rhs (ix2 j k) := by
  refine (Ideal.matmul_constant_zero_apply _ none lhs rhs (ix2 n j)).trans ?_
  rw [← Equiv.sum_comp (contrEquiv1 dot_S200x2048_S512x2048_S200x512_1_1_0_0_n_n 2048 rfl rfl).symm]
  refine Finset.sum_congr rfl fun k _ => ?_
  have hk := contrEquiv1_symm_val dot_S200x2048_S512x2048_S200x512_1_1_0_0_n_n 2048 rfl rfl k
  have el : dot_S200x2048_S512x2048_S200x512_1_1_0_0_n_n.lhsIdx (ix2 n j) ((contrEquiv1 dot_S200x2048_S512x2048_S200x512_1_1_0_0_n_n 2048 rfl rfl).symm k) = ix2 n k := funext fun a => Fin.ext (by
    match a with
    | ⟨0, _⟩ => exact lhs_tile_0 _ _
    | ⟨1, _⟩ => exact (lhs_tile_1 _ _).trans hk)
  have er : dot_S200x2048_S512x2048_S200x512_1_1_0_0_n_n.rhsIdx (ix2 n j) ((contrEquiv1 dot_S200x2048_S512x2048_S200x512_1_1_0_0_n_n 2048 rfl rfl).symm k) = ix2 j k := funext fun a => Fin.ext (by
    match a with
    | ⟨0, _⟩ => exact rhs_tile_0 _ _
    | ⟨1, _⟩ => exact (rhs_tile_1 _ _).trans hk)
  rw [el, er]

/-- The accumulator's reset value is zero everywhere. -/
theorem pay1_apply (n : Fin 200) (j : Fin 512) : (k0_pay1 (F := Ideal)) (ix2 n j) = 0 := by
  unfold k0_pay1
  simp only [shapeCast_self]
  exact Ideal.ofBits_zero_f32

/-- One point's update: the accumulator plus the two partial products (the weight tiles' change of format is the
    identity on the extended reals). -/
theorem pay2_apply (v6 v9 : Vec Ideal S200x2048 .bf16) (v11 v13 : Vec Ideal S512x2048 .f32) (v18 : Vec Ideal S200x512 .f32)
    (n : Fin 200) (j : Fin 512) :
    k0_pay2 v6 v9 v11 v13 v18 (ix2 n j)
      = v18 (ix2 n j) + (∑ k : Fin 2048, v6 (ix2 n k) * v11 (ix2 j k) + ∑ k : Fin 2048, v9 (ix2 n k) * v13 (ix2 j k)) := by
  unfold k0_pay2
  simp only [shapeCast_self]
  refine congrArg (v18 (ix2 n j) + ·) ?_
  refine congrArg₂ (· + ·) ?_ ?_
  · exact matmulT_apply v6 (truncf .bf16 v11 bitsLt_bf16_f32) n j
  · exact matmulT_apply v9 (truncf .bf16 v13 bitsLt_bf16_f32) n j

/-- The tile written out: the accumulator plus the bias row, clamped below at zero. -/
theorem pay3_apply (a : Vec Ideal S200x512 .f32) (b : Vec Ideal S1x512 .f32) (n : Fin 200) (j : Fin 512) :
    k0_pay3 a b (ix2 n j) = max (a (ix2 n j) + b (ix2 (0 : Fin 1) j)) 0 := by
  unfold k0_pay3
  simp only [shapeCast_self]
  refine congrArg₂ max (congrArg (a (ix2 n j) + ·) ?_) Ideal.ofBits_zero_f32
  exact broadcastTo_1b_ab_apply b broadcasts_S1x512_S200x512 n j

end Cert.KernelIdeal.Hand

end
-- ==== Proof.Val0.lean ====
import proofs.«400777_j26645977104607_3_alg».proof.Proof.R0Dat
import proofs.«400777_j26645977104607_3_alg».proof.Proof.Sage
import proofs.«400777_j26645977104607_3_alg».proof.Proof.LibMatProd
import proofs.«400777_j26645977104607_3_alg».proof.Proof.Val0Aux
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! # Region 0 at an index, on the extended reals

After the first layer's region its output array holds, at node `n` and hidden feature `h`,
`max (∑ f, agg n f · Wl h f + ∑ f, x n f · Wr h f + b h) 0`: the tile of feature `h` is written at the last of its
eight inner points, from an accumulator that has by then received the eight slabs' partial products in order. -/

/-! ## Where the blocks sit

Point `t` of the 8 × 8 grid has outer coordinate `t / 8` and inner coordinate `t % 8`. The two resident operands are
their windows' one block; a weight tile is rows `512 · (t / 8) …` and columns `2048 · (t % 8) …` of its matrix; the bias
and output tiles are columns `512 · (t / 8) …`; the slab read from a resident operand is its columns `2048 · (t % 8) …`. -/

/-- The block indices of the six windows and the slab's offsets, at every point of the grid. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = t.val % 8
    ∧ win0_4.index t (0 : Fin 2) = 0 ∧ win0_4.index t (1 : Fin 2) = t.val / 8
    ∧ win0_5.index t (0 : Fin 2) = 0 ∧ win0_5.index t (1 : Fin 2) = t.val / 8
    ∧ k0_off1 (grid0.coords t) (0 : Fin 2) = 0 ∧ k0_off1 (grid0.coords t) (1 : Fin 2) = t.val % 8 * 2048 :=
  (by decide +kernel : ∀ t : Fin grid0.N, _)

/-- Window 0's one block is the whole aggregated operand. -/
theorem iblk0_0_apply (c : Dev nD) (t : Fin cfg0.N) (n : Fin 200) (f : Fin 16384) :
    (iblk0 V c 0 t : S200x16384.Idx → EReal) (ix2 n f) = (V c main_v35 : S200x16384.Idx → EReal) (ix2 n f) := by
  obtain ⟨e0, e1, -⟩ := idx_facts0 t
  unfold iblk0
  rw [View.read_apply]
  show (V c main_v35 : S200x16384.Idx → EReal) (((cfg0.win 0).blk t).view.emb (ix2 n f)) = _
  refine congrArg _ (funext fun a => Fin.ext ?_)
  match a with
  | ⟨0, _⟩ => show win0_0.index t (0 : Fin 2) * 200 + 1 * n.val = n.val; rw [e0]; omega
  | ⟨1, _⟩ => show win0_0.index t (1 : Fin 2) * 16384 + 1 * f.val = f.val; rw [e1]; omega

/-- Window 1's one block is the whole feature operand. -/
theorem iblk0_1_apply (c : Dev nD) (t : Fin cfg0.N) (n : Fin 200) (f : Fin 16384) :
    (iblk0 V c 1 t : S200x16384.Idx → EReal) (ix2 n f) = (V c main_v34 : S200x16384.Idx → EReal) (ix2 n f) := by
  obtain ⟨-, -, e0, e1, -⟩ := idx_facts0 t
  unfold iblk0
  rw [View.read_apply]
  show (V c main_v34 : S200x16384.Idx → EReal) (((cfg0.win 1).blk t).view.emb (ix2 n f)) = _
  refine congrArg _ (funext fun a => Fin.ext ?_)
  match a with
  | ⟨0, _⟩ => show win0_1.index t (0 : Fin 2) * 200 + 1 * n.val = n.val; rw [e0]; omega
  | ⟨1, _⟩ => show win0_1.index t (1 : Fin 2) * 16384 + 1 * f.val = f.val; rw [e1]; omega

/-- Window 2's block at point `t` is a tile of the first weight matrix. -/
theorem iblk0_2_apply (c : Dev nD) (t : Fin cfg0.N) (j : Fin 512) (k : Fin 2048) (r : Fin 4096) (f : Fin 16384)
    (hr : r.val = t.val / 8 * 512 + j.val) (hf : f.val = t.val % 8 * 2048 + k.val) :
    (iblk0 V c 2 t : S512x2048.Idx → EReal) (ix2 j k) = (V c main_arg3 : S4096x16384.Idx → EReal) (ix2 r f) := by
  obtain ⟨-, -, -, -, e0, e1, -⟩ := idx_facts0 t
  unfold iblk0
  rw [View.read_apply]
  show (V c main_arg3 : S4096x16384.Idx → EReal) (((cfg0.win 2).blk t).view.emb (ix2 j k)) = _
  refine congrArg _ (funext fun a => Fin.ext ?_)
  match a with
  | ⟨0, _⟩ => show win0_2.index t (0 : Fin 2) * 512 + 1 * j.val = r.val; rw [e0, hr]; omega
  | ⟨1, _⟩ => show win0_2.index t (1 : Fin 2) * 2048 + 1 * k.val = f.val; rw [e1, hf]; omega

/-- Window 3's block at point `t` is the same tile of the second weight matrix. -/
theorem iblk0_3_apply (c : Dev nD) (t : Fin cfg0.N) (j : Fin 512) (k : Fin 2048) (r : Fin 4096) (f : Fin 16384)
    (hr : r.val = t.val / 8 * 512 + j.val) (hf : f.val = t.val % 8 * 2048 + k.val) :
    (iblk0 V c 3 t : S512x2048.Idx → EReal) (ix2 j k) = (V c main_arg4 : S4096x16384.Idx → EReal) (ix2 r f) := by
  obtain ⟨-, -, -, -, -, -, e0, e1, -⟩ := idx_facts0 t
  unfold iblk0
  rw [View.read_apply]
  show (V c main_arg4 : S4096x16384.Idx → EReal) (((cfg0.win 3).blk t).view.emb (ix2 j k)) = _
  refine congrArg _ (funext fun a => Fin.ext ?_)
  match a with
  | ⟨0, _⟩ => show win0_3.index t (0 : Fin 2) * 512 + 1 * j.val = r.val; rw [e0, hr]; omega
  | ⟨1, _⟩ => show win0_3.index t (1 : Fin 2) * 2048 + 1 * k.val = f.val; rw [e1, hf]; omega

/-- Window 4's block at point `t` is a tile of the bias row. -/
theorem iblk0_4_apply (c : Dev nD) (t : Fin cfg0.N) (j : Fin 512) (r : Fin 4096) (hr : r.val = t.val / 8 * 512 + j.val) :
    (iblk0 V c 4 t : S1x512.Idx → EReal) (ix2 (0 : Fin 1) j) = (V c main_v36 : S1x4096.Idx → EReal) (ix2 (0 : Fin 1) r) := by
  obtain ⟨-, -, -, -, -, -, -, -, e0, e1, -⟩ := idx_facts0 t
  unfold iblk0
  rw [View.read_apply]
  show (V c main_v36 : S1x4096.Idx → EReal) (((cfg0.win 4).blk t).view.emb (ix2 (0 : Fin 1) j)) = _
  refine congrArg _ (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 512 + 1 * j.val = r.val; rw [e1, hr]; omega

/-- The slab a point reads from a resident operand, at an index: the operand's columns from the slab's offset. -/
theorem slab_apply (i : grid0.Coords) (q : ℕ) (h0 : k0_off1 i (0 : Fin 2) = 0) (h1 : k0_off1 i (1 : Fin 2) = q * 2048)
    (x : Vec Ideal S200x16384 .bf16) (n : Fin 200) (k : Fin 2048) (f : Fin 16384) (hf : f.val = q * 2048 + k.val) :
    (View.ld x (rSlab0 i) : S200x2048.Idx → EReal) (ix2 n k) = x (ix2 n f) := by
  show x ((rSlab0 i).idx (ix2 n k)) = _
  refine congrArg x (funext fun a => Fin.ext ?_)
  match a with
  | ⟨0, _⟩ => show k0_off1 i (0 : Fin 2) + 1 * n.val = n.val; rw [h0]; omega
  | ⟨1, _⟩ => show k0_off1 i (1 : Fin 2) + 1 * k.val = f.val; rw [h1, hf]; omega

/-! ## One point's two steps at an index -/

/-- The accumulator after a point, at entry `(n, j)`: what it held plus the two partial products of the point's slabs
    and tiles. -/
theorem accStep0_apply (i : grid0.Coords) (x0 x1 : Vec Ideal S200x16384 .bf16) (x2 x3 : Vec Ideal S512x2048 .f32)
    (a : Vec Ideal S200x512 .f32) (n : Fin 200) (j : Fin 512) :
    accStep0 i x0 x1 x2 x3 a (ix2 n j)
      = a (ix2 n j) + (∑ k : Fin 2048, (View.ld x0 (rSlab0 i) : S200x2048.Idx → EReal) (ix2 n k) * x2 (ix2 j k)
          + ∑ k : Fin 2048, (View.ld x1 (rSlab0 i) : S200x2048.Idx → EReal) (ix2 n k) * x3 (ix2 j k)) := by
  unfold accStep0
  refine (pay2_apply _ _ _ _ a n j).trans ?_
  rw [View.ld_unit_zero (S := S512x2048) off2_zero, View.ld_unit_zero (S := S512x2048) off2_zero]

/-- The tile written out, at entry `(n, j)`: the accumulator plus the bias, clamped below at zero. -/
theorem outStep0_apply (a : Vec Ideal S200x512 .f32) (x4 : Vec Ideal S1x512 .f32) (n : Fin 200) (j : Fin 512) :
    outStep0 a x4 (ix2 n j) = max (a (ix2 n j) + x4 (ix2 (0 : Fin 1) j)) 0 := by
  unfold outStep0
  refine (pay3_apply a _ n j).trans ?_
  rw [View.ld_unit_zero (S := S1x512) off2_zero]

/-! ## The accumulator over a tile's eight points

The arrays as matrices of extended reals, and slab `q`'s contribution to entry `(n, h)` of the linear part: the two
partial sums over input features `2048 q … 2048 q + 2047`. -/

/-- The aggregated operand as a matrix. -/
abbrev aggM (c : Dev nD) : Fin 200 → Fin 16384 → EReal := fun n f => (V c main_v35 : S200x16384.Idx → EReal) (ix2 n f)
/-- The feature operand as a matrix. -/
abbrev xM (c : Dev nD) : Fin 200 → Fin 16384 → EReal := fun n f => (V c main_v34 : S200x16384.Idx → EReal) (ix2 n f)
/-- The weights applied to the aggregate. -/
abbrev wlM (c : Dev nD) : Fin 4096 → Fin 16384 → EReal := fun h f => (V c main_arg3 : S4096x16384.Idx → EReal) (ix2 h f)
/-- The weights applied to the features. -/
abbrev wrM (c : Dev nD) : Fin 4096 → Fin 16384 → EReal := fun h f => (V c main_arg4 : S4096x16384.Idx → EReal) (ix2 h f)
/-- The bias. -/
abbrev bM (c : Dev nD) : Fin 4096 → EReal := fun h => (V c main_v36 : S1x4096.Idx → EReal) (ix2 0 h)

/-- A feature of slab `q` is a feature. -/
theorem slab_lt (q : Fin 8) (k : Fin 2048) : q.val * 2048 + k.val < 16384 := by
  have := q.isLt; have := k.isLt; omega

/-- Slab `q`'s contribution to entry `(n, h)`. -/
def slabTerm (a x : Fin 200 → Fin 16384 → EReal) (Wl Wr : Fin 4096 → Fin 16384 → EReal) (n : Fin 200) (h : Fin 4096)
    (q : Fin 8) : EReal :=
  ∑ k : Fin 2048, a n ⟨q.val * 2048 + k.val, slab_lt q k⟩ * Wl h ⟨q.val * 2048 + k.val, slab_lt q k⟩
    + ∑ k : Fin 2048, x n ⟨q.val * 2048 + k.val, slab_lt q k⟩ * Wr h ⟨q.val * 2048 + k.val, slab_lt q k⟩

/-- The same with the slab's number a natural number: zero from the eighth on. -/
def slabN (a x : Fin 200 → Fin 16384 → EReal) (Wl Wr : Fin 4096 → Fin 16384 → EReal) (n : Fin 200) (h : Fin 4096)
    (q : ℕ) : EReal :=
  if hq : q < 8 then slabTerm a x Wl Wr n h ⟨q, hq⟩ else 0

/-- One point adds its slab's contribution to the accumulator: entry `(n, j)` of the tile is entry `(n, h)` of the array
    with `h = 512 · (t / 8) + j`, and the point's slab is number `t % 8`. -/
theorem point_step (c : Dev nD) (t : Fin cfg0.N) (a : Vec Ideal S200x512 .f32) (n : Fin 200) (j : Fin 512) (h : Fin 4096)
    (hh : h.val = t.val / 8 * 512 + j.val) :
    accStep0 (grid0.coords t) (iblk0 V c 0 t) (iblk0 V c 1 t) (iblk0 V c 2 t) (iblk0 V c 3 t) a (ix2 n j)
      = a (ix2 n j) + slabN (aggM V c) (xM V c) (wlM V c) (wrM V c) n h (t.val % 8) := by
  obtain ⟨-, -, -, -, -, -, -, -, -, -, -, -, o0, o1⟩ := idx_facts0 t
  have hq : t.val % 8 < 8 := Nat.mod_lt _ (by decide)
  refine (accStep0_apply (grid0.coords t) (iblk0 V c 0 t) (iblk0 V c 1 t) (iblk0 V c 2 t) (iblk0 V c 3 t) a n j).trans ?_
  unfold slabN
  rw [dif_pos hq]
  unfold slabTerm
  refine congrArg (a (ix2 n j) + ·) (congrArg₂ (· + ·) (Finset.sum_congr rfl fun k _ => ?_) (Finset.sum_congr rfl fun k _ => ?_))
  · refine congrArg₂ (· * ·) ?_ ?_
    · exact (slab_apply (grid0.coords t) (t.val % 8) o0 o1 (iblk0 V c 0 t) n k ⟨t.val % 8 * 2048 + k.val, slab_lt ⟨t.val % 8, hq⟩ k⟩ rfl).trans
        (iblk0_0_apply V c t n ⟨t.val % 8 * 2048 + k.val, slab_lt ⟨t.val % 8, hq⟩ k⟩)
    · exact iblk0_2_apply V c t j k h ⟨t.val % 8 * 2048 + k.val, slab_lt ⟨t.val % 8, hq⟩ k⟩ hh rfl
  · refine congrArg₂ (· * ·) ?_ ?_
    · exact (slab_apply (grid0.coords t) (t.val % 8) o0 o1 (iblk0 V c 1 t) n k ⟨t.val % 8 * 2048 + k.val, slab_lt ⟨t.val % 8, hq⟩ k⟩ rfl).trans
        (iblk0_1_apply V c t n ⟨t.val % 8 * 2048 + k.val, slab_lt ⟨t.val % 8, hq⟩ k⟩)
    · exact iblk0_3_apply V c t j k h ⟨t.val % 8 * 2048 + k.val, slab_lt ⟨t.val % 8, hq⟩ k⟩ hh rfl

/-- After the point at position `m` the accumulator holds, at `(n, j)`, the contributions of slabs `0 … m % 8` to entry
    `(n, h)`: it restarts from zero at an inner coordinate 0 and gains one slab per point. -/
theorem acc_inv (c : Dev nD) : ∀ (m : ℕ) (hm : m < cfg0.N) (n : Fin 200) (j : Fin 512) (h : Fin 4096),
    h.val = m / 8 * 512 + j.val →
    accAt0 V c m hm (ix2 n j) = ∑ q ∈ Finset.range (m % 8 + 1), slabN (aggM V c) (xM V c) (wlM V c) (wrM V c) n h q := by
  intro m
  induction m with
  | zero =>
    intro hm n j h hh
    refine (congrFun (accAt0_reset V c ⟨0, hm⟩ rfl) (ix2 n j)).trans ?_
    refine (point_step V c ⟨0, hm⟩ (k0_pay1 (F := Ideal)) n j h hh).trans ?_
    rw [pay1_apply, zero_add]
    show slabN _ _ _ _ n h 0 = ∑ q ∈ Finset.range 1, _
    rw [Finset.sum_range_one]
  | succ m ih =>
    intro hm n j h hh
    by_cases hmod : (m + 1) % 8 = 0
    · refine (congrFun (accAt0_reset V c ⟨m + 1, hm⟩ hmod) (ix2 n j)).trans ?_
      refine (point_step V c ⟨m + 1, hm⟩ (k0_pay1 (F := Ideal)) n j h hh).trans ?_
      rw [pay1_apply, zero_add]
      show slabN _ _ _ _ n h ((m + 1) % 8) = ∑ q ∈ Finset.range ((m + 1) % 8 + 1), _
      rw [hmod, Finset.sum_range_one]
    · have hm' : m < cfg0.N := Nat.lt_of_succ_lt hm
      have hh' : h.val = m / 8 * 512 + j.val := by omega
      have e8 : (m + 1) % 8 = m % 8 + 1 := by omega
      refine (congrFun (accAt0_step V c ⟨m + 1, hm⟩ hmod) (ix2 n j)).trans ?_
      refine (point_step V c ⟨m + 1, hm⟩ _ n j h hh).trans ?_
      show accAt0 V c m _ (ix2 n j) + slabN _ _ _ _ n h ((m + 1) % 8) = ∑ q ∈ Finset.range ((m + 1) % 8 + 1), _
      rw [e8, Finset.sum_range_succ]
      exact congrArg (· + _) (ih hm' n j h hh')

/-- The tile a last inner point writes out, at `(n, j)`: the layer's linear part at `(n, h)`, clamped below at zero. The
    eight slabs' contributions added in order from zero, plus the bias, are the linear part. -/
theorem out_apply (c : Dev nD) (t : Fin cfg0.N) (ht : t.val % 8 = 7) (n : Fin 200) (j : Fin 512) (h : Fin 4096)
    (hh : h.val = t.val / 8 * 512 + j.val) :
    outStep0 (accAt0 V c t.val t.isLt) (iblk0 V c 4 t) (ix2 n j)
      = max (Cert.Sage.lin (aggM V c) (xM V c) (wlM V c) (wrM V c) (bM V c) n h) 0 := by
  refine (outStep0_apply (accAt0 V c t.val t.isLt) (iblk0 V c 4 t) n j).trans ?_
  refine congrArg (max · 0) ?_
  refine (congrArg₂ (· + ·) (acc_inv V c t.val t.isLt n j h hh) (iblk0_4_apply V c t j h hh)).trans ?_
  rw [ht]
  show ∑ q ∈ Finset.range 8, slabN (aggM V c) (xM V c) (wlM V c) (wrM V c) n h q + bM V c h = _
  rw [Finset.sum_range]
  have e : ∀ q : Fin 8, slabN (aggM V c) (xM V c) (wlM V c) (wrM V c) n h q.val = slabTerm (aggM V c) (xM V c) (wlM V c) (wrM V c) n h q :=
    fun q => by unfold slabN; rw [dif_pos q.isLt]
  rw [Finset.sum_congr rfl fun q _ => e q, ← Cert.Sage.foldl_finRange_add 8 (slabTerm (aggM V c) (xM V c) (wlM V c) (wrM V c) n h)]
  exact Cert.Sage.lin_blocked 8 2048 rfl (aggM V c) (xM V c) (wlM V c) (wrM V c) (bM V c) n h

/-! ## From the tiles to the array -/

/-- The array the region leaves: the layer's linear part clamped below at zero, entry by entry. -/
def G0 (c : Dev nD) : S200x4096.Idx → EReal := fun i =>
  max (Cert.Sage.lin (aggM V c) (xM V c) (wlM V c) (wrM V c) (bM V c) ⟨(i 0).val, idx2_lt0 i⟩ ⟨(i 1).val, idx2_lt1 i⟩) 0

/-- What a last inner point writes back is its tile of that array. -/
theorem flushed0_eq (c : Dev nD) (t : Fin cfg0.N) (hf : (cfg0.win 5).flush t = true) :
    (dat0 (F := Ideal) V c).flushed 5 t = ((cfg0.win 5).blk t).view.read (Elt Ideal) (G0 V c) := by
  have ht : t.val % 8 = 7 := (flush0_5 t).mp hf
  have ht64 : t.val < 64 := lt_of_lt_of_eq t.isLt N_0
  obtain ⟨-, -, -, -, -, -, -, -, -, -, e0, e1, -, -⟩ := idx_facts0 t
  show (cfg0.win 5).cut (grid0.coords t) ((dat0 (F := Ideal) V c).after 5 t) = _
  rw [after0_5]
  funext y
  obtain ⟨n, j, rfl⟩ : ∃ (n : Fin 200) (j : Fin 512), y = ix2 n j := ⟨y 0, y 1, eq_ix2 y⟩
  rw [View.read_apply]
  have hlt : t.val / 8 * 512 + j.val < 4096 := by have := j.isLt; omega
  have hemb : ((cfg0.win 5).blk t).view.emb (ix2 n j) = (ix2 n ⟨t.val / 8 * 512 + j.val, hlt⟩ : S200x4096.Idx) :=
    funext fun a => Fin.ext (by
      match a with
      | ⟨0, _⟩ => show win0_5.index t (0 : Fin 2) * 200 + 1 * n.val = n.val; rw [e0]; omega
      | ⟨1, _⟩ => show win0_5.index t (1 : Fin 2) * 512 + 1 * j.val = t.val / 8 * 512 + j.val; rw [e1]; omega)
  show outStep0 (accAt0 V c t.val t.isLt) (iblk0 V c 4 t) (ix2 n j) = G0 V c (((cfg0.win 5).blk t).view.emb (ix2 n j))
  rw [hemb]
  exact out_apply V c t ht n j ⟨t.val / 8 * 512 + j.val, hlt⟩ rfl

/-- Every entry of the array is in the tile of a last inner point: column `h` in that of point `8 · (h / 512) + 7`. -/
theorem cover0 (i : S200x4096.Idx) :
    ∃ t : Fin cfg0.N, (cfg0.win 5).flush t = true ∧ i ∈ ((cfg0.win 5).blk t).view.set := by
  have h0 : (i 0).val < 200 := idx2_lt0 i
  have h1 : (i 1).val < 4096 := idx2_lt1 i
  have hN : 8 * ((i 1).val / 512) + 7 < cfg0.N := lt_of_lt_of_eq (by omega : 8 * ((i 1).val / 512) + 7 < 64) N_0.symm
  obtain ⟨-, -, -, -, -, -, -, -, -, -, e0, e1, -, -⟩ := idx_facts0 ⟨8 * ((i 1).val / 512) + 7, hN⟩
  refine ⟨⟨8 * ((i 1).val / 512) + 7, hN⟩, (flush0_5 _).mpr (by show (8 * ((i 1).val / 512) + 7) % 8 = 7; omega), ?_⟩
  show i ∈ ((View.whole main_v37).slice (win0_5.rect ⟨8 * ((i 1).val / 512) + 7, hN⟩)).set
  rw [View.set_slice_whole, Rect.mem_set_unit]
  intro a
  match a with
  | ⟨0, _⟩ =>
    show win0_5.index ⟨8 * ((i 1).val / 512) + 7, hN⟩ (0 : Fin 2) * 200 ≤ (i 0).val
      ∧ (i 0).val < win0_5.index ⟨8 * ((i 1).val / 512) + 7, hN⟩ (0 : Fin 2) * 200 + 200
    rw [e0]; omega
  | ⟨1, _⟩ =>
    show win0_5.index ⟨8 * ((i 1).val / 512) + 7, hN⟩ (1 : Fin 2) * 512 ≤ (i 1).val
      ∧ (i 1).val < win0_5.index ⟨8 * ((i 1).val / 512) + 7, hN⟩ (1 : Fin 2) * 512 + 512
    rw [e1]
    show (8 * ((i 1).val / 512) + 7) / 8 * 512 ≤ (i 1).val ∧ (i 1).val < (8 * ((i 1).val / 512) + 7) / 8 * 512 + 512
    omega

/-- The output array after the region. -/
theorem final0 (c : Dev nD) : (dat0 (F := Ideal) V c).arrAt 5 cfg0.N = G0 V c :=
  (dat0 (F := Ideal) V c).arrAt_eq_of_cover 5 (G0 V c) (fun t ht => flushed0_eq V c t ht) (cover0)

theorem arr0_apply (c : Dev nD) (n : Fin 200) (h : Fin 4096) :
    ((dat0 (F := Ideal) V c).arrAt 5 cfg0.N : S200x4096.Idx → EReal) (ix2 n h)
      = max (Cert.Sage.lin
          (fun n f => (V c main_v35 : S200x16384.Idx → EReal) (ix2 n f))
          (fun n f => (V c main_v34 : S200x16384.Idx → EReal) (ix2 n f))
          (fun h f => (V c main_arg3 : S4096x16384.Idx → EReal) (ix2 h f))
          (fun h f => (V c main_arg4 : S4096x16384.Idx → EReal) (ix2 h f))
          (fun h => (V c main_v36 : S1x4096.Idx → EReal) (ix2 0 h)) n h) 0 :=
  congrFun (final0 V c) (ix2 n h)

end Cert.KernelIdeal.Hand

end
-- ==== Proof.Val1.lean ====
import proofs.«400777_j26645977104607_3_alg».proof.Proof.R1Dat
import proofs.«400777_j26645977104607_3_alg».proof.Proof.Sage
import proofs.«400777_j26645977104607_3_alg».proof.Proof.LibMatProd
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! # Region 1 at an index, on the extended reals

After the second layer's region its output array holds, at node `n` and class `k`,
`∑ f, agg n f · Wl k f + ∑ f, x n f · Wr k f + b k`: each tile is written at its one point from an accumulator
that received the whole product from zero. -/

variable (V : (c : Dev nD) → (b : Ref sig .tc) → Buf (Elt Ideal) ((c : Thread nD τ).loc b))

namespace Val1

/-! ## The tile product at an index

The kernel's product contracts BOTH operands on their second axis: entry `(n, h)` of `l · rᵀ` is
`∑ f, l (n, f) · r (h, f)`. -/

/-- The left operand's index at result index `i` and contraction index `q`: row `i 0` … -/
theorem lhs_tile_0 (i : S200x128.Idx) (q : dot_S200x4096_S128x4096_S200x128_1_1_0_0_n_n.contr.Idx) :
    (dot_S200x4096_S128x4096_S200x128_1_1_0_0_n_n.lhsIdx i q 0).val = (i 0).val := by
  unfold DotDims.lhsIdx
  rw [dif_neg (show ¬(0 : Fin S200x4096.rank) ∈ dot_S200x4096_S128x4096_S200x128_1_1_0_0_n_n.lhsBatch by decide), dif_pos (show (0 : Fin S200x4096.rank) ∈ dot_S200x4096_S128x4096_S200x128_1_1_0_0_n_n.lhsNonContracting by decide)]
  rfl
/-- … column `q`'s one coordinate. -/
theorem lhs_tile_1 (i : S200x128.Idx) (q : dot_S200x4096_S128x4096_S200x128_1_1_0_0_n_n.contr.Idx) :
    (dot_S200x4096_S128x4096_S200x128_1_1_0_0_n_n.lhsIdx i q 1).val = (q ⟨0, by decide⟩).val :=
  dot_S200x4096_S128x4096_S200x128_1_1_0_0_n_n.lhsIdx_val_of_single rfl i q
/-- The right operand's index: row `i 1` (the result's column) … -/
theorem rhs_tile_0 (i : S200x128.Idx) (q : dot_S200x4096_S128x4096_S200x128_1_1_0_0_n_n.contr.Idx) :
    (dot_S200x4096_S128x4096_S200x128_1_1_0_0_n_n.rhsIdx i q 0).val = (i 1).val := by
  unfold DotDims.rhsIdx
  rw [dif_neg (show ¬(0 : Fin S128x4096.rank) ∈ dot_S200x4096_S128x4096_S200x128_1_1_0_0_n_n.rhsBatch by decide), dif_pos (show (0 : Fin S128x4096.rank) ∈ dot_S200x4096_S128x4096_S200x128_1_1_0_0_n_n.rhsNonContracting by decide)]
  rfl
/-- … column `q`'s one coordinate. -/
theorem rhs_tile_1 (i : S200x128.Idx) (q : dot_S200x4096_S128x4096_S200x128_1_1_0_0_n_n.contr.Idx) :
    (dot_S200x4096_S128x4096_S200x128_1_1_0_0_n_n.rhsIdx i q 1).val = (q ⟨0, by decide⟩).val :=
  dot_S200x4096_S128x4096_S200x128_1_1_0_0_n_n.rhsIdx_val_of_single rfl i q

/-- The tile product into a zero accumulator, at entry `(n, h)`. -/
theorem matmul_tile_apply {φ₁ φ₂ : FTy} (l : FVec Ideal S200x4096 φ₁) (r : FVec Ideal S128x4096 φ₂) (n : Fin 200) (h : Fin 128) :
    matmul dot_S200x4096_S128x4096_S200x128_1_1_0_0_n_n none l r (constant S200x128 .f32 0x00000000#32) (ix2 n h)
      = ∑ f : Fin 4096, l (ix2 n f) * r (ix2 h f) := by
  refine (Ideal.matmul_constant_zero_apply _ none l r (ix2 n h)).trans ?_
  rw [← Equiv.sum_comp (contrEquiv1 dot_S200x4096_S128x4096_S200x128_1_1_0_0_n_n 4096 rfl rfl).symm]
  refine Finset.sum_congr rfl fun k _ => ?_
  have hk := contrEquiv1_symm_val dot_S200x4096_S128x4096_S200x128_1_1_0_0_n_n 4096 rfl rfl k
  have el : dot_S200x4096_S128x4096_S200x128_1_1_0_0_n_n.lhsIdx (ix2 n h) ((contrEquiv1 dot_S200x4096_S128x4096_S200x128_1_1_0_0_n_n 4096 rfl rfl).symm k) = ix2 n k :=
    funext fun a => Fin.ext (by
      match a with
      | ⟨0, _⟩ => exact lhs_tile_0 _ _
      | ⟨1, _⟩ => exact (lhs_tile_1 _ _).trans hk)
  have er : dot_S200x4096_S128x4096_S200x128_1_1_0_0_n_n.rhsIdx (ix2 n h) ((contrEquiv1 dot_S200x4096_S128x4096_S200x128_1_1_0_0_n_n 4096 rfl rfl).symm k) = ix2 h k :=
    funext fun a => Fin.ext (by
      match a with
      | ⟨0, _⟩ => exact rhs_tile_0 _ _
      | ⟨1, _⟩ => exact (rhs_tile_1 _ _).trans hk)
  rw [el, er]

/-! ## One grid point at an index -/

theorem zero_off2 : (![0, 0] : Fin 2 → Nat) = fun _ => 0 :=
  funext fun a => match a with
    | ⟨0, _⟩ => rfl
    | ⟨1, _⟩ => rfl

/-- The one slab of input features starts at feature 0, at every point (the inner extent of the grid is 1). -/
theorem slab_off_zero (t : Fin cfg1.N) : k1_off1 (grid1.coords t) = fun _ => 0 :=
  funext fun a => (by decide +kernel : ∀ t : Fin grid1.N, ∀ a : Fin 2, k1_off1 (grid1.coords t) a = 0) t a

/-- The accumulator is reset to the zero tile. -/
theorem pay1_apply (i : S200x128.Idx) : (k1_pay1 (F := Ideal) : S200x128.Idx → EReal) i = 0 := by
  unfold k1_pay1
  simp only [shapeCast_self]
  exact Ideal.ofBits_zero_f32

/-- The update: the accumulator plus the two tile products. -/
theorem pay2_apply (x0 x1 : Vec Ideal S200x4096 .bf16) (x2 x3 : Vec Ideal S128x4096 .f32) (a : Vec Ideal S200x128 .f32)
    (n : Fin 200) (h : Fin 128) :
    (k1_pay2 x0 x1 x2 x3 a : S200x128.Idx → EReal) (ix2 n h)
      = (a : S200x128.Idx → EReal) (ix2 n h)
        + (∑ f : Fin 4096, (x0 : S200x4096.Idx → EReal) (ix2 n f) * (x2 : S128x4096.Idx → EReal) (ix2 h f)
          + ∑ f : Fin 4096, (x1 : S200x4096.Idx → EReal) (ix2 n f) * (x3 : S128x4096.Idx → EReal) (ix2 h f)) := by
  unfold k1_pay2
  simp only [shapeCast_self]
  refine congrArg₂ (· + ·) rfl (congrArg₂ (· + ·) ?_ ?_)
  · exact matmul_tile_apply x0 (truncf .bf16 x2 bitsLt_bf16_f32) n h
  · exact matmul_tile_apply x1 (truncf .bf16 x3 bitsLt_bf16_f32) n h

/-- The tile written out: the accumulator plus the bias row, the same for every node. -/
theorem pay3_apply (a : Vec Ideal S200x128 .f32) (b : Vec Ideal S1x128 .f32) (n : Fin 200) (h : Fin 128) :
    (k1_pay3 a b : S200x128.Idx → EReal) (ix2 n h)
      = (a : S200x128.Idx → EReal) (ix2 n h) + (b : S1x128.Idx → EReal) (ix2 0 h) := by
  unfold k1_pay3
  simp only [shapeCast_self]
  refine congrArg₂ (· + ·) rfl ?_
  refine broadcastTo_apply b broadcasts_S1x128_S200x128 (ix2 n h) (ix2 0 h) (fun ax => ?_)
  match ax with
  | ⟨0, _⟩ => rfl
  | ⟨1, _⟩ => rfl

/-- The accumulator after a point started from the zero tile: the two whole products. -/
theorem accStep1_apply (t : Fin cfg1.N) (x0 x1 : Vec Ideal S200x4096 .bf16) (x2 x3 : Vec Ideal S128x4096 .f32)
    (n : Fin 200) (h : Fin 128) :
    (accStep1 (grid1.coords t) x0 x1 x2 x3 (k1_pay1 (F := Ideal)) : S200x128.Idx → EReal) (ix2 n h)
      = ∑ f : Fin 4096, (x0 : S200x4096.Idx → EReal) (ix2 n f) * (x2 : S128x4096.Idx → EReal) (ix2 h f)
        + ∑ f : Fin 4096, (x1 : S200x4096.Idx → EReal) (ix2 n f) * (x3 : S128x4096.Idx → EReal) (ix2 h f) := by
  unfold accStep1
  rw [View.ld_unit_zero (slab_off_zero t), View.ld_unit_zero (slab_off_zero t), View.ld_unit_zero zero_off2,
    View.ld_unit_zero zero_off2]
  refine (pay2_apply x0 x1 x2 x3 _ n h).trans ?_
  rw [pay1_apply, zero_add]

/-- The tile written out from an accumulator `a` and a bias block `b`. -/
theorem outStep1_apply (a : Vec Ideal S200x128 .f32) (b : Vec Ideal S1x128 .f32) (n : Fin 200) (h : Fin 128) :
    (outStep1 a b : S200x128.Idx → EReal) (ix2 n h)
      = (a : S200x128.Idx → EReal) (ix2 n h) + (b : S1x128.Idx → EReal) (ix2 0 h) := by
  unfold outStep1
  rw [View.ld_unit_zero zero_off2]
  exact pay3_apply a b n h

/-! ## The blocks as parts of the arrays

The two node-feature operands are resident: their one block is the whole array. A weight tile at point `t` is rows
`128 t … 128 t + 127` of its matrix; the bias block and the output tile are columns `128 t … 128 t + 127`. -/

/-- The block indices of the six windows at every point of the grid. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = t.val
    ∧ win1_5.index t (0 : Fin 2) = 0 ∧ win1_5.index t (1 : Fin 2) = t.val :=
  (by decide +kernel : ∀ t : Fin grid1.N, _)

/-- The aggregated features' block is the whole array. -/
theorem blk0_apply (c : Dev nD) (t : Fin cfg1.N) (n : Fin 200) (f : Fin 4096) :
    (iblk1 (F := Ideal) V c 0 t : S200x4096.Idx → EReal) (ix2 n f) = (V c main_v40 : S200x4096.Idx → EReal) (ix2 n f) := by
  obtain ⟨e0, e1, -⟩ := idx_facts1 t
  unfold iblk1
  rw [View.read_apply]
  show (V c main_v40 : S200x4096.Idx → EReal) _ = _
  refine congrArg (V c main_v40 : S200x4096.Idx → EReal) (funext fun a => Fin.ext ?_)
  match a with
  | ⟨0, _⟩ => show win1_0.index t (0 : Fin 2) * 200 + 1 * n.val = n.val; rw [e0]; omega
  | ⟨1, _⟩ => show win1_0.index t (1 : Fin 2) * 4096 + 1 * f.val = f.val; rw [e1]; omega

/-- The node features' block is the whole array. -/
theorem blk1_apply (c : Dev nD) (t : Fin cfg1.N) (n : Fin 200) (f : Fin 4096) :
    (iblk1 (F := Ideal) V c 1 t : S200x4096.Idx → EReal) (ix2 n f) = (V c main_v39 : S200x4096.Idx → EReal) (ix2 n f) := by
  obtain ⟨-, -, e0, e1, -⟩ := idx_facts1 t
  unfold iblk1
  rw [View.read_apply]
  show (V c main_v39 : S200x4096.Idx → EReal) _ = _
  refine congrArg (V c main_v39 : S200x4096.Idx → EReal) (funext fun a => Fin.ext ?_)
  match a with
  | ⟨0, _⟩ => show win1_1.index t (0 : Fin 2) * 200 + 1 * n.val = n.val; rw [e0]; omega
  | ⟨1, _⟩ => show win1_1.index t (1 : Fin 2) * 4096 + 1 * f.val = f.val; rw [e1]; omega

/-- Row `h` of the first weight tile at point `t` is row `128 t + h` of the matrix. -/
theorem blk2_apply (c : Dev nD) (t : Fin cfg1.N) (h : Fin 128) (f : Fin 4096) (k : Fin 512) (hk : k.val = t.val * 128 + h.val) :
    (iblk1 (F := Ideal) V c 2 t : S128x4096.Idx → EReal) (ix2 h f) = (V c main_arg6 : S512x4096.Idx → EReal) (ix2 k f) := by
  obtain ⟨-, -, -, -, e0, e1, -⟩ := idx_facts1 t
  unfold iblk1
  rw [View.read_apply]
  show (V c main_arg6 : S512x4096.Idx → EReal) _ = _
  refine congrArg (V c main_arg6 : S512x4096.Idx → EReal) (funext fun a => Fin.ext ?_)
  match a with
  | ⟨0, _⟩ => show win1_2.index t (0 : Fin 2) * 128 + 1 * h.val = k.val; rw [e0, hk]; omega
  | ⟨1, _⟩ => show win1_2.index t (1 : Fin 2) * 4096 + 1 * f.val = f.val; rw [e1]; omega

/-- Row `h` of the second weight tile at point `t` is row `128 t + h` of the matrix. -/
theorem blk3_apply (c : Dev nD) (t : Fin cfg1.N) (h : Fin 128) (f : Fin 4096) (k : Fin 512) (hk : k.val = t.val * 128 + h.val) :
    (iblk1 (F := Ideal) V c 3 t : S128x4096.Idx → EReal) (ix2 h f) = (V c main_arg7 : S512x4096.Idx → EReal) (ix2 k f) := by
  obtain ⟨-, -, -, -, -, -, e0, e1, -⟩ := idx_facts1 t
  unfold iblk1
  rw [View.read_apply]
  show (V c main_arg7 : S512x4096.Idx → EReal) _ = _
  refine congrArg (V c main_arg7 : S512x4096.Idx → EReal) (funext fun a => Fin.ext ?_)
  match a with
  | ⟨0, _⟩ => show win1_3.index t (0 : Fin 2) * 128 + 1 * h.val = k.val; rw [e0, hk]; omega
  | ⟨1, _⟩ => show win1_3.index t (1 : Fin 2) * 4096 + 1 * f.val = f.val; rw [e1]; omega

/-- Entry `h` of the bias block at point `t` is entry `128 t + h` of the bias row. -/
theorem blk4_apply (c : Dev nD) (t : Fin cfg1.N) (h : Fin 128) (k : Fin 512) (hk : k.val = t.val * 128 + h.val) :
    (iblk1 (F := Ideal) V c 4 t : S1x128.Idx → EReal) (ix2 0 h) = (V c main_v41 : S1x512.Idx → EReal) (ix2 0 k) := by
  obtain ⟨-, -, -, -, -, -, -, -, e0, e1, -⟩ := idx_facts1 t
  unfold iblk1
  rw [View.read_apply]
  show (V c main_v41 : S1x512.Idx → EReal) _ = _
  refine congrArg (V c main_v41 : S1x512.Idx → EReal) (funext fun a => Fin.ext ?_)
  match a with
  | ⟨0, _⟩ => show win1_4.index t (0 : Fin 2) * 1 + 1 * 0 = 0; rw [e0]
  | ⟨1, _⟩ => show win1_4.index t (1 : Fin 2) * 128 + 1 * h.val = k.val; rw [e1, hk]; omega

/-! ## The output array -/

/-- The layer's linear part as a function of the output array's index. -/
def G1 (c : Dev nD) : S200x512.Idx → EReal := fun j =>
  Cert.Sage.lin
    (fun n f => (V c main_v40 : S200x4096.Idx → EReal) (ix2 n f))
    (fun n f => (V c main_v39 : S200x4096.Idx → EReal) (ix2 n f))
    (fun k f => (V c main_arg6 : S512x4096.Idx → EReal) (ix2 k f))
    (fun k f => (V c main_arg7 : S512x4096.Idx → EReal) (ix2 k f))
    (fun k => (V c main_v41 : S1x512.Idx → EReal) (ix2 0 k)) (j 0) (j 1)

/-- The tile written at point `t`, at node `n` and column `h`: the linear part at class `128 t + h`. -/
theorem tile_apply (c : Dev nD) (t : Fin cfg1.N) (n : Fin 200) (h : Fin 128) (k : Fin 512) (hk : k.val = t.val * 128 + h.val) :
    (outStep1 (accAt1 (F := Ideal) V c t) (iblk1 (F := Ideal) V c 4 t) : S200x128.Idx → EReal) (ix2 n h)
      = G1 V c (ix2 n k) := by
  refine (outStep1_apply (accAt1 (F := Ideal) V c t) (iblk1 (F := Ideal) V c 4 t) n h).trans ?_
  unfold accAt1
  refine (congrArg₂ (· + ·)
    (accStep1_apply t (iblk1 (F := Ideal) V c 0 t) (iblk1 (F := Ideal) V c 1 t) (iblk1 (F := Ideal) V c 2 t)
      (iblk1 (F := Ideal) V c 3 t) n h)
    (blk4_apply V c t h k hk)).trans ?_
  show _ = Cert.Sage.lin _ _ _ _ _ n k
  unfold Cert.Sage.lin
  refine congrArg₂ (· + ·) (congrArg₂ (· + ·) (Finset.sum_congr rfl fun f _ => ?_) (Finset.sum_congr rfl fun f _ => ?_)) rfl
  · exact congrArg₂ (· * ·) (blk0_apply V c t n f) (blk2_apply V c t h f k hk)
  · exact congrArg₂ (· * ·) (blk1_apply V c t n f) (blk3_apply V c t h f k hk)

/-- What point `t` writes back is block `t` of `G1`. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  obtain ⟨-, -, -, -, -, -, -, -, -, -, e0, e1⟩ := idx_facts1 t
  funext j
  obtain ⟨n, h, rfl⟩ : ∃ (n : Fin 200) (h : Fin 128), j = ix2 n h := ⟨j 0, j 1, eq_ix2 (n0 := 200) (n1 := 128) j⟩
  have ht : t.val < 4 := t.isLt
  refine (tile_apply V c t n h ⟨t.val * 128 + h.val, by have := h.isLt; omega⟩ rfl).trans ?_
  rw [View.read_apply]
  show G1 V c _ = G1 V c _
  refine congrArg (G1 V c) (funext fun a => Fin.ext ?_)
  match a with
  | ⟨0, _⟩ => show n.val = win1_5.index t (0 : Fin 2) * 200 + 1 * n.val; rw [e0]; omega
  | ⟨1, _⟩ => show t.val * 128 + h.val = win1_5.index t (1 : Fin 2) * 128 + 1 * h.val; rw [e1]; omega

/-- An index of the output array is in point `t`'s tile iff each coordinate is in the tile's range. -/
theorem mem_blk5 (t : Fin cfg1.N) (i : S200x512.Idx) :
    i ∈ ((cfg1.win 5).blk t).view.set ↔ ∀ a : Fin 2, win1_5.index t a * S200x128.size a ≤ (i a).val
      ∧ (i a).val < win1_5.index t a * S200x128.size a + S200x128.size a := by
  show i ∈ ((View.whole main_v42).slice (win1_5.rect t)).set ↔ _
  rw [View.set_slice_whole, Rect.mem_set_unit]
  exact Iff.rfl

/-- The four tiles cover the output array: column `k` is in the tile of point `k / 128`. -/
theorem cover1 (i : S200x512.Idx) :
    ∃ t : Fin cfg1.N, (cfg1.win 5).flush t = true ∧ i ∈ ((cfg1.win 5).blk t).view.set := by
  have hi0 : (i 0).val < 200 := (i 0).isLt
  have hi1 : (i 1).val < 512 := (i 1).isLt
  have ht : (i 1).val / 128 < 4 := by omega
  refine ⟨⟨(i 1).val / 128, ht⟩, flush1_5 _, ?_⟩
  rw [mem_blk5]
  obtain ⟨-, -, -, -, -, -, -, -, -, -, e0, e1⟩ := idx_facts1 ⟨(i 1).val / 128, ht⟩
  intro a
  match a with
  | ⟨0, _⟩ =>
    show win1_5.index ⟨(i 1).val / 128, ht⟩ (0 : Fin 2) * 200 ≤ (i 0).val
      ∧ (i 0).val < win1_5.index ⟨(i 1).val / 128, ht⟩ (0 : Fin 2) * 200 + 200
    rw [e0]; omega
  | ⟨1, _⟩ =>
    show win1_5.index ⟨(i 1).val / 128, ht⟩ (1 : Fin 2) * 128 ≤ (i 1).val
      ∧ (i 1).val < win1_5.index ⟨(i 1).val / 128, ht⟩ (1 : Fin 2) * 128 + 128
    rw [e1]
    show (i 1).val / 128 * 128 ≤ (i 1).val ∧ (i 1).val < (i 1).val / 128 * 128 + 128
    omega

/-- After the region the output array is the layer's linear part. -/
theorem arr1_eq (c : Dev nD) : (dat1 (F := Ideal) V c).arrAt 5 cfg1.N = G1 V c :=
  (dat1 (F := Ideal) V c).arrAt_eq_of_cover 5 (G1 V c) (fun t _ => flushed1_eq V c t) cover1

end Val1

theorem arr1_apply (c : Dev nD) (n : Fin 200) (k : Fin 512) :
    ((dat1 (F := Ideal) V c).arrAt 5 cfg1.N : S200x512.Idx → EReal) (ix2 n k)
      = Cert.Sage.lin
          (fun n f => (V c main_v40 : S200x4096.Idx → EReal) (ix2 n f))
          (fun n f => (V c main_v39 : S200x4096.Idx → EReal) (ix2 n f))
          (fun k f => (V c main_arg6 : S512x4096.Idx → EReal) (ix2 k f))
          (fun k f => (V c main_arg7 : S512x4096.Idx → EReal) (ix2 k f))
          (fun k => (V c main_v41 : S1x512.Idx → EReal) (ix2 0 k)) n k :=
  congrFun (Val1.arr1_eq V c) (ix2 n k)

end Cert.KernelIdeal.Hand

end
-- ==== Proof.Edges.lean ====
/-
  The edge list as maps into the node set. The graph's edge array is a `2 × 12800` array of 32-bit words: row 0
  holds each edge's source node, row 1 its target node. When every word, read as a signed integer, lies in
  `[0, 200)`, each row is a map `Fin 12800 → Fin 200`, and "the word at (r, e) is node n" is "that map sends e to n".
-/
import Idealize.ShloMosaic.Lib.ValueIdx

noncomputable section

namespace Cert.Edges

open Idealize.ShloMosaic Idealize.ShloMosaic.ValueIdx

/-- The shape of the edge array. -/
abbrev SE : Shape := ⟨2, ![2, 12800]⟩

/-- Every entry of the edge array names a node. -/
def InRange (ei : IVec SE 32) : Prop := ∀ i : SE.Idx, 0 ≤ (ei i).toInt ∧ (ei i).toInt < 200

/-- Row `r` of the edge array as a map from edges to nodes. -/
def node (ei : IVec SE 32) (hr : InRange ei) (r : Fin 2) (e : Fin 12800) : Fin 200 :=
  ⟨(ei (ix2 r e)).toInt.toNat, by have := hr (ix2 r e); omega⟩

theorem node_val (ei : IVec SE 32) (hr : InRange ei) (r : Fin 2) (e : Fin 12800) :
    ((node ei hr r e).val : ℤ) = (ei (ix2 r e)).toInt := by
  have := hr (ix2 r e)
  show (((ei (ix2 r e)).toInt.toNat : ℕ) : ℤ) = _
  omega

/-- The word at `(r, e)` reads as node `n` exactly when row `r` sends `e` to `n`. -/
theorem toInt_eq_iff (ei : IVec SE 32) (hr : InRange ei) (r : Fin 2) (e : Fin 12800) (n : Fin 200) :
    (ei (ix2 r e)).toInt = (n.val : ℤ) ↔ node ei hr r e = n := by
  rw [← node_val ei hr r e]
  constructor
  · intro h; exact Fin.ext (by exact_mod_cast h)
  · intro h; rw [h]

end Cert.Edges

end
-- ==== Proof.LibSegment.lean ====
/-
  General lemmas: the host's segment sum (a float scatter-add whose scatter indices are an [M, 1] column of row
  numbers), read at an index on the extended reals.

  A segment sum into `N` rows adds update `e` to row `i` exactly when the `e`-th start index, read as a signed integer,
  is `i`; an index outside `[0, N)` matches no row, so its update is dropped.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.StableHlo.Predicate

noncomputable section

open scoped BigOperators

namespace Cert.LibSegment

open Idealize.ShloMosaic Idealize.ShloMosaic.ValueIdx Idealize.ShloMosaic.StableHlo.Predicate

/-- The dimension numbers of a segment sum of scalars: operand [N], segment ids as an [M, 1] column, updates [M]. -/
def segDims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The dimension numbers of a segment sum of rows: operand [N, C], segment ids as an [M, 1] column, updates [M, C]. -/
def segDims2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-! ## Scalars: operand [N], updates [M]

The operand's one axis is the start-indexed axis and is inserted (no window axis goes to it), so update `e` lands at
row `start`, the `e`-th entry of the index column read signed. -/

/-- The window's start on the operand's axis for update `e`: entry `e` of the index column, read signed. -/
theorem start1_0 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).start (ix1 e) idx 0 = (idx (ixP e)).toInt := by
  unfold ScatterDims.start
  rw [dif_pos (show (0 : Fin 1) ∈ (segDims1 N M wf).scatterDimsToOperandDims from List.mem_singleton.mpr rfl)]
  congr 2
  funext b
  match b with
  | ⟨0, _⟩ => rfl
  | ⟨1, _⟩ => rfl

/-- The operand's axis is inserted, so the window coordinate on it is zero. -/
theorem window1_0 {N M : Nat} (wf : ScatterDims.WF ⟨1, ![N]⟩ ⟨2, ![M, 1]⟩ ⟨1, ![M]⟩ [] [0] [0] 1)
    (j : (⟨1, ![M]⟩ : Shape).Idx) :
    (segDims1 N M wf).window j 0 = 0 := by
  unfold ScatterDims.window
  have h : (0 : Fin 1) ∉ (segDims1 N M wf).sKept :=
    (by decide : (0 : Fin 1) ∉ (List.finRange 1).filter (· ∉ ([0] : List (Fin 1))))
  rw [dif_neg h]

/-- Where update `e` lands: at the row its start index names when that lies in `[0, N)`, nowhere otherwise. -/
theorem resultIdx1 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).resultIdx? (ix1 e) idx =
      if h : 0 ≤ (idx (ixP e)).toInt ∧ (idx (ixP e)).toInt < (N : ℤ) then
        some (ix1 ⟨(idx (ixP e)).toInt.toNat, by omega⟩) else none := by
  have s0 := start1_0 wf idx e
  have w0 := window1_0 wf (ix1 e)
  unfold ScatterDims.resultIdx?
  by_cases h : 0 ≤ (idx (ixP e)).toInt ∧ (idx (ixP e)).toInt < (N : ℤ)
  · have hall : ∀ a, 0 ≤ (segDims1 N M wf).start (ix1 e) idx a + (segDims1 N M wf).window (ix1 e) a ∧
        (segDims1 N M wf).start (ix1 e) idx a + (segDims1 N M wf).window (ix1 e) a
          < ((⟨1, ![N]⟩ : Shape).size a : ℤ) := by
      refine Fin.forall_fin_one.2 ?_
      show 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ)
      rw [s0, w0]; omega
    rw [dif_pos h, dif_pos hall]
    congr 1
    funext a
    match a with
    | ⟨0, _⟩ =>
      refine Fin.ext ?_
      show ((segDims1 N M wf).start (ix1 e) idx 0 + ((segDims1 N M wf).window (ix1 e) 0 : ℕ)).toNat = _
      rw [s0, w0]; simp
  · rw [dif_neg h, dif_neg]
    intro hall
    apply h
    have h0 : 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ) := hall 0
    rw [s0, w0] at h0
    omega

/-- Update `e` lands on row `i` exactly when its start index, read signed, is `i`. -/
theorem resultIdx1_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (i : Fin N) :
    (segDims1 N M wf).resultIdx? (ix1 e) idx = some (ix1 i) ↔ (idx (ixP e)).toInt = (i.val : ℤ) := by
  rw [resultIdx1]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      omega
    · rw [dif_neg h] at hEq
      exact absurd hEq (by simp)
  · intro ht
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of scalars at row `i`: the operand's entry plus the updates whose segment id is `i`. -/
theorem scatterAdd_seg1_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (i : Fin N) :
    Ideal.hostScatterAdd (segDims1 N M wf) x idx upd (ix1 i)
      = x (ix1 i) + ∑ e : Fin M, if (idx (ixP e)).toInt = (i.val : ℤ) then upd (ix1 e) else 0 := by
  unfold Ideal.hostScatterAdd
  congr 1
  -- the filtered sum as a sum of conditionals, re-indexed by the update's one coordinate
  rw [Finset.sum_filter, ← Equiv.sum_comp (idxEquiv1 (n := M)).symm]
  refine Finset.sum_congr rfl fun e _ => ?_
  show (if (segDims1 N M wf).resultIdx? (ix1 e) idx = some (ix1 i) then upd (ix1 e) else 0) = _
  simp only [resultIdx1_eq_some_iff]

/-! ## Rows: operand [N, C], updates [M, C]

Axis 0 of the operand is the start-indexed, inserted axis; axis 1 is the window axis, fed by the updates' axis 1. So
update `(e, c)` lands at row `start` (the `e`-th entry of the index column read signed), column `c`. -/

/-- The window's start on the row axis for update `(e, c)`: entry `e` of the index column, read signed. -/
theorem start2_0 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).start (ix2 e c) idx 0 = (idx (ixP e)).toInt := by
  unfold ScatterDims.start
  rw [dif_pos (show (0 : Fin 2) ∈ (segDims2 N M C wf).scatterDimsToOperandDims from List.mem_singleton.mpr rfl)]
  congr 2
  funext b
  match b with
  | ⟨0, _⟩ => rfl
  | ⟨1, _⟩ => rfl

/-- The column axis is not start-indexed: its window starts at zero. -/
theorem start2_1 {N M C w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (segDims2 N M C wf).start j idx 1 = 0 := by
  unfold ScatterDims.start
  have h : (1 : Fin 2) ∉ (segDims2 N M C wf).scatterDimsToOperandDims :=
    (by decide : (1 : Fin 2) ∉ ([0] : List (Fin 2)))
  rw [dif_neg h]

/-- The row axis is inserted, so the window coordinate on it is zero. -/
theorem window2_0 {N M C : Nat} (wf : ScatterDims.WF ⟨2, ![N, C]⟩ ⟨2, ![M, 1]⟩ ⟨2, ![M, C]⟩ [1] [0] [0] 1)
    (j : (⟨2, ![M, C]⟩ : Shape).Idx) :
    (segDims2 N M C wf).window j 0 = 0 := by
  unfold ScatterDims.window
  have h : (0 : Fin 2) ∉ (segDims2 N M C wf).sKept :=
    (by decide : (0 : Fin 2) ∉ (List.finRange 2).filter (· ∉ ([0] : List (Fin 2))))
  rw [dif_neg h]

/-- The window coordinate on the column axis is the update's own column. -/
theorem window2_1 {N M C : Nat} (wf : ScatterDims.WF ⟨2, ![N, C]⟩ ⟨2, ![M, 1]⟩ ⟨2, ![M, C]⟩ [1] [0] [0] 1)
    (e : Fin M) (c : Fin C) :
    (segDims2 N M C wf).window (ix2 e c) 1 = c.val := by
  unfold ScatterDims.window
  have h : (1 : Fin 2) ∈ (segDims2 N M C wf).sKept :=
    (by decide : (1 : Fin 2) ∈ (List.finRange 2).filter (· ∉ ([0] : List (Fin 2))))
  rw [dif_pos h]
  rfl

/-- Where update `(e, c)` lands: at the row its start index names, column `c`, when that row lies in `[0, N)`; nowhere
    otherwise. -/
theorem resultIdx2 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).resultIdx? (ix2 e c) idx =
      if h : 0 ≤ (idx (ixP e)).toInt ∧ (idx (ixP e)).toInt < (N : ℤ) then
        some (ix2 ⟨(idx (ixP e)).toInt.toNat, by omega⟩ c) else none := by
  have s0 := start2_0 wf idx e c
  have s1 := start2_1 wf idx (ix2 e c)
  have w0 := window2_0 wf (ix2 e c)
  have w1 := window2_1 wf e c
  unfold ScatterDims.resultIdx?
  by_cases h : 0 ≤ (idx (ixP e)).toInt ∧ (idx (ixP e)).toInt < (N : ℤ)
  · have hall : ∀ a, 0 ≤ (segDims2 N M C wf).start (ix2 e c) idx a + (segDims2 N M C wf).window (ix2 e c) a ∧
        (segDims2 N M C wf).start (ix2 e c) idx a + (segDims2 N M C wf).window (ix2 e c) a
          < ((⟨2, ![N, C]⟩ : Shape).size a : ℤ) := by
      refine Fin.forall_fin_two.2 ⟨?_, ?_⟩
      · show 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ)
        rw [s0, w0]; omega
      · show 0 ≤ (segDims2 N M C wf).start (ix2 e c) idx 1 + ((segDims2 N M C wf).window (ix2 e c) 1 : ℕ) ∧
          (segDims2 N M C wf).start (ix2 e c) idx 1 + ((segDims2 N M C wf).window (ix2 e c) 1 : ℕ) < (C : ℤ)
        rw [s1, w1]; have := c.isLt; omega
    rw [dif_pos h, dif_pos hall]
    congr 1
    funext a
    match a with
    | ⟨0, _⟩ =>
      refine Fin.ext ?_
      show ((segDims2 N M C wf).start (ix2 e c) idx 0 + ((segDims2 N M C wf).window (ix2 e c) 0 : ℕ)).toNat = _
      rw [s0, w0]; simp
    | ⟨1, _⟩ =>
      refine Fin.ext ?_
      show ((segDims2 N M C wf).start (ix2 e c) idx 1 + ((segDims2 N M C wf).window (ix2 e c) 1 : ℕ)).toNat = c.val
      rw [s1, w1]; simp
  · rw [dif_neg h, dif_neg]
    intro hall
    apply h
    have h0 : 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ) := hall 0
    rw [s0, w0] at h0
    omega

/-- Update `(e, c)` lands on `(i, l)` exactly when its start index, read signed, is `i` and its column is `l`. -/
theorem resultIdx2_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (i : Fin N) (l : Fin C) :
    (segDims2 N M C wf).resultIdx? (ix2 e c) idx = some (ix2 i l) ↔
      (idx (ixP e)).toInt = (i.val : ℤ) ∧ c = l := by
  rw [resultIdx2]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      have h1 : c = l := congrFun hf 1
      exact ⟨by omega, h1⟩
    · rw [dif_neg h] at hEq
      exact absurd hEq (by simp)
  · rintro ⟨ht, rfl⟩
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of rows at row `i`, column `l`: the operand's entry plus column `l` of the update rows whose
    segment id is `i`. -/
theorem scatterAdd_seg2_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (l : Fin C) :
    Ideal.hostScatterAdd (segDims2 N M C wf) x idx upd (ix2 i l)
      = x (ix2 i l) + ∑ e : Fin M, if (idx (ixP e)).toInt = (i.val : ℤ) then upd (ix2 e l) else 0 := by
  unfold Ideal.hostScatterAdd
  congr 1
  -- the filtered sum as a sum of conditionals over (row, column) of the updates
  rw [Finset.sum_filter, sum_idx2]
  refine Finset.sum_congr rfl fun e _ => ?_
  simp only [resultIdx2_eq_some_iff]
  -- for a fixed update row, only column `l` can match
  by_cases ht : (idx (ixP e)).toInt = (i.val : ℤ)
  · simp only [ht, true_and, if_true]
    rw [Finset.sum_ite_eq' Finset.univ l (fun c => upd (ix2 e c)), if_pos (Finset.mem_univ l)]
  · simp only [ht, false_and, if_false, Finset.sum_const_zero]

end Cert.LibSegment

end
-- ==== Proof.KAdj.lean ====
import proofs.«400777_j26645977104607_3_alg».proof.Proof.Gen.KernelIdeal.Regions
import proofs.«400777_j26645977104607_3_alg».proof.Proof.Sage
import proofs.«400777_j26645977104607_3_alg».proof.Proof.Edges
import proofs.«400777_j26645977104607_3_alg».proof.Proof.LibSegment
import Idealize.ShloMosaic.Lib.StableHlo.Run
import Idealize.ShloMosaic.Lib.StableHlo.Predicate
import Idealize.ShloMosaic.Lib.ValueIdx
import Idealize.ShloMosaic.Lib.ValueIdxRank1
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! # The dense aggregation operator the program builds before its first kernel

The first host stretch scatters the edge weights into a `200 × 200` array of zeros at (target, source), counts the
edges into each node by scattering ones, and divides each row by `max count 1`. -/

/-! ## A scatter-add of scalars into a matrix at (row, column) pairs

The operand is an `N × N'` array, the scatter indices an `M × 2` array whose row `e` is the pair (row, column) that
update `e` goes to, the updates a vector of `M` scalars. Both operand axes are start-indexed and inserted (no window
axis), so update `e` lands at the entry its pair names, read signed, when that lies inside the operand, and is dropped
otherwise. -/

/-- The dimension numbers of a scatter of scalars into a matrix: operand [N, N'], index pairs [M, 2], updates [M]. -/
def pairDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

/-- The window's start on the row axis for update `e`: the first entry of its pair, read signed. -/
theorem startP_0 {N N' M w : Nat} (wf : ScatterDims.WF ⟨2, ![N, N']⟩ ⟨2, ![M, 2]⟩ ⟨1, ![M]⟩ [] [0, 1] [0, 1] 1)
    (idx : IVec ⟨2, ![M, 2]⟩ w) (e : Fin M) :
    (pairDims N N' M wf).start (ix1 e) idx 0 = (idx (ix2 e (0 : Fin 2))).toInt := by
  unfold ScatterDims.start
  rw [dif_pos (show (0 : Fin 2) ∈ (pairDims N N' M wf).scatterDimsToOperandDims from
    (by decide : (0 : Fin 2) ∈ ([0, 1] : List (Fin 2))))]
  congr 2
  funext b
  match b with
  | ⟨0, _⟩ => rfl
  | ⟨1, _⟩ => rfl

/-- The window's start on the column axis for update `e`: the second entry of its pair, read signed. -/
theorem startP_1 {N N' M w : Nat} (wf : ScatterDims.WF ⟨2, ![N, N']⟩ ⟨2, ![M, 2]⟩ ⟨1, ![M]⟩ [] [0, 1] [0, 1] 1)
    (idx : IVec ⟨2, ![M, 2]⟩ w) (e : Fin M) :
    (pairDims N N' M wf).start (ix1 e) idx 1 = (idx (ix2 e (1 : Fin 2))).toInt := by
  unfold ScatterDims.start
  rw [dif_pos (show (1 : Fin 2) ∈ (pairDims N N' M wf).scatterDimsToOperandDims from
    (by decide : (1 : Fin 2) ∈ ([0, 1] : List (Fin 2))))]
  congr 2
  funext b
  match b with
  | ⟨0, _⟩ => rfl
  | ⟨1, _⟩ => rfl

/-- Both operand axes are inserted, so the window coordinate is zero on each. -/
theorem windowP {N N' M : Nat} (wf : ScatterDims.WF ⟨2, ![N, N']⟩ ⟨2, ![M, 2]⟩ ⟨1, ![M]⟩ [] [0, 1] [0, 1] 1)
    (j : (⟨1, ![M]⟩ : Shape).Idx) (a : Fin 2) :
    (pairDims N N' M wf).window j a = 0 := by
  unfold ScatterDims.window
  have h : a ∉ (pairDims N N' M wf).sKept := by
    show a ∉ (List.finRange 2).filter (· ∉ ([0, 1] : List (Fin 2)))
    revert a; decide
  rw [dif_neg h]

/-- Where update `e` lands: at the entry its pair names when that lies inside the operand, nowhere otherwise. -/
theorem resultIdxP {N N' M w : Nat} (wf : ScatterDims.WF ⟨2, ![N, N']⟩ ⟨2, ![M, 2]⟩ ⟨1, ![M]⟩ [] [0, 1] [0, 1] 1)
    (idx : IVec ⟨2, ![M, 2]⟩ w) (e : Fin M) :
    (pairDims N N' M wf).resultIdx? (ix1 e) idx =
      if h : (0 ≤ (idx (ix2 e (0 : Fin 2))).toInt ∧ (idx (ix2 e (0 : Fin 2))).toInt < (N : ℤ)) ∧
          (0 ≤ (idx (ix2 e (1 : Fin 2))).toInt ∧ (idx (ix2 e (1 : Fin 2))).toInt < (N' : ℤ)) then
        some (ix2 ⟨(idx (ix2 e (0 : Fin 2))).toInt.toNat, by omega⟩ ⟨(idx (ix2 e (1 : Fin 2))).toInt.toNat, by omega⟩)
      else none := by
  have s0 := startP_0 wf idx e
  have s1 := startP_1 wf idx e
  have w0 := windowP wf (ix1 e) 0
  have w1 := windowP wf (ix1 e) 1
  unfold ScatterDims.resultIdx?
  by_cases h : (0 ≤ (idx (ix2 e (0 : Fin 2))).toInt ∧ (idx (ix2 e (0 : Fin 2))).toInt < (N : ℤ)) ∧
      (0 ≤ (idx (ix2 e (1 : Fin 2))).toInt ∧ (idx (ix2 e (1 : Fin 2))).toInt < (N' : ℤ))
  · have hall : ∀ a, 0 ≤ (pairDims N N' M wf).start (ix1 e) idx a + (pairDims N N' M wf).window (ix1 e) a ∧
        (pairDims N N' M wf).start (ix1 e) idx a + (pairDims N N' M wf).window (ix1 e) a
          < ((⟨2, ![N, N']⟩ : Shape).size a : ℤ) := by
      refine Fin.forall_fin_two.2 ⟨?_, ?_⟩
      · show 0 ≤ (pairDims N N' M wf).start (ix1 e) idx 0 + ((pairDims N N' M wf).window (ix1 e) 0 : ℕ) ∧
          (pairDims N N' M wf).start (ix1 e) idx 0 + ((pairDims N N' M wf).window (ix1 e) 0 : ℕ) < (N : ℤ)
        rw [s0, w0]; omega
      · show 0 ≤ (pairDims N N' M wf).start (ix1 e) idx 1 + ((pairDims N N' M wf).window (ix1 e) 1 : ℕ) ∧
          (pairDims N N' M wf).start (ix1 e) idx 1 + ((pairDims N N' M wf).window (ix1 e) 1 : ℕ) < (N' : ℤ)
        rw [s1, w1]; omega
    rw [dif_pos h, dif_pos hall]
    congr 1
    funext a
    match a with
    | ⟨0, _⟩ =>
      refine Fin.ext ?_
      show ((pairDims N N' M wf).start (ix1 e) idx 0 + ((pairDims N N' M wf).window (ix1 e) 0 : ℕ)).toNat = _
      rw [s0, w0]; simp
    | ⟨1, _⟩ =>
      refine Fin.ext ?_
      show ((pairDims N N' M wf).start (ix1 e) idx 1 + ((pairDims N N' M wf).window (ix1 e) 1 : ℕ)).toNat = _
      rw [s1, w1]; simp
  · rw [dif_neg h, dif_neg]
    intro hall
    apply h
    have h0 : 0 ≤ (pairDims N N' M wf).start (ix1 e) idx 0 + ((pairDims N N' M wf).window (ix1 e) 0 : ℕ) ∧
          (pairDims N N' M wf).start (ix1 e) idx 0 + ((pairDims N N' M wf).window (ix1 e) 0 : ℕ) < (N : ℤ) := hall 0
    have h1 : 0 ≤ (pairDims N N' M wf).start (ix1 e) idx 1 + ((pairDims N N' M wf).window (ix1 e) 1 : ℕ) ∧
          (pairDims N N' M wf).start (ix1 e) idx 1 + ((pairDims N N' M wf).window (ix1 e) 1 : ℕ) < (N' : ℤ) := hall 1
    rw [s0, w0] at h0
    rw [s1, w1] at h1
    omega

/-- Update `e` lands on `(i, j)` exactly when its pair, read signed, is `(i, j)`. -/
theorem resultIdxP_eq_some_iff {N N' M w : Nat}
    (wf : ScatterDims.WF ⟨2, ![N, N']⟩ ⟨2, ![M, 2]⟩ ⟨1, ![M]⟩ [] [0, 1] [0, 1] 1)
    (idx : IVec ⟨2, ![M, 2]⟩ w) (e : Fin M) (i : Fin N) (j : Fin N') :
    (pairDims N N' M wf).resultIdx? (ix1 e) idx = some (ix2 i j) ↔
      (idx (ix2 e (0 : Fin 2))).toInt = (i.val : ℤ) ∧ (idx (ix2 e (1 : Fin 2))).toInt = (j.val : ℤ) := by
  rw [resultIdxP]
  constructor
  · intro hEq
    by_cases h : (0 ≤ (idx (ix2 e (0 : Fin 2))).toInt ∧ (idx (ix2 e (0 : Fin 2))).toInt < (N : ℤ)) ∧
        (0 ≤ (idx (ix2 e (1 : Fin 2))).toInt ∧ (idx (ix2 e (1 : Fin 2))).toInt < (N' : ℤ))
    · rw [dif_pos h] at hEq
      have hf := Option.some.inj hEq
      have h0 : (idx (ix2 e (0 : Fin 2))).toInt.toNat = i.val := congrArg Fin.val (congrFun hf 0)
      have h1 : (idx (ix2 e (1 : Fin 2))).toInt.toNat = j.val := congrArg Fin.val (congrFun hf 1)
      omega
    · rw [dif_neg h] at hEq
      exact absurd hEq (by simp)
  · rintro ⟨ht0, ht1⟩
    have h : (0 ≤ (idx (ix2 e (0 : Fin 2))).toInt ∧ (idx (ix2 e (0 : Fin 2))).toInt < (N : ℤ)) ∧
        (0 ≤ (idx (ix2 e (1 : Fin 2))).toInt ∧ (idx (ix2 e (1 : Fin 2))).toInt < (N' : ℤ)) := by
      have := i.isLt; have := j.isLt; omega
    rw [dif_pos h]
    congr 1
    funext a
    match a with
    | ⟨0, _⟩ => exact Fin.ext (by show (idx (ix2 e (0 : Fin 2))).toInt.toNat = i.val; omega)
    | ⟨1, _⟩ => exact Fin.ext (by show (idx (ix2 e (1 : Fin 2))).toInt.toNat = j.val; omega)

/-- A scatter-add of scalars into a matrix, read at `(i, j)`: the operand's entry plus the updates whose pair is
    `(i, j)`. -/
theorem scatterAdd_pair_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (j : Fin N') :
    Ideal.hostScatterAdd (pairDims N N' M wf) x idx upd (ix2 i j)
      = x (ix2 i j) + ∑ e : Fin M,
          if (idx (ix2 e (0 : Fin 2))).toInt = (i.val : ℤ) ∧ (idx (ix2 e (1 : Fin 2))).toInt = (j.val : ℤ)
          then upd (ix1 e) else 0 := by
  unfold Ideal.hostScatterAdd
  congr 1
  rw [Finset.sum_filter, ← Equiv.sum_comp (idxEquiv1 (n := M)).symm]
  refine Finset.sum_congr rfl fun e _ => ?_
  show (if (pairDims N N' M wf).resultIdx? (ix1 e) idx = some (ix2 i j) then upd (ix1 e) else 0) = _
  simp only [resultIdxP_eq_some_iff]

section Layout
variable {α : Type}

/-- A vector laid out as a column reads, at `(p, 0)`, the vector at `p`. -/
theorem bcast_col_ix {n : Nat} (h₁ : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h₁ v (ix2 p u) = v (ix1 p) :=
  broadcastInDim_apply ![0] h₁ v (ix2 p u) (ix1 p) (fun a => by
    match a with
    | ⟨0, _⟩ =>
      show p.val = if n = 1 then 0 else p.val
      have := p.isLt
      split <;> omega)

/-- A column repeated along the rows of a matrix reads, at `(p, q)`, the column at `p`. -/
theorem bcast_of_col_ix {n m : Nat} (h₂ : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h₂ v (ix2 p q) = v (ix2 p (0 : Fin 1)) :=
  broadcastInDim_apply ![0, 1] h₂ v (ix2 p q) (ix2 p (0 : Fin 1)) (fun a => by
    match a with
    | ⟨0, _⟩ =>
      show p.val = if n = 1 then 0 else p.val
      have := p.isLt
      split <;> omega
    | ⟨1, _⟩ =>
      show (0 : Nat) = if (1 : Nat) = 1 then 0 else q.val
      rfl)

/-- The column index written with a literal zero. -/
theorem ixP_eq {n : Nat} (p : Fin n) : StableHlo.Predicate.ixP p = ix2 p (0 : Fin 1) := by
  funext d
  match d with
  | ⟨0, _⟩ => rfl
  | ⟨1, _⟩ => rfl

/-- Two columns side by side read, at `(e, 0)`, the first column at `e`. -/
theorem pair_cols_apply0 {M : Nat} (a b : (⟨2, ![M, 1]⟩ : Shape).Idx → α)
    (h : Shape.Concatenates [⟨2, ![M, 1]⟩, ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (0 : Fin 2)) = a (ix2 e (0 : Fin 1)) :=
  concatenate_pair_apply_left 1 a b h (ix2 e (0 : Fin 2)) rfl (ix2 e (0 : Fin 1)) (fun d => by
    match d with
    | ⟨0, _⟩ => rfl
    | ⟨1, _⟩ => rfl)

/-- Two columns side by side read, at `(e, 1)`, the second column at `e`. -/
theorem pair_cols_apply1 {M : Nat} (a b : (⟨2, ![M, 1]⟩ : Shape).Idx → α)
    (h : Shape.Concatenates [⟨2, ![M, 1]⟩, ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (1 : Fin 2)) = b (ix2 e (0 : Fin 1)) :=
  concatenate_pair_apply_right 1 a b h (ix2 e (1 : Fin 2)) rfl rfl (ix2 e (0 : Fin 1)) (fun d hd => by
    match d with
    | ⟨0, _⟩ => rfl
    | ⟨1, _⟩ => exact absurd rfl hd) rfl

/-- Row `r` of a two-row array, cut out as a one-row slice and flattened, reads the array at `(r, e)`. -/
theorem row_apply {M : Nat} (r : Nat) (r' : Fin 2) (hrr : r'.val = r) (ei : (⟨2, ![2, M]⟩ : Shape).Idx → α)
    (hs : (⟨2, ![2, M]⟩ : Shape).Slices ![r, 0] ⟨2, ![1, M]⟩) (hc : (⟨2, ![1, M]⟩ : Shape).ShapeCasts ⟨1, ![M]⟩)
    (e : Fin M) :
    shapeCast ⟨1, ![M]⟩ (extractStridedSlice ⟨2, ![1, M]⟩ ![r, 0] ei hs) hc (ix1 e) = ei (ix2 r' e) := by
  rw [shapeCast_1a_a_apply, slice2_axis0_apply r ei hs (0 : Fin 1) e r' (by simp [hrr])]

end Layout

/-- The wrap of negative indices (add the extent to a negative word) is the identity on a word that reads
    non-negative. -/
theorem wrap_apply {s : Shape} (x z k : IVec s 32) (i : s.Idx) (hz : z i = 0#32) (hx : 0 ≤ (x i).toInt) :
    select (cmpi .slt x z) (addi x k) x i = x i := by
  rw [select_apply]
  have hc : cmpi .slt x z i = 0#1 := by
    show IntOp.cmpi .slt (x i) (z i) = 0#1
    rw [hz]
    unfold IntOp.cmpi
    show BitVec.ofBool ((x i).slt 0#32) = 0#1
    have hf : (x i).slt 0#32 = false := by
      simp only [BitVec.slt, BitVec.toInt_zero, decide_eq_false_iff_not, not_lt]
      exact hx
    rw [hf]; rfl
  rw [hc, select_zero]

/-! ## The program's index columns -/

/-- Row `r` of the edge array as a vector of words. -/
def rowW (ei : IVec S2x12800 32) (r : Nat) (hs : S2x12800.Slices ![r, 0] S1x12800) : IVec S12800 32 :=
  fun i => shapeCast S12800 (extractStridedSlice S1x12800 ![r, 0] ei hs) Facts₀.shapeCasts_S1x12800_S12800 i

/-- A vector of node indices, the extent 200 added to those that read negative, as a column. -/
def wrapCol (x : IVec S12800 32) : IVec S12800x1 32 :=
  broadcastInDim S12800x1 ![0] Facts₀.bcast_S12800_S12800x1_0
    (select (cmpi .slt x (broadcastInDim S12800 ![] Facts₀.bcast_S_S12800 (constantI S_ 32 0#32)))
      (addi x (broadcastInDim S12800 ![] Facts₀.bcast_S_S12800 (constantI S_ 32 200#32))) x)

theorem rowW_apply (ei : IVec S2x12800 32) (r : Nat) (r' : Fin 2) (hrr : r'.val = r)
    (hs : S2x12800.Slices ![r, 0] S1x12800) (e : Fin 12800) : rowW ei r hs (ix1 e) = ei (ix2 r' e) :=
  row_apply r r' hrr ei hs Facts₀.shapeCasts_S1x12800_S12800 e

theorem wrapCol_apply (x : IVec S12800 32) (e : Fin 12800) (hx : 0 ≤ (x (ix1 e)).toInt) :
    wrapCol x (ix2 e (0 : Fin 1)) = x (ix1 e) := by
  unfold wrapCol
  rw [bcast_col_ix, wrap_apply _ _ _ _ rfl hx]

/-- On an edge array whose entries all name nodes, the wrapped column of row `r` reads the array's own entry. -/
theorem idxCol_apply (ei : IVec S2x12800 32) (hr : Cert.Edges.InRange ei) (r : Nat) (r' : Fin 2) (hrr : r'.val = r)
    (hs : S2x12800.Slices ![r, 0] S1x12800) (e : Fin 12800) :
    wrapCol (rowW ei r hs) (ix2 e (0 : Fin 1)) = ei (ix2 r' e) := by
  have hrow := rowW_apply ei r r' hrr hs e
  rw [wrapCol_apply _ e (by rw [hrow]; exact (hr _).1), hrow]

variable (m : (ℓ : Loc nD τ sig) → Buf (Elt Ideal) ℓ) (c : Dev nD)

/-- The edge array as launched. -/
abbrev eiOf : IVec Cert.Edges.SE 32 := m ((c : Thread nD τ).loc main_arg1)
/-- The edges' source nodes. -/
abbrev srcOf (hr : Cert.Edges.InRange (eiOf m c)) : Fin 12800 → Fin 200 := Cert.Edges.node (eiOf m c) hr 0
/-- The edges' target nodes. -/
abbrev dstOf (hr : Cert.Edges.InRange (eiOf m c)) : Fin 12800 → Fin 200 := Cert.Edges.node (eiOf m c) hr 1
/-- The edges' weights. -/
abbrev eaOf : Fin 12800 → EReal := fun e => (m ((c : Thread nD τ).loc main_arg2) : S12800.Idx → EReal) (ix1 e)

open StableHlo in
set_option maxHeartbeats 4000000 in
/-- The array the first host stretch leaves for the division, as the operations compute it from the launch. -/
theorem v32_eq : (Gen.V1 m c main_v32 : S200x200.Idx → EReal) =
    Host.divf (F := Ideal) (φ := .f32)
      (Host.scatterAdd (F := Ideal) scatter_S200x200_S12800x2_S12800_n_01_01_1
        (broadcastInDim S200x200 ![] Facts₀.bcast_S_S200x200 (constant (F := Ideal) S_ .f32 0x00000000#32))
        (concatenate S12800x2 1
          [⟨S12800x1, wrapCol (rowW (eiOf m c) 1 Facts₀.slices_S2x12800_S1x12800_1_0)⟩,
           ⟨S12800x1, wrapCol (rowW (eiOf m c) 0 Facts₀.slices_S2x12800_S1x12800_0_0)⟩]
          Facts₀.concatenates_S12800x1_S12800x1_S12800x2_d1)
        (m ((c : Thread nD τ).loc main_arg2)))
      (broadcastInDim S200x200 ![0, 1] Facts₀.bcast_S200x1_S200x200_0_1
        (broadcastInDim S200x1 ![0] Facts₀.bcast_S200_S200x1_0
          (maximumf (F := Ideal)
            (Host.scatterAdd (F := Ideal) scatter_S200_S12800x1_S12800_n_0_0_1
              (broadcastInDim S200 ![] Facts₀.bcast_S_S200 (constant (F := Ideal) S_ .f32 0x00000000#32))
              (wrapCol (rowW (eiOf m c) 1 Facts₀.slices_S2x12800_S1x12800_1_0))
              (broadcastInDim S12800 ![] Facts₀.bcast_S_S12800 (constant (F := Ideal) S_ .f32 0x3F800000#32)))
            (broadcastInDim S200 ![] Facts₀.bcast_S_S200 (constant (F := Ideal) S_ .f32 0x3F800000#32))))) := by
  dsimp only [Gen.V1]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-- The array the program divides out is the dense mean-aggregation operator of the edge list. -/
theorem adj_apply (hr : Cert.Edges.InRange (eiOf m c)) (n j : Fin 200) :
    (Gen.V1 m c main_v32 : S200x200.Idx → EReal) (ix2 n j)
      = Cert.Sage.adj (srcOf m c hr) (dstOf m c hr) (eaOf m c) n j := by
  refine (congrFun (v32_eq m c) (ix2 n j)).trans ?_
  rw [hostDivf_apply]
  unfold Cert.Sage.adj
  refine congrArg₂ Ideal.div ?_ ?_
  · -- the weights scattered at (target, source)
    show Ideal.hostScatterAdd (pairDims 200 200 12800 Facts₀.scatter_S200x200_S12800x2_S12800_n_01_01_1_wf) _ _ _ (ix2 n j) = _
    rw [scatterAdd_pair_apply, broadcastInDim_scalar_apply, constant_apply, Ideal.ofBits_zero_f32, zero_add]
    unfold Cert.Sage.araw
    refine Finset.sum_congr rfl fun e _ => ?_
    rw [pair_cols_apply0, pair_cols_apply1, idxCol_apply (eiOf m c) hr 1 1 rfl, idxCol_apply (eiOf m c) hr 0 0 rfl]
    simp only [Cert.Edges.toInt_eq_iff (eiOf m c) hr]
  · -- the count of the edges into each node, at least one
    rw [bcast_of_col_ix, bcast_col_ix, maximumf_apply]
    unfold Cert.Sage.den Cert.Sage.cnt
    refine congrArg₂ max ?_ ?_
    · show Ideal.hostScatterAdd (Cert.LibSegment.segDims1 200 12800 Facts₀.scatter_S200_S12800x1_S12800_n_0_0_1_wf) _ _ _ (ix1 n) = _
      rw [Cert.LibSegment.scatterAdd_seg1_apply, broadcastInDim_scalar_apply, constant_apply, Ideal.ofBits_zero_f32, zero_add]
      refine Finset.sum_congr rfl fun e _ => ?_
      rw [ixP_eq, idxCol_apply (eiOf m c) hr 1 1 rfl, broadcastInDim_scalar_apply, constant_apply, Ideal.ofBits_one_f32]
      simp only [Cert.Edges.toInt_eq_iff (eiOf m c) hr]
    · rw [broadcastInDim_scalar_apply, constant_apply, Ideal.ofBits_one_f32]

end Cert.KernelIdeal.Hand

end
-- ==== Proof.KHost.lean ====
import proofs.«400777_j26645977104607_3_alg».proof.Proof.KAdj
import proofs.«400777_j26645977104607_3_alg».proof.Proof.LibMatProd
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! # The operands the program hands its two kernels

Before each kernel the host forms the aggregate as the dense operator applied to the layer's input (a plain matrix
product), changes float formats (the identity on the extended reals) and reshapes the bias to a row. -/

variable (m : (ℓ : Loc nD τ sig) → Buf (Elt Ideal) ℓ) (c : Dev nD)

/-! ## The first stretch, cut after the dense operator

The first stretch is forty-three operations that end by writing the dense operator, then four that read it and the
launch arrays. The contents after the forty-three are named once; the last four are read over that name, so the dense
operator stays the array the operator lemma speaks about. -/

/-- Running two lines one after the other is running their concatenation. -/
private theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons]; exact ih _

/-- The buffers once the dense operator is written: the launch contents after the first forty-three operations. -/
private def Wpre : Valuation τ sig (Elt Ideal) :=
  StableHlo.after ((hostOps0 : List (HloOp τ sig (Elt Ideal))).take 43) (Gen.V0 m c)

/-- The contents after the whole stretch are the last four operations run over those. -/
private theorem V1_split :
    Gen.V1 m c = StableHlo.after ((hostOps0 : List (HloOp τ sig (Elt Ideal))).drop 43) (Wpre m c) := by
  unfold Wpre; rw [← after_append, List.take_append_drop]

/-- None of the last four operations writes the dense operator. -/
private theorem V1_v32 : Gen.V1 m c main_v32 = Wpre m c main_v32 := by
  rw [V1_split]
  change StableHlo.after [_, _, _, _] (Wpre m c) _ = _
  after_results

/-- No operation of the stretch writes the input features. -/
private theorem Wpre_arg0 : Wpre m c main_arg0 = m ((c : Thread nD τ).loc main_arg0) := by
  have h1 : Gen.V1 m c main_arg0 = Wpre m c main_arg0 := by
    rw [V1_split]
    change StableHlo.after [_, _, _, _] (Wpre m c) _ = _
    after_results
  rw [← h1]; exact Gen.V1_of m c main_arg0 (by decide)

/-- No operation of the stretch writes the first bias. -/
private theorem Wpre_arg5 : Wpre m c main_arg5 = m ((c : Thread nD τ).loc main_arg5) := by
  have h1 : Gen.V1 m c main_arg5 = Wpre m c main_arg5 := by
    rw [V1_split]
    change StableHlo.after [_, _, _, _] (Wpre m c) _ = _
    after_results
  rw [← h1]; exact Gen.V1_of m c main_arg5 (by decide)

/-- The first kernel's first operand: the dense form of the aggregate of the input features. -/
theorem v35_apply (hr : Cert.Edges.InRange (eiOf m c)) (n : Fin 200) (f : Fin 16384) :
    (Gen.V1 m c main_v35 : S200x16384.Idx → EReal) (ix2 n f)
      = Cert.Sage.aggK (srcOf m c hr) (dstOf m c hr) (eaOf m c)
          (fun n f => (m ((c : Thread nD τ).loc main_arg0) : S200x16384.Idx → EReal) (ix2 n f)) n f := by
  rw [V1_split]
  show (StableHlo.after [_, _, _, _] (Wpre m c) (Proc.devRef .tc main_v35) : S200x16384.Idx → EReal) (ix2 n f) = _
  after_results
  -- the format change is the identity; the product at an entry is the sum over the shared axis
  rw [Wpre_arg0, ← V1_v32, truncf_apply,
    Cert.LibMatProd.dotGeneral_apply dot_S200x200_S200x16384_S200x16384_1_0_0_1_n_n rfl]
  unfold Cert.Sage.aggK
  change @Eq EReal _ _
  refine Finset.sum_congr rfl fun j _ => ?_
  rw [adj_apply m c hr n j]

/-- Its second operand: the input features. -/
theorem v34_apply (n : Fin 200) (f : Fin 16384) :
    (Gen.V1 m c main_v34 : S200x16384.Idx → EReal) (ix2 n f)
      = (m ((c : Thread nD τ).loc main_arg0) : S200x16384.Idx → EReal) (ix2 n f) := by
  rw [V1_split]
  show (StableHlo.after [_, _, _, _] (Wpre m c) (Proc.devRef .tc main_v34) : S200x16384.Idx → EReal) (ix2 n f) = _
  after_results
  rw [Wpre_arg0]
  rfl

/-- Its bias row. -/
theorem v36_apply (h : Fin 4096) :
    (Gen.V1 m c main_v36 : S1x4096.Idx → EReal) (ix2 0 h)
      = (m ((c : Thread nD τ).loc main_arg5) : S4096.Idx → EReal) (ix1 h) := by
  rw [V1_split]
  show (StableHlo.after [_, _, _, _] (Wpre m c) (Proc.devRef .tc main_v36) : S1x4096.Idx → EReal) (ix2 0 h) = _
  after_results
  rw [Wpre_arg5]
  exact shapeCast_a_1a_apply _ _ _ _

variable (outs : Gen.Outs (F := Ideal))

/-! ## The second stretch

The first kernel may change its output array only, so the dense operator and the launch arrays are still what the
first stretch left. -/

/-- The first kernel leaves the dense operator as it was. -/
private theorem V2_v32 : Gen.V2 m outs c main_v32 = Gen.V1 m c main_v32 := Gen.V2_of m outs c main_v32 (by decide)

/-- Neither the first stretch nor the first kernel writes the second bias. -/
private theorem V2_arg8 : Gen.V2 m outs c main_arg8 = m ((c : Thread nD τ).loc main_arg8) :=
  (Gen.V2_of m outs c main_arg8 (by decide)).trans (Gen.V1_of m c main_arg8 (by decide))

/-- The second kernel's first operand: the dense form of the aggregate of the first kernel's output. -/
theorem v40_apply (hr : Cert.Edges.InRange (eiOf m c)) (n : Fin 200) (f : Fin 4096) :
    (Gen.V3 m outs c main_v40 : S200x4096.Idx → EReal) (ix2 n f)
      = Cert.Sage.aggK (srcOf m c hr) (dstOf m c hr) (eaOf m c)
          (fun n f => (Gen.V2 m outs c main_v37 : S200x4096.Idx → EReal) (ix2 n f)) n f := by
  show (StableHlo.after [_, _, _, _] (Gen.V2 m outs c) (Proc.devRef .tc main_v40) : S200x4096.Idx → EReal) (ix2 n f) = _
  after_results
  rw [V2_v32, truncf_apply,
    Cert.LibMatProd.dotGeneral_apply dot_S200x200_S200x4096_S200x4096_1_0_0_1_n_n rfl]
  unfold Cert.Sage.aggK
  change @Eq EReal _ _
  refine Finset.sum_congr rfl fun j _ => ?_
  rw [adj_apply m c hr n j]

/-- Its second operand: the first kernel's output. -/
theorem v39_apply (n : Fin 200) (f : Fin 4096) :
    (Gen.V3 m outs c main_v39 : S200x4096.Idx → EReal) (ix2 n f)
      = (Gen.V2 m outs c main_v37 : S200x4096.Idx → EReal) (ix2 n f) := by
  show (StableHlo.after [_, _, _, _] (Gen.V2 m outs c) (Proc.devRef .tc main_v39) : S200x4096.Idx → EReal) (ix2 n f) = _
  after_results
  rfl

/-- Its bias row. -/
theorem v41_apply (k : Fin 512) :
    (Gen.V3 m outs c main_v41 : S1x512.Idx → EReal) (ix2 0 k)
      = (m ((c : Thread nD τ).loc main_arg8) : S512.Idx → EReal) (ix1 k) := by
  show (StableHlo.after [_, _, _, _] (Gen.V2 m outs c) (Proc.devRef .tc main_v41) : S1x512.Idx → EReal) (ix2 0 k) = _
  after_results
  rw [V2_arg8]
  exact shapeCast_a_1a_apply _ _ _ _

end Cert.KernelIdeal.Hand

end
-- ==== Proof.LibGather.lean ====
/-
  General lemma: the row gather (`table[idx]` over the rows of a rank-2 table, the row numbers an [M, 1] column), read
  at an index. Result row `e` is the table's row `min (max idx 0) (N - 1)`: the `e`-th start index read as a signed
  integer and clamped into the table.
-/
import Idealize.ShloMosaic.PureOps.Ideal
import Idealize.ShloMosaic.Lib.ValueIdx
import Idealize.ShloMosaic.Lib.StableHlo.Predicate

noncomputable section

namespace Cert.LibGather

open Idealize.ShloMosaic Idealize.ShloMosaic.ValueIdx Idealize.ShloMosaic.StableHlo.Predicate

/-- The dimension numbers of a row gather: table [N, C], row numbers as an [M, 1] column, result [M, C]. -/
def rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- A row gather at result row `e`, column `l`: the table's row at the `e`-th start index, read signed and clamped
    into `[0, N - 1]`, at column `l`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (l : Fin C) :
    Host.gather (rowGatherDims N M C wf) x idx (ix2 e l)
      = x (ix2 ⟨min (idx (ixP e)).toInt.toNat (N - 1), by omega⟩ l) := by
  unfold Host.gather
  congr 1
  funext a
  refine Fin.ext ?_
  have h10 : ¬ ((1 : Fin 2) = 0) := by decide
  match a with
  | ⟨0, _⟩ =>
    -- axis 0 (the rows): collapsed and named by the start index map, so the coordinate is the clamped start alone
    show (rowGatherDims N M C wf).start (ix2 e l) idx 0 + (rowGatherDims N M C wf).batchCoord (ix2 e l) 0
        + (rowGatherDims N M C wf).offCoord (ix2 e l) 0 = min (idx (ixP e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    -- the start index is read at row e of the column: the result's batch axis 0 feeds the column's axis 0
    have hsi : (rowGatherDims N M C wf).siIdx (ix2 e l) ⟨List.idxOf (0 : Fin 2) (rowGatherDims N M C wf).startIndexMap,
        List.idxOf_lt_length_iff.2 (List.mem_singleton.mpr rfl)⟩ = ixP e := by
      funext b; refine Fin.ext ?_
      match b with
      | ⟨0, _⟩ => rfl
      | ⟨1, _⟩ => rfl
    rw [hsi]
    rfl
  | ⟨1, _⟩ =>
    -- axis 1 (the columns): the one kept axis; not start-indexed, so start 0, and the offset coordinate is l
    show (rowGatherDims N M C wf).start (ix2 e l) idx 1 + (rowGatherDims N M C wf).batchCoord (ix2 e l) 1
        + (rowGatherDims N M C wf).offCoord (ix2 e l) 1 = l.val
    have h1s : (1 : Fin 2) ∉ (rowGatherDims N M C wf).startIndexMap := fun h => h10 (List.mem_singleton.mp h)
    have h1c : (1 : Fin 2) ∉ (rowGatherDims N M C wf).collapsedSliceDims := fun h => h10 (List.mem_singleton.mp h)
    have hs : (rowGatherDims N M C wf).start (ix2 e l) idx 1 = 0 := by
      unfold GatherDims.start
      rw [dif_neg h1s]
    rw [hs, GatherDims.batchCoord_eq_zero _ _ _ List.not_mem_nil]
    simp only [Nat.add_zero, Nat.zero_add]
    unfold GatherDims.offCoord
    rw [dif_pos ((GatherDims.mem_sKept _ _).mpr ⟨h1c, List.not_mem_nil⟩)]
    rfl

end Cert.LibGather

end
-- ==== Proof.RefRead.lean ====
import proofs.«400777_j26645977104607_3_alg».proof.Proof.Gen.ReferenceIdeal.Read
import proofs.«400777_j26645977104607_3_alg».proof.Proof.Sage
import proofs.«400777_j26645977104607_3_alg».proof.Proof.Edges
import proofs.«400777_j26645977104607_3_alg».proof.Proof.LibSegment
import proofs.«400777_j26645977104607_3_alg».proof.Proof.LibGather
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.Hand

open Cert.ReferenceIdeal Cert.ReferenceIdeal.Gen Cert.ReferenceIdeal.Read
open Idealize.ShloMosaic Idealize.ShloMosaic.TcCoe Idealize.ShloMosaic.ValueIdx
open Idealize.SL Idealize.SL.Sem
open Idealize.ShloMosaic.StableHlo.Predicate (ixP)

/-! # The reference's two graph layers at an index, on the extended reals

Each layer gathers the source rows, scales each by its edge's weight, sums them by target node, divides by
`max count 1`, applies the two linear maps and adds the bias; the first layer is then clamped below at zero. -/

/-- The edges' source nodes. -/
abbrev srcOf (x1 : IVec Cert.Edges.SE 32) (hr : Cert.Edges.InRange x1) : Fin 12800 → Fin 200 := Cert.Edges.node x1 hr 0
/-- The edges' target nodes. -/
abbrev dstOf (x1 : IVec Cert.Edges.SE 32) (hr : Cert.Edges.InRange x1) : Fin 12800 → Fin 200 := Cert.Edges.node x1 hr 1

/-! ## The edge words -/

/-- A word that is not negative is unchanged by "add the node count where negative". -/
theorem wrap_nonneg (w c : BitVec 32) (h : 0 ≤ w.toInt) :
    Scalar.select (IntOp.cmpi .slt w 0#32) (IntOp.addi w c) w = w := by
  have hlt : w.slt 0#32 = false := by
    simp only [BitVec.slt, BitVec.toInt_zero, decide_eq_false_iff_not, Int.not_lt]
    exact h
  show (if BitVec.ofBool (w.slt 0#32) = 1 then _ else _) = _
  rw [hlt]
  rfl

theorem idx_src (e : Fin 12800) : idx_main_v0 (idx_main_v1 (idx_main_v9 (ixP e))) = ix2 (0 : Fin 2) e :=
  funext fun a => Fin.ext (by
    match a with
    | ⟨0, _⟩ => rfl
    | ⟨1, _⟩ => exact Nat.mod_eq_of_lt e.isLt)

/-- The first layer's gather index at edge e is the edge's source word. -/
theorem src_word (x1 : (⟨S2x12800, .i32⟩ : BufTy).Contents (Elt Ideal)) (hr : Cert.Edges.InRange x1) (e : Fin 12800) :
    val_main_v9 (F := Ideal) x1 (ixP e) = x1 (ix2 (0 : Fin 2) e) := by
  rw [val_main_v9_apply, val_main_v8_apply, val_main_v5_apply, val_main_v7_apply, val_main_v1_apply, val_main_v0_apply,
    val_main_v4_apply, val_main_c_apply, idx_src]
  exact wrap_nonneg _ _ (hr (ix2 (0 : Fin 2) e)).1

theorem idx_dst15 (e : Fin 12800) : idx_main_v2 (idx_main_v3 (idx_main_v15 (ixP e))) = ix2 (1 : Fin 2) e :=
  funext fun a => Fin.ext (by
    match a with
    | ⟨0, _⟩ => rfl
    | ⟨1, _⟩ => exact Nat.mod_eq_of_lt e.isLt)

/-- The first layer's segment id at edge e, for the rows, is the edge's target word. -/
theorem dst_word15 (x1 : (⟨S2x12800, .i32⟩ : BufTy).Contents (Elt Ideal)) (e : Fin 12800) :
    val_main_v15 (F := Ideal) x1 (ixP e) = x1 (ix2 (1 : Fin 2) e) := by
  rw [val_main_v15_apply, val_main_v3_apply, val_main_v2_apply, idx_dst15]

theorem idx_dst19 (e : Fin 12800) : idx_main_v2 (idx_main_v3 (idx_main_v19 (ixP e))) = ix2 (1 : Fin 2) e :=
  funext fun a => Fin.ext (by
    match a with
    | ⟨0, _⟩ => rfl
    | ⟨1, _⟩ => exact Nat.mod_eq_of_lt e.isLt)

/-- The first layer's segment id at edge e, for the counts, is the edge's target word. -/
theorem dst_word19 (x1 : (⟨S2x12800, .i32⟩ : BufTy).Contents (Elt Ideal)) (e : Fin 12800) :
    val_main_v19 (F := Ideal) x1 (ixP e) = x1 (ix2 (1 : Fin 2) e) := by
  rw [val_main_v19_apply, val_main_v3_apply, val_main_v2_apply, idx_dst19]

/-- The one word of the 32-bit format is the number one. -/
theorem ofBits_one_f32 : Ideal.ofBits .f32 0x3F800000#32 = 1 := by
  simp [Ideal.ofBits, Ideal.ieee, -EReal.coe_mul]; norm_num

/-! ## The first layer -/

/-- The gathered rows: row e is the source node's row. -/
theorem gather1_apply (x0 : (⟨S200x16384, .f32⟩ : BufTy).Contents (Elt Ideal)) (x1 : (⟨S2x12800, .i32⟩ : BufTy).Contents (Elt Ideal))
    (hr : Cert.Edges.InRange x1) (e : Fin 12800) (l : Fin 16384) :
    (val_main_v10 (F := Ideal) x0 x1 : S12800x16384.Idx → EReal) (ix2 e l)
      = (x0 : S200x16384.Idx → EReal) (ix2 (srcOf x1 hr e) l) := by
  unfold val_main_v10
  have hd : gather_S200x16384_S12800x1_S12800x16384_1_0_n_n_0_1_116384
      = Cert.LibGather.rowGatherDims 200 12800 16384 gather_S200x16384_S12800x1_S12800x16384_1_0_n_n_0_1_116384.wf := rfl
  rw [hd]
  refine (Cert.LibGather.gather_rows_apply (by decide) _ x0 (val_main_v9 (F := Ideal) x1) e l).trans ?_
  refine congrArg (fun r : Fin 200 => x0 (ix2 r l)) (Fin.ext ?_)
  show min ((val_main_v9 (F := Ideal) x1) (ixP e)).toInt.toNat (200 - 1) = (x1 (ix2 (0 : Fin 2) e)).toInt.toNat
  rw [src_word x1 hr e]
  have := hr (ix2 (0 : Fin 2) e)
  omega

theorem idx_w12 (e : Fin 12800) (l : Fin 16384) : idx_main_v11 (idx_main_v12 (ix2 e l)) = ix1 e :=
  funext fun a => Fin.ext (by
    match a with
    | ⟨0, _⟩ => rfl)

/-- The scaled rows. -/
theorem scaled1_apply (x0 : (⟨S200x16384, .f32⟩ : BufTy).Contents (Elt Ideal)) (x1 : (⟨S2x12800, .i32⟩ : BufTy).Contents (Elt Ideal))
    (x2 : (⟨S12800, .f32⟩ : BufTy).Contents (Elt Ideal)) (hr : Cert.Edges.InRange x1) (e : Fin 12800) (l : Fin 16384) :
    (val_main_v13 (F := Ideal) x0 x1 x2 : S12800x16384.Idx → EReal) (ix2 e l)
      = (x0 : S200x16384.Idx → EReal) (ix2 (srcOf x1 hr e) l) * (x2 : S12800.Idx → EReal) (ix1 e) := by
  rw [val_main_v13_apply, gather1_apply x0 x1 hr e l, val_main_v12_apply, val_main_v11_apply, idx_w12]
  rfl

/-- The segment sum of the scaled rows by target node is the weighted sum over the edges into the node. -/
theorem wsum1_apply (x0 : (⟨S200x16384, .f32⟩ : BufTy).Contents (Elt Ideal)) (x1 : (⟨S2x12800, .i32⟩ : BufTy).Contents (Elt Ideal))
    (x2 : (⟨S12800, .f32⟩ : BufTy).Contents (Elt Ideal)) (hr : Cert.Edges.InRange x1) (n : Fin 200) (f : Fin 16384) :
    (val_main_v16 (F := Ideal) x0 x1 x2 : S200x16384.Idx → EReal) (ix2 n f)
      = Cert.Sage.wsum (srcOf x1 hr) (dstOf x1 hr) (fun e => (x2 : S12800.Idx → EReal) (ix1 e))
          (fun n f => (x0 : S200x16384.Idx → EReal) (ix2 n f)) n f := by
  unfold val_main_v16 Host.scatterAdd
  rw [Ideal.hostScatterAdd_def]
  have hd : scatter_S200x16384_S12800x1_S12800x16384_1_0_0_1
      = Cert.LibSegment.segDims2 200 12800 16384 scatter_S200x16384_S12800x1_S12800x16384_1_0_0_1.wf := rfl
  rw [hd]
  refine (Cert.LibSegment.scatterAdd_seg2_apply _ (val_main_v14 (F := Ideal)) (val_main_v15 (F := Ideal) x1)
    (val_main_v13 (F := Ideal) x0 x1 x2) n f).trans ?_
  rw [val_main_v14_apply, val_main_cst_apply, Ideal.ofBits_def, Ideal.ofBits_zero_f32, zero_add]
  unfold Cert.Sage.wsum
  refine Finset.sum_congr rfl fun e _ => ?_
  rw [dst_word15 x1 e, scaled1_apply x0 x1 x2 hr e f]
  simp only [Cert.Edges.toInt_eq_iff x1 hr 1 e n]

/-- The segment sum of ones by target node is the number of edges into the node. -/
theorem cnt1_apply (x1 : (⟨S2x12800, .i32⟩ : BufTy).Contents (Elt Ideal)) (hr : Cert.Edges.InRange x1) (n : Fin 200) :
    (val_main_v20 (F := Ideal) x1 : S200.Idx → EReal) (ix1 n) = Cert.Sage.cnt (dstOf x1 hr) n := by
  unfold val_main_v20 Host.scatterAdd
  rw [Ideal.hostScatterAdd_def]
  have hd : scatter_S200_S12800x1_S12800_n_0_0_1
      = Cert.LibSegment.segDims1 200 12800 scatter_S200_S12800x1_S12800_n_0_0_1.wf := rfl
  rw [hd]
  refine (Cert.LibSegment.scatterAdd_seg1_apply _ (val_main_v18 (F := Ideal)) (val_main_v19 (F := Ideal) x1)
    (val_main_v17 (F := Ideal)) n).trans ?_
  rw [val_main_v18_apply, val_main_cst_2_apply, Ideal.ofBits_def, Ideal.ofBits_zero_f32, zero_add]
  unfold Cert.Sage.cnt
  refine Finset.sum_congr rfl fun e _ => ?_
  rw [dst_word19 x1 e, val_main_v17_apply, val_main_cst_1_apply, Ideal.ofBits_def, ofBits_one_f32]
  simp only [Cert.Edges.toInt_eq_iff x1 hr 1 e n]

theorem idx_d24 (n : Fin 200) (f : Fin 16384) : idx_main_v23 (idx_main_v24 (ix2 n f)) = ix1 n :=
  funext fun a => Fin.ext (by
    match a with
    | ⟨0, _⟩ => rfl)

/-- The mean over the incoming edges. -/
theorem agg1_apply (x0 : (⟨S200x16384, .f32⟩ : BufTy).Contents (Elt Ideal)) (x1 : (⟨S2x12800, .i32⟩ : BufTy).Contents (Elt Ideal))
    (x2 : (⟨S12800, .f32⟩ : BufTy).Contents (Elt Ideal)) (hr : Cert.Edges.InRange x1) (n : Fin 200) (f : Fin 16384) :
    (val_main_v25 (F := Ideal) x0 x1 x2 : S200x16384.Idx → EReal) (ix2 n f)
      = Cert.Sage.aggR (srcOf x1 hr) (dstOf x1 hr) (fun e => (x2 : S12800.Idx → EReal) (ix1 e))
          (fun n f => (x0 : S200x16384.Idx → EReal) (ix2 n f)) n f := by
  rw [val_main_v25_apply, wsum1_apply x0 x1 x2 hr n f, val_main_v24_apply, val_main_v23_apply, val_main_v22_apply, idx_d24,
    cnt1_apply x1 hr n, val_main_v21_apply, val_main_cst_3_apply, Ideal.ofBits_def, ofBits_one_f32]
  rfl

/-- The first layer's output. -/
theorem h1_apply (x0 : (⟨S200x16384, .f32⟩ : BufTy).Contents (Elt Ideal)) (x1 : (⟨S2x12800, .i32⟩ : BufTy).Contents (Elt Ideal)) (x2 : (⟨S12800, .f32⟩ : BufTy).Contents (Elt Ideal)) (x3 x4 : (⟨S4096x16384, .f32⟩ : BufTy).Contents (Elt Ideal)) (x5 : (⟨S4096, .f32⟩ : BufTy).Contents (Elt Ideal))
    (hr : Cert.Edges.InRange x1) (n : Fin 200) (h : Fin 4096) :
    (val_main_v34 (F := Ideal) x0 x1 x2 x3 x4 x5 : S200x4096.Idx → EReal) (ix2 n h)
      = max (Cert.Sage.lin
          (Cert.Sage.aggR (srcOf x1 hr) (dstOf x1 hr) (fun e => (x2 : S12800.Idx → EReal) (ix1 e)) (fun n f => (x0 : S200x16384.Idx → EReal) (ix2 n f)))
          (fun n f => (x0 : S200x16384.Idx → EReal) (ix2 n f))
          (fun h f => (x3 : S4096x16384.Idx → EReal) (ix2 h f))
          (fun h f => (x4 : S4096x16384.Idx → EReal) (ix2 h f))
          (fun h => (x5 : S4096.Idx → EReal) (ix1 h)) n h) 0 := by
  have e1 : ∀ k : Fin 16384, lidx_main_v27 (ix2 n h) k = ix2 n k := fun k =>
    funext fun a => Fin.ext (by match a with | ⟨0, _⟩ => rfl | ⟨1, _⟩ => rfl)
  have e2 : ∀ k : Fin 16384, idx_main_v26 (ridx_main_v27 (ix2 n h) k) = ix2 h k := fun k =>
    funext fun a => Fin.ext (by match a with | ⟨0, _⟩ => rfl | ⟨1, _⟩ => rfl)
  have e3 : ∀ k : Fin 16384, lidx_main_v29 (ix2 n h) k = ix2 n k := fun k =>
    funext fun a => Fin.ext (by match a with | ⟨0, _⟩ => rfl | ⟨1, _⟩ => rfl)
  have e4 : ∀ k : Fin 16384, idx_main_v28 (ridx_main_v29 (ix2 n h) k) = ix2 h k := fun k =>
    funext fun a => Fin.ext (by match a with | ⟨0, _⟩ => rfl | ⟨1, _⟩ => rfl)
  have e5 : idx_main_v31 (idx_main_v32 (ix2 n h)) = ix1 h :=
    funext fun a => Fin.ext (by match a with | ⟨0, _⟩ => rfl)
  rw [val_main_v34_apply, val_main_v33_apply, val_main_v30_apply, val_main_v27_apply, val_main_v29_apply,
    val_main_v32_apply, val_main_v31_apply, val_main_call0_v0_apply, val_main_call0_cst_apply]
  simp only [val_main_v26_apply, val_main_v28_apply, e1, e2, e3, e4, e5, agg1_apply x0 x1 x2 hr,
    Ideal.maximumf_def, Ideal.addf_def, Ideal.ofBits_def, Ideal.ofBits_zero_f32]
  rfl

/-! ## The second layer, over the first layer's output -/

theorem idx_src40 (e : Fin 12800) : idx_main_v0 (idx_main_v1 (idx_main_v40 (ixP e))) = ix2 (0 : Fin 2) e :=
  funext fun a => Fin.ext (by
    match a with
    | ⟨0, _⟩ => rfl
    | ⟨1, _⟩ => exact Nat.mod_eq_of_lt e.isLt)

/-- The second layer's gather index at edge e is the edge's source word. -/
theorem src_word40 (x1 : (⟨S2x12800, .i32⟩ : BufTy).Contents (Elt Ideal)) (hr : Cert.Edges.InRange x1) (e : Fin 12800) :
    val_main_v40 (F := Ideal) x1 (ixP e) = x1 (ix2 (0 : Fin 2) e) := by
  rw [val_main_v40_apply, val_main_v39_apply, val_main_v36_apply, val_main_v38_apply, val_main_v1_apply, val_main_v0_apply,
    val_main_v35_apply, val_main_c_4_apply, idx_src40]
  exact wrap_nonneg _ _ (hr (ix2 (0 : Fin 2) e)).1

theorem idx_dst46 (e : Fin 12800) : idx_main_v2 (idx_main_v3 (idx_main_v46 (ixP e))) = ix2 (1 : Fin 2) e :=
  funext fun a => Fin.ext (by
    match a with
    | ⟨0, _⟩ => rfl
    | ⟨1, _⟩ => exact Nat.mod_eq_of_lt e.isLt)

/-- The second layer's segment id at edge e, for the rows, is the edge's target word. -/
theorem dst_word46 (x1 : (⟨S2x12800, .i32⟩ : BufTy).Contents (Elt Ideal)) (e : Fin 12800) :
    val_main_v46 (F := Ideal) x1 (ixP e) = x1 (ix2 (1 : Fin 2) e) := by
  rw [val_main_v46_apply, val_main_v3_apply, val_main_v2_apply, idx_dst46]

theorem idx_dst50 (e : Fin 12800) : idx_main_v2 (idx_main_v3 (idx_main_v50 (ixP e))) = ix2 (1 : Fin 2) e :=
  funext fun a => Fin.ext (by
    match a with
    | ⟨0, _⟩ => rfl
    | ⟨1, _⟩ => exact Nat.mod_eq_of_lt e.isLt)

/-- The second layer's segment id at edge e, for the counts, is the edge's target word. -/
theorem dst_word50 (x1 : (⟨S2x12800, .i32⟩ : BufTy).Contents (Elt Ideal)) (e : Fin 12800) :
    val_main_v50 (F := Ideal) x1 (ixP e) = x1 (ix2 (1 : Fin 2) e) := by
  rw [val_main_v50_apply, val_main_v3_apply, val_main_v2_apply, idx_dst50]

/-- The gathered rows of the first layer's output: row e is the source node's row. -/
theorem gather2_apply (x0 : (⟨S200x16384, .f32⟩ : BufTy).Contents (Elt Ideal)) (x1 : (⟨S2x12800, .i32⟩ : BufTy).Contents (Elt Ideal)) (x2 : (⟨S12800, .f32⟩ : BufTy).Contents (Elt Ideal)) (x3 x4 : (⟨S4096x16384, .f32⟩ : BufTy).Contents (Elt Ideal)) (x5 : (⟨S4096, .f32⟩ : BufTy).Contents (Elt Ideal))
    (hr : Cert.Edges.InRange x1) (e : Fin 12800) (l : Fin 4096) :
    (val_main_v41 (F := Ideal) x0 x1 x2 x3 x4 x5 : S12800x4096.Idx → EReal) (ix2 e l)
      = (val_main_v34 (F := Ideal) x0 x1 x2 x3 x4 x5 : S200x4096.Idx → EReal) (ix2 (srcOf x1 hr e) l) := by
  unfold val_main_v41
  generalize val_main_v34 (F := Ideal) x0 x1 x2 x3 x4 x5 = y
  have hd : gather_S200x4096_S12800x1_S12800x4096_1_0_n_n_0_1_14096
      = Cert.LibGather.rowGatherDims 200 12800 4096 gather_S200x4096_S12800x1_S12800x4096_1_0_n_n_0_1_14096.wf := rfl
  rw [hd]
  refine (Cert.LibGather.gather_rows_apply (by decide) _ y (val_main_v40 (F := Ideal) x1) e l).trans ?_
  refine congrArg (fun r : Fin 200 => y (ix2 r l)) (Fin.ext ?_)
  show min ((val_main_v40 (F := Ideal) x1) (ixP e)).toInt.toNat (200 - 1) = (x1 (ix2 (0 : Fin 2) e)).toInt.toNat
  rw [src_word40 x1 hr e]
  have := hr (ix2 (0 : Fin 2) e)
  omega

theorem idx_w43 (e : Fin 12800) (l : Fin 4096) : idx_main_v42 (idx_main_v43 (ix2 e l)) = ix1 e :=
  funext fun a => Fin.ext (by
    match a with
    | ⟨0, _⟩ => rfl)

/-- The scaled rows of the second layer. -/
theorem scaled2_apply (x0 : (⟨S200x16384, .f32⟩ : BufTy).Contents (Elt Ideal)) (x1 : (⟨S2x12800, .i32⟩ : BufTy).Contents (Elt Ideal)) (x2 : (⟨S12800, .f32⟩ : BufTy).Contents (Elt Ideal)) (x3 x4 : (⟨S4096x16384, .f32⟩ : BufTy).Contents (Elt Ideal)) (x5 : (⟨S4096, .f32⟩ : BufTy).Contents (Elt Ideal))
    (hr : Cert.Edges.InRange x1) (e : Fin 12800) (l : Fin 4096) :
    (val_main_v44 (F := Ideal) x0 x1 x2 x3 x4 x5 : S12800x4096.Idx → EReal) (ix2 e l)
      = (val_main_v34 (F := Ideal) x0 x1 x2 x3 x4 x5 : S200x4096.Idx → EReal) (ix2 (srcOf x1 hr e) l)
          * (x2 : S12800.Idx → EReal) (ix1 e) := by
  rw [val_main_v44_apply, gather2_apply x0 x1 x2 x3 x4 x5 hr e l, val_main_v43_apply, val_main_v42_apply, idx_w43]
  rfl

/-- The second layer's segment sum of the scaled rows is the weighted sum over the edges into the node. -/
theorem wsum2_apply (x0 : (⟨S200x16384, .f32⟩ : BufTy).Contents (Elt Ideal)) (x1 : (⟨S2x12800, .i32⟩ : BufTy).Contents (Elt Ideal)) (x2 : (⟨S12800, .f32⟩ : BufTy).Contents (Elt Ideal)) (x3 x4 : (⟨S4096x16384, .f32⟩ : BufTy).Contents (Elt Ideal)) (x5 : (⟨S4096, .f32⟩ : BufTy).Contents (Elt Ideal))
    (hr : Cert.Edges.InRange x1) (n : Fin 200) (f : Fin 4096) :
    (val_main_v47 (F := Ideal) x0 x1 x2 x3 x4 x5 : S200x4096.Idx → EReal) (ix2 n f)
      = Cert.Sage.wsum (srcOf x1 hr) (dstOf x1 hr) (fun e => (x2 : S12800.Idx → EReal) (ix1 e))
          (fun n f => (val_main_v34 (F := Ideal) x0 x1 x2 x3 x4 x5 : S200x4096.Idx → EReal) (ix2 n f)) n f := by
  unfold val_main_v47 Host.scatterAdd
  rw [Ideal.hostScatterAdd_def]
  have hd : scatter_S200x4096_S12800x1_S12800x4096_1_0_0_1
      = Cert.LibSegment.segDims2 200 12800 4096 scatter_S200x4096_S12800x1_S12800x4096_1_0_0_1.wf := rfl
  rw [hd]
  refine (Cert.LibSegment.scatterAdd_seg2_apply _ (val_main_v45 (F := Ideal)) (val_main_v46 (F := Ideal) x1)
    (val_main_v44 (F := Ideal) x0 x1 x2 x3 x4 x5) n f).trans ?_
  rw [val_main_v45_apply, val_main_cst_6_apply, Ideal.ofBits_def, Ideal.ofBits_zero_f32, zero_add]
  unfold Cert.Sage.wsum
  refine Finset.sum_congr rfl fun e _ => ?_
  rw [dst_word46 x1 e, scaled2_apply x0 x1 x2 x3 x4 x5 hr e f]
  simp only [Cert.Edges.toInt_eq_iff x1 hr 1 e n]

/-- The second layer's segment sum of ones is the number of edges into the node. -/
theorem cnt2_apply (x1 : (⟨S2x12800, .i32⟩ : BufTy).Contents (Elt Ideal)) (hr : Cert.Edges.InRange x1) (n : Fin 200) :
    (val_main_v51 (F := Ideal) x1 : S200.Idx → EReal) (ix1 n) = Cert.Sage.cnt (dstOf x1 hr) n := by
  unfold val_main_v51 Host.scatterAdd
  rw [Ideal.hostScatterAdd_def]
  have hd : scatter_S200_S12800x1_S12800_n_0_0_1
      = Cert.LibSegment.segDims1 200 12800 scatter_S200_S12800x1_S12800_n_0_0_1.wf := rfl
  rw [hd]
  refine (Cert.LibSegment.scatterAdd_seg1_apply _ (val_main_v49 (F := Ideal)) (val_main_v50 (F := Ideal) x1)
    (val_main_v48 (F := Ideal)) n).trans ?_
  rw [val_main_v49_apply, val_main_cst_8_apply, Ideal.ofBits_def, Ideal.ofBits_zero_f32, zero_add]
  unfold Cert.Sage.cnt
  refine Finset.sum_congr rfl fun e _ => ?_
  rw [dst_word50 x1 e, val_main_v48_apply, val_main_cst_7_apply, Ideal.ofBits_def, ofBits_one_f32]
  simp only [Cert.Edges.toInt_eq_iff x1 hr 1 e n]

theorem idx_d55 (n : Fin 200) (f : Fin 4096) : idx_main_v54 (idx_main_v55 (ix2 n f)) = ix1 n :=
  funext fun a => Fin.ext (by
    match a with
    | ⟨0, _⟩ => rfl)

/-- The second layer's mean over the incoming edges. -/
theorem agg2_apply (x0 : (⟨S200x16384, .f32⟩ : BufTy).Contents (Elt Ideal)) (x1 : (⟨S2x12800, .i32⟩ : BufTy).Contents (Elt Ideal)) (x2 : (⟨S12800, .f32⟩ : BufTy).Contents (Elt Ideal)) (x3 x4 : (⟨S4096x16384, .f32⟩ : BufTy).Contents (Elt Ideal)) (x5 : (⟨S4096, .f32⟩ : BufTy).Contents (Elt Ideal))
    (hr : Cert.Edges.InRange x1) (n : Fin 200) (f : Fin 4096) :
    (val_main_v56 (F := Ideal) x0 x1 x2 x3 x4 x5 : S200x4096.Idx → EReal) (ix2 n f)
      = Cert.Sage.aggR (srcOf x1 hr) (dstOf x1 hr) (fun e => (x2 : S12800.Idx → EReal) (ix1 e))
          (fun n f => (val_main_v34 (F := Ideal) x0 x1 x2 x3 x4 x5 : S200x4096.Idx → EReal) (ix2 n f)) n f := by
  rw [val_main_v56_apply, wsum2_apply x0 x1 x2 x3 x4 x5 hr n f, val_main_v55_apply, val_main_v54_apply, val_main_v53_apply,
    idx_d55, cnt2_apply x1 hr n, val_main_v52_apply, val_main_cst_9_apply, Ideal.ofBits_def, ofBits_one_f32]
  rfl

/-- The second layer's output, over the first layer's. -/
theorem h2_apply (x0 : (⟨S200x16384, .f32⟩ : BufTy).Contents (Elt Ideal)) (x1 : (⟨S2x12800, .i32⟩ : BufTy).Contents (Elt Ideal)) (x2 : (⟨S12800, .f32⟩ : BufTy).Contents (Elt Ideal)) (x3 x4 : (⟨S4096x16384, .f32⟩ : BufTy).Contents (Elt Ideal)) (x5 : (⟨S4096, .f32⟩ : BufTy).Contents (Elt Ideal)) (x6 x7 : (⟨S512x4096, .f32⟩ : BufTy).Contents (Elt Ideal)) (x8 : (⟨S512, .f32⟩ : BufTy).Contents (Elt Ideal))
    (hr : Cert.Edges.InRange x1) (n : Fin 200) (k : Fin 512) :
    (val_main_v64 (F := Ideal) x0 x1 x2 x3 x4 x5 x6 x7 x8 : S200x512.Idx → EReal) (ix2 n k)
      = Cert.Sage.lin
          (Cert.Sage.aggR (srcOf x1 hr) (dstOf x1 hr) (fun e => (x2 : S12800.Idx → EReal) (ix1 e))
            (fun n f => (val_main_v34 (F := Ideal) x0 x1 x2 x3 x4 x5 : S200x4096.Idx → EReal) (ix2 n f)))
          (fun n f => (val_main_v34 (F := Ideal) x0 x1 x2 x3 x4 x5 : S200x4096.Idx → EReal) (ix2 n f))
          (fun k f => (x6 : S512x4096.Idx → EReal) (ix2 k f))
          (fun k f => (x7 : S512x4096.Idx → EReal) (ix2 k f))
          (fun k => (x8 : S512.Idx → EReal) (ix1 k)) n k := by
  have e1 : ∀ f : Fin 4096, lidx_main_v58 (ix2 n k) f = ix2 n f := fun f =>
    funext fun a => Fin.ext (by match a with | ⟨0, _⟩ => rfl | ⟨1, _⟩ => rfl)
  have e2 : ∀ f : Fin 4096, idx_main_v57 (ridx_main_v58 (ix2 n k) f) = ix2 k f := fun f =>
    funext fun a => Fin.ext (by match a with | ⟨0, _⟩ => rfl | ⟨1, _⟩ => rfl)
  have e3 : ∀ f : Fin 4096, lidx_main_v60 (ix2 n k) f = ix2 n f := fun f =>
    funext fun a => Fin.ext (by match a with | ⟨0, _⟩ => rfl | ⟨1, _⟩ => rfl)
  have e4 : ∀ f : Fin 4096, idx_main_v59 (ridx_main_v60 (ix2 n k) f) = ix2 k f := fun f =>
    funext fun a => Fin.ext (by match a with | ⟨0, _⟩ => rfl | ⟨1, _⟩ => rfl)
  have e5 : idx_main_v62 (idx_main_v63 (ix2 n k)) = ix1 k :=
    funext fun a => Fin.ext (by match a with | ⟨0, _⟩ => rfl)
  rw [val_main_v64_apply, val_main_v61_apply, val_main_v58_apply, val_main_v60_apply, val_main_v63_apply, val_main_v62_apply]
  simp only [val_main_v57_apply, val_main_v59_apply, e1, e2, e3, e4, e5, agg2_apply x0 x1 x2 x3 x4 x5 hr,
    Ideal.addf_def]
  rfl

end Cert.ReferenceIdeal.Hand

end
-- ==== Proof.Tail.lean ====
import proofs.«400777_j26645977104607_3_alg».proof.Proof.Gen.ReferenceIdeal.Read
import proofs.«400777_j26645977104607_3_alg».proof.Proof.Gen.KernelIdeal.Regions
import Idealize.ShloMosaic.Lib.StableHlo.Run

set_option maxRecDepth 16384

noncomputable section

/-! # The classifier head both programs end with

After the second graph layer both programs transpose its `200 × 512` output and push it through the same three dense
layers (`200 → 100 → 50 → 10`, the first two clamped below at zero). The head is carried as ONE function of the layer's
output and the six head parameters; it is never opened. -/

namespace Cert.Tail

open Idealize.ShloMosaic Idealize.ShloMosaic.TcCoe Idealize.SL Idealize.SL.Sem

open Cert.ReferenceIdeal Cert.ReferenceIdeal.Gen Idealize.ShloMosaic.StableHlo in
/-- The classifier head, as the reference's own operations applied to the second layer's output `z`. -/
def tailR (z : (⟨Cert.ReferenceIdeal.S200x512, .f32⟩ : BufTy).Contents (Elt Ideal)) (x9 : (⟨Cert.ReferenceIdeal.S100x200, .f32⟩ : BufTy).Contents (Elt Ideal)) (x10 : (⟨Cert.ReferenceIdeal.S100, .f32⟩ : BufTy).Contents (Elt Ideal)) (x11 : (⟨Cert.ReferenceIdeal.S50x100, .f32⟩ : BufTy).Contents (Elt Ideal)) (x12 : (⟨Cert.ReferenceIdeal.S50, .f32⟩ : BufTy).Contents (Elt Ideal)) (x13 : (⟨Cert.ReferenceIdeal.S10x50, .f32⟩ : BufTy).Contents (Elt Ideal)) (x14 : (⟨Cert.ReferenceIdeal.S10, .f32⟩ : BufTy).Contents (Elt Ideal)) : (⟨Cert.ReferenceIdeal.S512x10, .f32⟩ : BufTy).Contents (Elt Ideal) :=
  addf (F := Ideal) (φ := .f32)
    (Host.dotGeneral (F := Ideal) (φ₁ := .f32) (φ₂ := .f32) dot_S512x50_S50x10_S512x10_1_0_0_1_n_n none
      (maximumf (F := Ideal) (φ := .f32)
        (addf (F := Ideal) (φ := .f32)
          (Host.dotGeneral (F := Ideal) (φ₁ := .f32) (φ₂ := .f32) dot_S512x100_S100x50_S512x50_1_0_0_1_n_n none
            (maximumf (F := Ideal) (φ := .f32)
              (addf (F := Ideal) (φ := .f32)
                (Host.dotGeneral (F := Ideal) (φ₁ := .f32) (φ₂ := .f32) dot_S512x200_S200x100_S512x100_1_0_0_1_n_n none
                  (transpose S512x200 [1, 0] z transposes_S200x512_S512x200_1_0)
                  (transpose S200x100 [1, 0] x9 transposes_S100x200_S200x100_1_0))
                (broadcastInDim S512x100 ![0, 1] bcast_S1x100_S512x100_0_1
                  (broadcastInDim S1x100 ![1] bcast_S100_S1x100_1 x10)))
              (broadcastInDim S512x100 ![] bcast_S_S512x100 (constant (F := Ideal) S_ .f32 0x00000000#32)))
            (transpose S100x50 [1, 0] x11 transposes_S50x100_S100x50_1_0))
          (broadcastInDim S512x50 ![0, 1] bcast_S1x50_S512x50_0_1
            (broadcastInDim S1x50 ![1] bcast_S50_S1x50_1 x12)))
        (broadcastInDim S512x50 ![] bcast_S_S512x50 (constant (F := Ideal) S_ .f32 0x00000000#32)))
      (transpose S50x10 [1, 0] x13 transposes_S10x50_S50x10_1_0))
    (broadcastInDim S512x10 ![0, 1] bcast_S1x10_S512x10_0_1
      (broadcastInDim S1x10 ![1] bcast_S10_S1x10_1 x14))

/-- The reference's result is the head applied to its second layer's output. -/
theorem ref_tail (x0 : (⟨Cert.ReferenceIdeal.S200x16384, .f32⟩ : BufTy).Contents (Elt Ideal)) (x1 : (⟨Cert.ReferenceIdeal.S2x12800, .i32⟩ : BufTy).Contents (Elt Ideal)) (x2 : (⟨Cert.ReferenceIdeal.S12800, .f32⟩ : BufTy).Contents (Elt Ideal)) (x3 x4 : (⟨Cert.ReferenceIdeal.S4096x16384, .f32⟩ : BufTy).Contents (Elt Ideal)) (x5 : (⟨Cert.ReferenceIdeal.S4096, .f32⟩ : BufTy).Contents (Elt Ideal)) (x6 x7 : (⟨Cert.ReferenceIdeal.S512x4096, .f32⟩ : BufTy).Contents (Elt Ideal)) (x8 : (⟨Cert.ReferenceIdeal.S512, .f32⟩ : BufTy).Contents (Elt Ideal)) (x9 : (⟨Cert.ReferenceIdeal.S100x200, .f32⟩ : BufTy).Contents (Elt Ideal)) (x10 : (⟨Cert.ReferenceIdeal.S100, .f32⟩ : BufTy).Contents (Elt Ideal)) (x11 : (⟨Cert.ReferenceIdeal.S50x100, .f32⟩ : BufTy).Contents (Elt Ideal)) (x12 : (⟨Cert.ReferenceIdeal.S50, .f32⟩ : BufTy).Contents (Elt Ideal)) (x13 : (⟨Cert.ReferenceIdeal.S10x50, .f32⟩ : BufTy).Contents (Elt Ideal)) (x14 : (⟨Cert.ReferenceIdeal.S10, .f32⟩ : BufTy).Contents (Elt Ideal)) :
    Cert.ReferenceIdeal.Read.val_main_v82 (F := Ideal) x0 x1 x2 x3 x4 x5 x6 x7 x8 x9 x10 x11 x12 x13 x14
      = tailR (Cert.ReferenceIdeal.Read.val_main_v64 (F := Ideal) x0 x1 x2 x3 x4 x5 x6 x7 x8) x9 x10 x11 x12 x13 x14 := by
  open Cert.ReferenceIdeal.Read in
  simp only [val_main_v82, val_main_v81, val_main_v80, val_main_v79, val_main_v78, val_main_v77, val_main_call2_v0,
    val_main_call2_cst, val_main_v76, val_main_v75, val_main_v74, val_main_v73, val_main_v72, val_main_v71,
    val_main_call1_v0, val_main_call1_cst, val_main_v70, val_main_v69, val_main_v68, val_main_v67, val_main_v66,
    val_main_v65, tailR]

section Stretches

/-! ## The kernel program's five host stretches, each over an arbitrary state of the buffers

Each stretch is read once at the one buffer the next stretch consumes; a buffer a stretch does not write passes through it. -/

open Cert.KernelIdeal Cert.KernelIdeal.Gen Idealize.ShloMosaic.StableHlo

variable (W : Valuation τ sig (Elt Ideal))

/-- First dense layer: the transposed input times the transposed weights, plus the bias spread over the rows. -/
theorem s0 : StableHlo.after (hostOps2 (F := Ideal)) W main_v48
    = addf (F := Ideal) (φ := .f32)
        (Host.dotGeneral (F := Ideal) (φ₁ := .f32) (φ₂ := .f32) dot_S512x200_S200x100_S512x100_1_0_0_1_n_n none
          (transpose S512x200 [1, 0] (W main_v42) transposes_S200x512_S512x200_1_0)
          (transpose S200x100 [1, 0] (W main_arg9) transposes_S100x200_S200x100_1_0))
        (broadcastInDim S512x100 ![0, 1] bcast_S1x100_S512x100_0_1
          (broadcastInDim S1x100 ![1] bcast_S100_S1x100_1 (W main_arg10))) := by
  dsimp only [hostOps2]
  after_results <;> rfl

/-- First clamp below at zero. -/
theorem s1 : StableHlo.after (hostOps2_1 (F := Ideal)) W main_v49
    = maximumf (F := Ideal) (φ := .f32) (W main_v48)
        (broadcastInDim S512x100 ![] bcast_S_S512x100 (constant (F := Ideal) S_ .f32 0x00000000#32)) := by
  dsimp only [hostOps2_1]
  after_results <;> rfl

/-- Second dense layer. -/
theorem s2 : StableHlo.after (hostOps2_2 (F := Ideal)) W main_v54
    = addf (F := Ideal) (φ := .f32)
        (Host.dotGeneral (F := Ideal) (φ₁ := .f32) (φ₂ := .f32) dot_S512x100_S100x50_S512x50_1_0_0_1_n_n none
          (W main_v49)
          (transpose S100x50 [1, 0] (W main_arg11) transposes_S50x100_S100x50_1_0))
        (broadcastInDim S512x50 ![0, 1] bcast_S1x50_S512x50_0_1
          (broadcastInDim S1x50 ![1] bcast_S50_S1x50_1 (W main_arg12))) := by
  dsimp only [hostOps2_2]
  after_results <;> rfl

/-- Second clamp below at zero. -/
theorem s3 : StableHlo.after (hostOps2_3 (F := Ideal)) W main_v55
    = maximumf (F := Ideal) (φ := .f32) (W main_v54)
        (broadcastInDim S512x50 ![] bcast_S_S512x50 (constant (F := Ideal) S_ .f32 0x00000000#32)) := by
  dsimp only [hostOps2_3]
  after_results <;> rfl

/-- Third dense layer. -/
theorem s4 : StableHlo.after (hostOps2_4 (F := Ideal)) W main_v60
    = addf (F := Ideal) (φ := .f32)
        (Host.dotGeneral (F := Ideal) (φ₁ := .f32) (φ₂ := .f32) dot_S512x50_S50x10_S512x10_1_0_0_1_n_n none
          (W main_v55)
          (transpose S50x10 [1, 0] (W main_arg13) transposes_S10x50_S50x10_1_0))
        (broadcastInDim S512x10 ![0, 1] bcast_S1x10_S512x10_0_1
          (broadcastInDim S1x10 ![1] bcast_S10_S1x10_1 (W main_arg14))) := by
  dsimp only [hostOps2_4]
  after_results <;> rfl

/-- A stretch leaves every buffer it does not write as it was. -/
theorem k0 (r : Ref sig .tc) (h : r ∉ hostOps2_W) : StableHlo.after (hostOps2 (F := Ideal)) W r = W r :=
  StableHlo.after_of_writes_sub _ _ hostOps2_writes h
theorem k1 (r : Ref sig .tc) (h : r ∉ hostOps2_1_W) : StableHlo.after (hostOps2_1 (F := Ideal)) W r = W r :=
  StableHlo.after_of_writes_sub _ _ hostOps2_1_writes h
theorem k2 (r : Ref sig .tc) (h : r ∉ hostOps2_2_W) : StableHlo.after (hostOps2_2 (F := Ideal)) W r = W r :=
  StableHlo.after_of_writes_sub _ _ hostOps2_2_writes h
theorem k3 (r : Ref sig .tc) (h : r ∉ hostOps2_3_W) : StableHlo.after (hostOps2_3 (F := Ideal)) W r = W r :=
  StableHlo.after_of_writes_sub _ _ hostOps2_3_writes h

/-- The five stretches in a row compute the head from the second layer's output and the six head parameters as they
    stood before the first of them. -/
theorem head_after :
    (StableHlo.after (hostOps2_4 (F := Ideal)) (StableHlo.after (hostOps2_3 (F := Ideal)) (StableHlo.after (hostOps2_2 (F := Ideal))
        (StableHlo.after (hostOps2_1 (F := Ideal)) (StableHlo.after (hostOps2 (F := Ideal)) W)))) main_v60
      : (⟨Cert.ReferenceIdeal.S512x10, .f32⟩ : BufTy).Contents (Elt Ideal))
      = tailR (W main_v42) (W main_arg9) (W main_arg10) (W main_arg11) (W main_arg12) (W main_arg13) (W main_arg14) := by
  rw [s4, s3, k3 _ main_arg13 (by decide), k3 _ main_arg14 (by decide),
    s2, k2 _ main_arg13 (by decide), k2 _ main_arg14 (by decide),
    s1, k1 _ main_arg11 (by decide), k1 _ main_arg12 (by decide), k1 _ main_arg13 (by decide), k1 _ main_arg14 (by decide),
    s0, k0 _ main_arg11 (by decide), k0 _ main_arg12 (by decide), k0 _ main_arg13 (by decide), k0 _ main_arg14 (by decide)]
  rfl

end Stretches

open Cert.KernelIdeal in
/-- The kernel program's result is the head applied to its second kernel's output array. -/
theorem ker_tail (m : (ℓ : Loc Cert.KernelIdeal.nD Cert.KernelIdeal.τ Cert.KernelIdeal.sig) → Buf (Elt Ideal) ℓ) (outs : Cert.KernelIdeal.Gen.Outs (F := Ideal)) (c : Dev Cert.KernelIdeal.nD) :
    (Cert.KernelIdeal.Gen.V9 m outs c main_v60 : (⟨Cert.ReferenceIdeal.S512x10, .f32⟩ : BufTy).Contents (Elt Ideal))
      = tailR (Cert.KernelIdeal.Gen.V4 m outs c main_v42)
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) := by
  have a9 : Gen.V4 m outs c main_arg9 = m ((c : Thread nD τ).loc main_arg9) :=
    (Gen.V4_of m outs c main_arg9 (by decide)).trans <| (Gen.V3_of m outs c main_arg9 (by decide)).trans <|
      (Gen.V2_of m outs c main_arg9 (by decide)).trans <| (Gen.V1_of m c main_arg9 (by decide)).trans rfl
  have a10 : Gen.V4 m outs c main_arg10 = m ((c : Thread nD τ).loc main_arg10) :=
    (Gen.V4_of m outs c main_arg10 (by decide)).trans <| (Gen.V3_of m outs c main_arg10 (by decide)).trans <|
      (Gen.V2_of m outs c main_arg10 (by decide)).trans <| (Gen.V1_of m c main_arg10 (by decide)).trans rfl
  have a11 : Gen.V4 m outs c main_arg11 = m ((c : Thread nD τ).loc main_arg11) :=
    (Gen.V4_of m outs c main_arg11 (by decide)).trans <| (Gen.V3_of m outs c main_arg11 (by decide)).trans <|
      (Gen.V2_of m outs c main_arg11 (by decide)).trans <| (Gen.V1_of m c main_arg11 (by decide)).trans rfl
  have a12 : Gen.V4 m outs c main_arg12 = m ((c : Thread nD τ).loc main_arg12) :=
    (Gen.V4_of m outs c main_arg12 (by decide)).trans <| (Gen.V3_of m outs c main_arg12 (by decide)).trans <|
      (Gen.V2_of m outs c main_arg12 (by decide)).trans <| (Gen.V1_of m c main_arg12 (by decide)).trans rfl
  have a13 : Gen.V4 m outs c main_arg13 = m ((c : Thread nD τ).loc main_arg13) :=
    (Gen.V4_of m outs c main_arg13 (by decide)).trans <| (Gen.V3_of m outs c main_arg13 (by decide)).trans <|
      (Gen.V2_of m outs c main_arg13 (by decide)).trans <| (Gen.V1_of m c main_arg13 (by decide)).trans rfl
  have a14 : Gen.V4 m outs c main_arg14 = m ((c : Thread nD τ).loc main_arg14) :=
    (Gen.V4_of m outs c main_arg14 (by decide)).trans <| (Gen.V3_of m outs c main_arg14 (by decide)).trans <|
      (Gen.V2_of m outs c main_arg14 (by decide)).trans <| (Gen.V1_of m c main_arg14 (by decide)).trans rfl
  have h := head_after (Gen.V4 m outs c)
  rw [a9, a10, a11, a12, a13, a14] at h
  exact h

end Cert.Tail

end
-- ==== Proof.PreDecode.lean ====
/-
  THE PRINTED PRECONDITION, READ BACK. `Cert.Pre_finite_inputs.fn` is the conjunction, by the `i1` operation `and`, of
  fifteen scalar words. Fourteen of them are `all (|x| < +∞)` over one float input each: the elementwise comparison of
  `max x (-x)` with the f32 pattern 0x7F800000, reduced by `and` over every axis from the word 1. The fifteenth is
  `all (0 ≤ e ∧ e < 200)` over the two-row integer input, both comparisons signed. The fifteen are joined from the left:
  ((((c₀ ∧ c₂) ∧ c₃) ∧ …) ∧ c₁₄) ∧ c_idx.

  When the function's one result word is 1, each of the fifteen is 1 (`and` of two `i1` words is 1 only when both
  are); a reduction by `and` into a single word that is 1 met a 1 at every index; and at one index

    • `max x (-x) < ⊤` in the extended reals leaves neither `x = ⊤` nor `x = ⊥`, so `x` is a real number
      (the pattern 0x7F800000 denotes `⊤`);
    • the signed comparisons with the words 0 and 200 say `0 ≤ e` and `e < 200` of the word read as an integer.

  Only the facts about inputs 0, 2, 3, 4, 5 and the integer input are kept.
-/
import proofs.«400777_j26645977104607_3_alg».proof.Pre_finite_inputs
import Idealize.ShloMosaic.Lib.ReduceAll
import Idealize.ShloMosaic.PureOps.Ideal
import Mathlib.Data.EReal.Basic

noncomputable section

namespace Cert.PreDecode

open Idealize.ShloMosaic Cert.Pre_finite_inputs

/-- The rank-zero shape has one index. -/
instance subsingleton_S_Idx : Subsingleton S_.Idx := ⟨fun a b => funext fun d => d.elim0⟩

/-- The elementwise `and` of two word arrays, at an index. -/
theorem andi_apply {s : Shape} {w : Nat} (x y : IVec s w) (i : s.Idx) : andi x y i = IntOp.andi (x i) (y i) := rfl

/-- An extended real whose absolute value `max x (-x)` is below `+∞` (the f32 pattern 0x7F800000) is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

/-- `all (|x| < +∞)` over a float array of any shape: every entry is a real number. -/
theorem all_finite {s : Shape} {axes : List (Fin s.rank)} (hb : S_.BroadcastsInDim s (![] : Fin 0 → Fin s.rank))
    (hr : s.ReducesTo axes S_) (h0 : 0 < S_.numel) (x : FVec Ideal s .f32) (j : S_.Idx)
    (h : Host.reduce IntOp.andi
      (cmpf .olt (Host.absf x) (broadcastInDim s ![] hb (constant (F := Ideal) S_ .f32 0x7F800000#32)))
      (constantI S_ 1 1#1) hr h0 j = 1#1) :
    ∀ i, ∃ r : ℝ, x i = (r : EReal) := by
  intro i
  have e := Host.reduce_andi_all _ _ hr h0 j h i
  exact real_of_abs_lt_inf (x i) e

/-- `all (0 ≤ e ∧ e < 200)`, signed, over a 32-bit integer array of any shape: every entry, read as an integer, lies in [0, 200). -/
theorem idx_range {s : Shape} {axes : List (Fin s.rank)} (hb : S_.BroadcastsInDim s (![] : Fin 0 → Fin s.rank))
    (hr : s.ReducesTo axes S_) (h0 : 0 < S_.numel) (a : IVec s 32) (j : S_.Idx)
    (h : Host.reduce IntOp.andi
      (andi (cmpi .sge a (broadcastInDim s ![] hb (constantI S_ 32 0#32)))
            (cmpi .slt a (broadcastInDim s ![] hb (constantI S_ 32 200#32))))
      (constantI S_ 1 1#1) hr h0 j = 1#1) :
    ∀ i, 0 ≤ (a i).toInt ∧ (a i).toInt < 200 := by
  intro i
  have e := Host.reduce_andi_all _ _ hr h0 j h i
  have e' : IntOp.andi (IntOp.cmpi .sge (a i) 0#32) (IntOp.cmpi .slt (a i) 200#32) = 1#1 := e
  rw [IntOp.andi_eq_one, IntOp.cmpi_sge, IntOp.cmpi_slt] at e'
  have z : (0#32 : BitVec 32).toInt = 0 := by decide
  have t : (200#32 : BitVec 32).toInt = 200 := by decide
  rw [z, t] at e'
  exact e'

/-- THE PRECONDITION DECODED: inputs 0, 2, 3, 4 and 5 hold real numbers, and every entry of the integer input 1 lies in [0, 200). -/
theorem facts [Cert.Pre_finite_inputs.Facts]
    (a0 : FVec Ideal S200x16384 .f32) (a1 : IVec S2x12800 32) (a2 : FVec Ideal S12800 .f32)
    (a3 a4 : FVec Ideal S4096x16384 .f32) (a5 : FVec Ideal S4096 .f32) (a6 a7 : FVec Ideal S512x4096 .f32)
    (a8 : FVec Ideal S512 .f32) (a9 : FVec Ideal S100x200 .f32) (a10 : FVec Ideal S100 .f32)
    (a11 : FVec Ideal S50x100 .f32) (a12 : FVec Ideal S50 .f32) (a13 : FVec Ideal S10x50 .f32) (a14 : FVec Ideal S10 .f32)
    (h : Cert.Pre_finite_inputs.fn (F := Ideal) a0 a1 a2 a3 a4 a5 a6 a7 a8 a9 a10 a11 a12 a13 a14 = (fun _ => 1#1)) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal))
      ∧ (∀ i, 0 ≤ (a1 i).toInt ∧ (a1 i).toInt < 200) := by
  -- the function's one result word
  have e := congrFun h (fun d => d.elim0)
  dsimp only [Cert.Pre_finite_inputs.fn, fn_part1, fn_part2, fn_part3, fn_part4] at e
  -- the fifteen scalar words, joined from the left
  simp only [andi_apply, IntOp.andi_eq_one] at e
  obtain ⟨⟨⟨⟨⟨⟨⟨⟨⟨⟨⟨⟨⟨⟨h0, h2⟩, h3⟩, h4⟩, h5⟩, -⟩, -⟩, -⟩, -⟩, -⟩, -⟩, -⟩, -⟩, -⟩, hi⟩ := e
  exact ⟨all_finite _ _ _ a0 _ h0, all_finite _ _ _ a2 _ h2, all_finite _ _ _ a3 _ h3, all_finite _ _ _ a4 _ h4,
    all_finite _ _ _ a5 _ h5, idx_range _ _ _ a1 _ hi⟩

end Cert.PreDecode

end
-- ==== Proof.Layers.lean ====
/-
  Two mean-aggregation layers in a row, the first clamped below at zero: computing each layer's aggregate through
  the dense operator or edge by edge gives the same second-layer output, when the input features, the edge weights and
  the first layer's parameters are real numbers. The first layer's output is then real (finite sums and products of
  reals, a maximum with zero), which is what the second layer's identity needs; the second layer's parameters may be
  any extended reals.
-/
import proofs.«400777_j26645977104607_3_alg».proof.Proof.Sage

noncomputable section

open scoped BigOperators

namespace Cert.Sage

variable {N E D H K : ℕ}

theorem two_layers (src dst : Fin E → Fin N) (ea : Fin E → EReal) (x : Fin N → Fin D → EReal)
    (W1l W1r : Fin H → Fin D → EReal) (b1 : Fin H → EReal) (W2l W2r : Fin K → Fin H → EReal) (b2 : Fin K → EReal)
    (hx : IsReal2 x) (hea : IsReal1 ea) (hW1l : IsReal2 W1l) (hW1r : IsReal2 W1r) (hb1 : IsReal1 b1) (n : Fin N) (k : Fin K) :
    lin (aggK src dst ea (fun n h => max (lin (aggK src dst ea x) x W1l W1r b1 n h) 0))
        (fun n h => max (lin (aggK src dst ea x) x W1l W1r b1 n h) 0) W2l W2r b2 n k
      = lin (aggR src dst ea (fun n h => max (lin (aggR src dst ea x) x W1l W1r b1 n h) 0))
        (fun n h => max (lin (aggR src dst ea x) x W1l W1r b1 n h) 0) W2l W2r b2 n k := by
  have e1 : aggK src dst ea x = aggR src dst ea x :=
    funext fun n => funext fun f => aggK_eq_aggR src dst ea x hx hea n f
  rw [e1]
  have hh : IsReal2 (fun n h => max (lin (aggR src dst ea x) x W1l W1r b1 n h) 0) :=
    relu_isReal _ (lin_isReal _ _ _ _ _ (aggR_isReal src dst ea x hx hea) hx hW1l hW1r hb1)
  have e2 : aggK src dst ea (fun n h => max (lin (aggR src dst ea x) x W1l W1r b1 n h) 0)
      = aggR src dst ea (fun n h => max (lin (aggR src dst ea x) x W1l W1r b1 n h) 0) :=
    funext fun n => funext fun f => aggK_eq_aggR src dst ea _ hh hea n f
  rw [e2]

end Cert.Sage

end
-- ==== Proof.Bridge.lean ====
import proofs.«400777_j26645977104607_3_alg».proof.Proof.KRun
import proofs.«400777_j26645977104607_3_alg».proof.Proof.Val0
import proofs.«400777_j26645977104607_3_alg».proof.Proof.Val1
import proofs.«400777_j26645977104607_3_alg».proof.Proof.KHost
import proofs.«400777_j26645977104607_3_alg».proof.Proof.RefRead
import proofs.«400777_j26645977104607_3_alg».proof.Proof.Tail
import proofs.«400777_j26645977104607_3_alg».proof.Proof.PreDecode
import proofs.«400777_j26645977104607_3_alg».proof.Proof.Layers

set_option maxRecDepth 16384

noncomputable section

open scoped BigOperators

/-! # The two programs compute the same result

On the extended reals the kernel program's result is the classifier head applied to
`lin (aggK h₁) h₁ W2l W2r b2` with `h₁ = max (lin (aggK x) x W1l W1r b1) 0` — each aggregate formed as the dense
operator times the features — and the reference's is the same with each aggregate formed edge by edge (`aggR`). Under
the precondition (the features, the edge weights and the first layer's parameters real; every edge endpoint a node)
the two second-layer outputs agree entry by entry (`Cert.Sage.two_layers`), and the head is one function of them. -/

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The launch arrays as matrices and vectors over their coordinates. -/
abbrev X : Fin 200 → Fin 16384 → EReal := fun n f => (m ((c : Thread nD τ).loc main_arg0) : S200x16384.Idx → EReal) (ix2 n f)
abbrev W1l : Fin 4096 → Fin 16384 → EReal := fun h f => (m ((c : Thread nD τ).loc main_arg3) : S4096x16384.Idx → EReal) (ix2 h f)
abbrev W1r : Fin 4096 → Fin 16384 → EReal := fun h f => (m ((c : Thread nD τ).loc main_arg4) : S4096x16384.Idx → EReal) (ix2 h f)
abbrev B1 : Fin 4096 → EReal := fun h => (m ((c : Thread nD τ).loc main_arg5) : S4096.Idx → EReal) (ix1 h)
abbrev W2l : Fin 512 → Fin 4096 → EReal := fun k f => (m ((c : Thread nD τ).loc main_arg6) : S512x4096.Idx → EReal) (ix2 k f)
abbrev W2r : Fin 512 → Fin 4096 → EReal := fun k f => (m ((c : Thread nD τ).loc main_arg7) : S512x4096.Idx → EReal) (ix2 k f)
abbrev B2 : Fin 512 → EReal := fun k => (m ((c : Thread nD τ).loc main_arg8) : S512.Idx → EReal) (ix1 k)

/-- The first kernel's output array, entry by entry. -/
theorem k1 (hr : Cert.Edges.InRange (eiOf m c)) (n : Fin 200) (h : Fin 4096) :
    (Gen.V2 m (outs m) c main_v37 : S200x4096.Idx → EReal) (ix2 n h)
      = max (Cert.Sage.lin (Cert.Sage.aggK (srcOf m c hr) (dstOf m c hr) (eaOf m c) (X m c)) (X m c) (W1l m c) (W1r m c) (B1 m c) n h) 0 := by
  have hV2 : Gen.V2 m (outs m) c main_v37 = outs m 2 main_v37 c := by
    simp only [Gen.V2, Function.update_self]
  rw [hV2, outs_2, arr0_apply (VR0 m) c n h]
  have e35 : (fun n f => (VR0 m c main_v35 : S200x16384.Idx → EReal) (ix2 n f))
      = Cert.Sage.aggK (srcOf m c hr) (dstOf m c hr) (eaOf m c) (X m c) :=
    funext fun n => funext fun f => v35_apply m c hr n f
  have e34 : (fun n f => (VR0 m c main_v34 : S200x16384.Idx → EReal) (ix2 n f)) = X m c :=
    funext fun n => funext fun f => v34_apply m c n f
  have e3 : (fun h f => (VR0 m c main_arg3 : S4096x16384.Idx → EReal) (ix2 h f)) = W1l m c :=
    funext fun h => funext fun f => congrFun ((Gen.V1_of m c main_arg3 (by decide)).trans rfl) (ix2 h f)
  have e4 : (fun h f => (VR0 m c main_arg4 : S4096x16384.Idx → EReal) (ix2 h f)) = W1r m c :=
    funext fun h => funext fun f => congrFun ((Gen.V1_of m c main_arg4 (by decide)).trans rfl) (ix2 h f)
  have e36 : (fun h => (VR0 m c main_v36 : S1x4096.Idx → EReal) (ix2 0 h)) = B1 m c :=
    funext fun h => v36_apply m c h
  rw [e35, e34, e3, e4, e36]

/-- The second kernel's output array, entry by entry, over the first kernel's. -/
theorem k2 (hr : Cert.Edges.InRange (eiOf m c)) (n : Fin 200) (k : Fin 512) :
    (Gen.V4 m (outs m) c main_v42 : S200x512.Idx → EReal) (ix2 n k)
      = Cert.Sage.lin
          (Cert.Sage.aggK (srcOf m c hr) (dstOf m c hr) (eaOf m c)
            (fun n h => (Gen.V2 m (outs m) c main_v37 : S200x4096.Idx → EReal) (ix2 n h)))
          (fun n h => (Gen.V2 m (outs m) c main_v37 : S200x4096.Idx → EReal) (ix2 n h))
          (W2l m c) (W2r m c) (B2 m c) n k := by
  have hV4 : Gen.V4 m (outs m) c main_v42 = outs m 4 main_v42 c := by
    simp only [Gen.V4, Function.update_self]
  rw [hV4, outs_4, arr1_apply (VR1 m) c n k]
  have e40 : (fun n f => (VR1 m c main_v40 : S200x4096.Idx → EReal) (ix2 n f))
      = Cert.Sage.aggK (srcOf m c hr) (dstOf m c hr) (eaOf m c)
          (fun n h => (Gen.V2 m (outs m) c main_v37 : S200x4096.Idx → EReal) (ix2 n h)) :=
    funext fun n => funext fun f => v40_apply m c (outs m) hr n f
  have e39 : (fun n f => (VR1 m c main_v39 : S200x4096.Idx → EReal) (ix2 n f))
      = (fun n h => (Gen.V2 m (outs m) c main_v37 : S200x4096.Idx → EReal) (ix2 n h)) :=
    funext fun n => funext fun f => v39_apply m c (outs m) n f
  have e6 : (fun k f => (VR1 m c main_arg6 : S512x4096.Idx → EReal) (ix2 k f)) = W2l m c :=
    funext fun k => funext fun f => congrFun ((Gen.V3_of m (outs m) c main_arg6 (by decide)).trans
      ((Gen.V2_of m (outs m) c main_arg6 (by decide)).trans ((Gen.V1_of m c main_arg6 (by decide)).trans rfl))) (ix2 k f)
  have e7 : (fun k f => (VR1 m c main_arg7 : S512x4096.Idx → EReal) (ix2 k f)) = W2r m c :=
    funext fun k => funext fun f => congrFun ((Gen.V3_of m (outs m) c main_arg7 (by decide)).trans
      ((Gen.V2_of m (outs m) c main_arg7 (by decide)).trans ((Gen.V1_of m c main_arg7 (by decide)).trans rfl))) (ix2 k f)
  have e41 : (fun k => (VR1 m c main_v41 : S1x512.Idx → EReal) (ix2 0 k)) = B2 m c :=
    funext fun k => v41_apply m c (outs m) k
  rw [e40, e39, e6, e7, e41]

/-- THE BRIDGE. From memories that agree on the arguments, under the precondition, the reference's result term is what
    the kernel program leaves in its result buffer. -/
theorem result_eq [Cert.Pre_finite_inputs.Facts]
    (m' : (ℓ : Loc Cert.ReferenceIdeal.nD Cert.ReferenceIdeal.τ Cert.ReferenceIdeal.sig) → Buf (Elt Ideal) ℓ)
    (c' : Dev Cert.ReferenceIdeal.nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) = (fun _ => 1#1))
    (h0 : m' ((c'.tc : Thread Cert.ReferenceIdeal.nD Cert.ReferenceIdeal.τ).loc Cert.ReferenceIdeal.main_arg0) = m ((c.tc : Thread nD τ).loc main_arg0))
    (h1 : m' ((c'.tc : Thread Cert.ReferenceIdeal.nD Cert.ReferenceIdeal.τ).loc Cert.ReferenceIdeal.main_arg1) = m ((c.tc : Thread nD τ).loc main_arg1))
    (h2 : m' ((c'.tc : Thread Cert.ReferenceIdeal.nD Cert.ReferenceIdeal.τ).loc Cert.ReferenceIdeal.main_arg2) = m ((c.tc : Thread nD τ).loc main_arg2))
    (h3 : m' ((c'.tc : Thread Cert.ReferenceIdeal.nD Cert.ReferenceIdeal.τ).loc Cert.ReferenceIdeal.main_arg3) = m ((c.tc : Thread nD τ).loc main_arg3))
    (h4 : m' ((c'.tc : Thread Cert.ReferenceIdeal.nD Cert.ReferenceIdeal.τ).loc Cert.ReferenceIdeal.main_arg4) = m ((c.tc : Thread nD τ).loc main_arg4))
    (h5 : m' ((c'.tc : Thread Cert.ReferenceIdeal.nD Cert.ReferenceIdeal.τ).loc Cert.ReferenceIdeal.main_arg5) = m ((c.tc : Thread nD τ).loc main_arg5))
    (h6 : m' ((c'.tc : Thread Cert.ReferenceIdeal.nD Cert.ReferenceIdeal.τ).loc Cert.ReferenceIdeal.main_arg6) = m ((c.tc : Thread nD τ).loc main_arg6))
    (h7 : m' ((c'.tc : Thread Cert.ReferenceIdeal.nD Cert.ReferenceIdeal.τ).loc Cert.ReferenceIdeal.main_arg7) = m ((c.tc : Thread nD τ).loc main_arg7))
    (h8 : m' ((c'.tc : Thread Cert.ReferenceIdeal.nD Cert.ReferenceIdeal.τ).loc Cert.ReferenceIdeal.main_arg8) = m ((c.tc : Thread nD τ).loc main_arg8))
    (h9 : m' ((c'.tc : Thread Cert.ReferenceIdeal.nD Cert.ReferenceIdeal.τ).loc Cert.ReferenceIdeal.main_arg9) = m ((c.tc : Thread nD τ).loc main_arg9))
    (h10 : m' ((c'.tc : Thread Cert.ReferenceIdeal.nD Cert.ReferenceIdeal.τ).loc Cert.ReferenceIdeal.main_arg10) = m ((c.tc : Thread nD τ).loc main_arg10))
    (h11 : m' ((c'.tc : Thread Cert.ReferenceIdeal.nD Cert.ReferenceIdeal.τ).loc Cert.ReferenceIdeal.main_arg11) = m ((c.tc : Thread nD τ).loc main_arg11))
    (h12 : m' ((c'.tc : Thread Cert.ReferenceIdeal.nD Cert.ReferenceIdeal.τ).loc Cert.ReferenceIdeal.main_arg12) = m ((c.tc : Thread nD τ).loc main_arg12))
    (h13 : m' ((c'.tc : Thread Cert.ReferenceIdeal.nD Cert.ReferenceIdeal.τ).loc Cert.ReferenceIdeal.main_arg13) = m ((c.tc : Thread nD τ).loc main_arg13))
    (h14 : m' ((c'.tc : Thread Cert.ReferenceIdeal.nD Cert.ReferenceIdeal.τ).loc Cert.ReferenceIdeal.main_arg14) = m ((c.tc : Thread nD τ).loc main_arg14)) :
    Cert.ReferenceIdeal.Value.res_main_v82 m' c' = Gen.V9 m (outs m) c main_v60 := by
  obtain ⟨hx, hea, hW1l, hW1r, hb1, hidx⟩ := Cert.PreDecode.facts _ _ _ _ _ _ _ _ _ _ _ _ _ _ _ hpre
  have hr : Cert.Edges.InRange (eiOf m c) := hidx
  rw [Cert.ReferenceIdeal.Read.val_main_v82_eq, h0, h1, h2, h3, h4, h5, h6, h7, h8, h9, h10, h11, h12, h13, h14,
    Cert.Tail.ref_tail]
  refine Eq.trans ?_ (Cert.Tail.ker_tail m (outs m) c).symm
  congr 1
  funext j
  obtain ⟨n, k, rfl⟩ : ∃ (n : Fin 200) (k : Fin 512), j = ix2 n k := ⟨j 0, j 1, eq_ix2 j⟩
  refine (Cert.ReferenceIdeal.Hand.h2_apply _ _ _ _ _ _ _ _ _ hr n k).trans ?_
  refine Eq.trans ?_ (k2 m c hr n k).symm
  have e1R : (fun n f => (Cert.ReferenceIdeal.Read.val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : Cert.ReferenceIdeal.S200x4096.Idx → EReal) (ix2 n f))
      = (fun n h => max (Cert.Sage.lin (Cert.Sage.aggR (srcOf m c hr) (dstOf m c hr) (eaOf m c) (X m c)) (X m c) (W1l m c) (W1r m c) (B1 m c) n h) 0) :=
    funext fun n => funext fun h => Cert.ReferenceIdeal.Hand.h1_apply _ _ _ _ _ _ hr n h
  have e1K : (fun n h => (Gen.V2 m (outs m) c main_v37 : S200x4096.Idx → EReal) (ix2 n h))
      = (fun n h => max (Cert.Sage.lin (Cert.Sage.aggK (srcOf m c hr) (dstOf m c hr) (eaOf m c) (X m c)) (X m c) (W1l m c) (W1r m c) (B1 m c) n h) 0) :=
    funext fun n => funext fun h => k1 m c hr n h
  rw [e1R, e1K]
  exact (Cert.Sage.two_layers (srcOf m c hr) (dstOf m c hr) (eaOf m c) (X m c) (W1l m c) (W1r m c) (B1 m c) (W2l m c) (W2r m c) (B2 m c)
    (fun n f => hx (ix2 n f)) (fun e => hea (ix1 e)) (fun h f => hW1l (ix2 h f)) (fun h f => hW1r (ix2 h f)) (fun h => hb1 (ix1 h)) n k).symm

end Cert.Bridge

end
-- ==== Proof.lean ====
/- The certificate's claims, assembled.

   A two-layer mean-aggregation graph network with a small classifier head, written with two tiled kernels (one per
   graph layer, each accumulating `agg · Wlᵀ + h · Wrᵀ` over slabs of the feature axis in a scratch buffer, adding the
   bias at the last slab) around a dense aggregation operator built on the host, against a reference that aggregates
   edge by edge. The frames of the two kernel programs come from one run of @main through both kernel regions with
   every buffer's final contents named; the reference's from its run. On the extended reals the two results are
   equal under the precondition: real features, edge weights and first-layer parameters, and every edge endpoint a
   node (`Cert.Bridge.result_eq`). The idealization rewrote nothing, so `preserves` is trivial. -/
import proofs.«400777_j26645977104607_3_alg».proof.Defs
import proofs.«400777_j26645977104607_3_alg».proof.Proof.Gen.Kernel
import proofs.«400777_j26645977104607_3_alg».proof.Proof.Gen.KernelIdeal
import proofs.«400777_j26645977104607_3_alg».proof.Proof.Gen.ReferenceIdeal
import proofs.«400777_j26645977104607_3_alg».proof.Proof.Gen.Pre_finite_inputs
import proofs.«400777_j26645977104607_3_alg».proof.Proof.Gen.ReferenceIdeal.Run
import proofs.«400777_j26645977104607_3_alg».proof.Proof.KRun
import proofs.«400777_j26645977104607_3_alg».proof.Proof.KRunB
import proofs.«400777_j26645977104607_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs run; the kernel program's result buffer ends at the last valuation's contents, and the reference's
    result term is that (`Cert.Bridge.result_eq`). -/
theorem algebraic : Cert.algebraic_KernelIdeal_ReferenceIdeal := by
  intro m ρ m' ρ' hpre hagree
  refine ⟨fun c => Cert.KernelIdeal.Gen.V9 m (Cert.KernelIdeal.Hand.outs m) c Cert.KernelIdeal.main_v60, ?_, ?_⟩
  · refine (θ_run Cert.KernelIdeal.defs _ _).mono (fun r h c => ⟨?_, ?_⟩) (Cert.KernelIdeal.Hand.run_all m ρ)
    · exact h c (Proc.devRef .tc Cert.KernelIdeal.main_v60) (Finset.mem_filter.mpr ⟨StableHlo.devRef_mem_tcRefs Cert.KernelIdeal.main_v60, by decide⟩)
    · exact ⟨(h c (Proc.devRef .tc Cert.KernelIdeal.main_arg0) (Finset.mem_filter.mpr ⟨StableHlo.devRef_mem_tcRefs Cert.KernelIdeal.main_arg0, by decide⟩)).trans (Cert.KernelIdeal.Gen.V9_main_arg0 m (Cert.KernelIdeal.Hand.outs m) c),
      (h c (Proc.devRef .tc Cert.KernelIdeal.main_arg1) (Finset.mem_filter.mpr ⟨StableHlo.devRef_mem_tcRefs Cert.KernelIdeal.main_arg1, by decide⟩)).trans (Cert.KernelIdeal.Gen.V9_main_arg1 m (Cert.KernelIdeal.Hand.outs m) c),
      (h c (Proc.devRef .tc Cert.KernelIdeal.main_arg2) (Finset.mem_filter.mpr ⟨StableHlo.devRef_mem_tcRefs Cert.KernelIdeal.main_arg2, by decide⟩)).trans (Cert.KernelIdeal.Gen.V9_main_arg2 m (Cert.KernelIdeal.Hand.outs m) c),
      (h c (Proc.devRef .tc Cert.KernelIdeal.main_arg3) (Finset.mem_filter.mpr ⟨StableHlo.devRef_mem_tcRefs Cert.KernelIdeal.main_arg3, by decide⟩)).trans (Cert.KernelIdeal.Gen.V9_main_arg3 m (Cert.KernelIdeal.Hand.outs m) c),
      (h c (Proc.devRef .tc Cert.KernelIdeal.main_arg4) (Finset.mem_filter.mpr ⟨StableHlo.devRef_mem_tcRefs Cert.KernelIdeal.main_arg4, by decide⟩)).trans (Cert.KernelIdeal.Gen.V9_main_arg4 m (Cert.KernelIdeal.Hand.outs m) c),
      (h c (Proc.devRef .tc Cert.KernelIdeal.main_arg5) (Finset.mem_filter.mpr ⟨StableHlo.devRef_mem_tcRefs Cert.KernelIdeal.main_arg5, by decide⟩)).trans (Cert.KernelIdeal.Gen.V9_main_arg5 m (Cert.KernelIdeal.Hand.outs m) c),
      (h c (Proc.devRef .tc Cert.KernelIdeal.main_arg6) (Finset.mem_filter.mpr ⟨StableHlo.devRef_mem_tcRefs Cert.KernelIdeal.main_arg6, by decide⟩)).trans (Cert.KernelIdeal.Gen.V9_main_arg6 m (Cert.KernelIdeal.Hand.outs m) c),
      (h c (Proc.devRef .tc Cert.KernelIdeal.main_arg7) (Finset.mem_filter.mpr ⟨StableHlo.devRef_mem_tcRefs Cert.KernelIdeal.main_arg7, by decide⟩)).trans (Cert.KernelIdeal.Gen.V9_main_arg7 m (Cert.KernelIdeal.Hand.outs m) c),
      (h c (Proc.devRef .tc Cert.KernelIdeal.main_arg8) (Finset.mem_filter.mpr ⟨StableHlo.devRef_mem_tcRefs Cert.KernelIdeal.main_arg8, by decide⟩)).trans (Cert.KernelIdeal.Gen.V9_main_arg8 m (Cert.KernelIdeal.Hand.outs m) c),
      (h c (Proc.devRef .tc Cert.KernelIdeal.main_arg9) (Finset.mem_filter.mpr ⟨StableHlo.devRef_mem_tcRefs Cert.KernelIdeal.main_arg9, by decide⟩)).trans (Cert.KernelIdeal.Gen.V9_main_arg9 m (Cert.KernelIdeal.Hand.outs m) c),
      (h c (Proc.devRef .tc Cert.KernelIdeal.main_arg10) (Finset.mem_filter.mpr ⟨StableHlo.devRef_mem_tcRefs Cert.KernelIdeal.main_arg10, by decide⟩)).trans (Cert.KernelIdeal.Gen.V9_main_arg10 m (Cert.KernelIdeal.Hand.outs m) c),
      (h c (Proc.devRef .tc Cert.KernelIdeal.main_arg11) (Finset.mem_filter.mpr ⟨StableHlo.devRef_mem_tcRefs Cert.KernelIdeal.main_arg11, by decide⟩)).trans (Cert.KernelIdeal.Gen.V9_main_arg11 m (Cert.KernelIdeal.Hand.outs m) c),
      (h c (Proc.devRef .tc Cert.KernelIdeal.main_arg12) (Finset.mem_filter.mpr ⟨StableHlo.devRef_mem_tcRefs Cert.KernelIdeal.main_arg12, by decide⟩)).trans (Cert.KernelIdeal.Gen.V9_main_arg12 m (Cert.KernelIdeal.Hand.outs m) c),
      (h c (Proc.devRef .tc Cert.KernelIdeal.main_arg13) (Finset.mem_filter.mpr ⟨StableHlo.devRef_mem_tcRefs Cert.KernelIdeal.main_arg13, by decide⟩)).trans (Cert.KernelIdeal.Gen.V9_main_arg13 m (Cert.KernelIdeal.Hand.outs m) c),
      (h c (Proc.devRef .tc Cert.KernelIdeal.main_arg14) (Finset.mem_filter.mpr ⟨StableHlo.devRef_mem_tcRefs Cert.KernelIdeal.main_arg14, by decide⟩)).trans (Cert.KernelIdeal.Gen.V9_main_arg14 m (Cert.KernelIdeal.Hand.outs m) c)⟩
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    exact Cert.Bridge.result_eq m c m' c (hpre c) h0 h1 h2 h3 h4 h5 h6 h7 h8 h9 h10 h11 h12 h13 h14

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
